-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v93)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v93) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v99) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x3 : Shape := ⟨2, ![100000, 3]⟩
abbrev S2x1600000 : Shape := ⟨2, ![2, 1600000]⟩
abbrev S100000 : Shape := ⟨1, ![100000]⟩
abbrev S3x128 : Shape := ⟨2, ![3, 128]⟩
abbrev S128 : Shape := ⟨1, ![128]⟩
abbrev S128x128 : Shape := ⟨2, ![128, 128]⟩
abbrev S128x4 : Shape := ⟨2, ![128, 4]⟩
abbrev S4 : Shape := ⟨1, ![4]⟩
abbrev S_ : Shape := ⟨0, ![]⟩

class Facts : Prop where
  bcast_S_S100000x3 : S_.BroadcastsInDim S100000x3 (![] : Fin 0 → Fin S100000x3.rank)
  reducesTo_S100000x3_S_d0_1 : S100000x3.ReducesTo [0, 1] S_
  h_S_ : 0 < S_.numel
  bcast_S_S3x128 : S_.BroadcastsInDim S3x128 (![] : Fin 0 → Fin S3x128.rank)
  reducesTo_S3x128_S_d0_1 : S3x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S128x4 : S_.BroadcastsInDim S128x4 (![] : Fin 0 → Fin S128x4.rank)
  reducesTo_S128x4_S_d0_1 : S128x4.ReducesTo [0, 1] S_
  bcast_S_S4 : S_.BroadcastsInDim S4 (![] : Fin 0 → Fin S4.rank)
  reducesTo_S4_S_d0 : S4.ReducesTo [0] S_

variable [Facts]

def fn_part2 {F : FTy → Type} [FloatOps F] (main_arg9 : FVec F S128x4 .f32) (main_arg10 : FVec F S4 .f32) (main_v33 : IVec S_ 1) : IVec S_ 1 :=
  let main_v34 : FVec F S128x4 .f32 := Host.absf main_arg9
  let main_cst_12 : FVec F S_ .f32 := constant S_ .f32 0x7F800000#32
  let main_v35 : FVec F S128x4 .f32 := broadcastInDim S128x4 ![] bcast_S_S128x4 main_cst_12
  let main_v36 : IVec S128x4 1 := cmpf .olt main_v34 main_v35
  let main_c_13 : IVec S_ 1 := constantI S_ 1 1#1
  let main_v37 : IVec S_ 1 := (fun x v => Host.reduce IntOp.andi x v reducesTo_S128x4_S_d0_1 h_S_) main_v36 main_c_13
  let main_v38 : IVec S_ 1 := andi main_v33 main_v37
  let main_v39 : FVec F S4 .f32 := Host.absf main_arg10
  let main_cst_14 : FVec F S_ .f32 := constant S_ .f32 0x7F800000#32
  let main_v40 : FVec F S4 .f32 := broadcastInDim S4 ![] bcast_S_S4 main_cst_14
  let main_v41 : IVec S4 1 := cmpf .olt main_v39 main_v40
  let main_c_15 : IVec S_ 1 := constantI S_ 1 1#1
  let main_v42 : IVec S_ 1 := (fun x v => Host.reduce IntOp.andi x v reducesTo_S4_S_d0 h_S_) main_v41 main_c_15
  let main_v43 : IVec S_ 1 := andi main_v38 main_v42
  main_v43

def fn_part1 {F : FTy → Type} [FloatOps F] (main_arg6 : FVec F S128 .f32) (main_arg7 : FVec F S128x128 .f32) (main_arg8 : FVec F S128 .f32) (main_arg9 : FVec F S128x4 .f32) (main_arg10 : FVec F S4 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg7
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg9 main_arg10 main_v33

def fn {F : FTy → Type} [FloatOps F] (main_arg0 : FVec F S100000x3 .f32) (main_arg1 : IVec S2x1600000 32) (main_arg2 : IVec S100000 32) (main_arg3 : FVec F S3x128 .f32) (main_arg4 : FVec F S128 .f32) (main_arg5 : FVec F S128x128 .f32) (main_arg6 : FVec F S128 .f32) (main_arg7 : FVec F S128x128 .f32) (main_arg8 : FVec F S128 .f32) (main_arg9 : FVec F S128x4 .f32) (main_arg10 : FVec F S4 .f32) : IVec S_ 1 :=
  let main_v0 : FVec F S100000x3 .f32 := Host.absf main_arg0
  let main_cst : FVec F S_ .f32 := constant S_ .f32 0x7F800000#32
  let main_v1 : FVec F S100000x3 .f32 := broadcastInDim S100000x3 ![] bcast_S_S100000x3 main_cst
  let main_v2 : IVec S100000x3 1 := cmpf .olt main_v0 main_v1
  let main_c : IVec S_ 1 := constantI S_ 1 1#1
  let main_v3 : IVec S_ 1 := (fun x v => Host.reduce IntOp.andi x v reducesTo_S100000x3_S_d0_1 h_S_) main_v2 main_c
  let main_v4 : FVec F S3x128 .f32 := Host.absf main_arg3
  let main_cst_0 : FVec F S_ .f32 := constant S_ .f32 0x7F800000#32
  let main_v5 : FVec F S3x128 .f32 := broadcastInDim S3x128 ![] bcast_S_S3x128 main_cst_0
  let main_v6 : IVec S3x128 1 := cmpf .olt main_v4 main_v5
  let main_c_1 : IVec S_ 1 := constantI S_ 1 1#1
  let main_v7 : IVec S_ 1 := (fun x v => Host.reduce IntOp.andi x v reducesTo_S3x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg6 main_arg7 main_arg8 main_arg9 main_arg10 main_v13 main_v16
-- ==== Kernel.lean ====
abbrev S100000x3 : Shape := ⟨2, ![100000, 3]⟩
abbrev S2x1600000 : Shape := ⟨2, ![2, 1600000]⟩
abbrev S100000 : Shape := ⟨1, ![100000]⟩
abbrev S3x128 : Shape := ⟨2, ![3, 128]⟩
abbrev S128 : Shape := ⟨1, ![128]⟩
abbrev S128x128 : Shape := ⟨2, ![128, 128]⟩
abbrev S128x4 : Shape := ⟨2, ![128, 4]⟩
abbrev S4 : Shape := ⟨1, ![4]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x128 : Shape := ⟨2, ![100000, 128]⟩
abbrev S5000x3 : Shape := ⟨2, ![5000, 3]⟩
abbrev S5000x128 : Shape := ⟨2, ![5000, 128]⟩
abbrev S1700000x128 : Shape := ⟨2, ![1700000, 128]⟩
abbrev S1x128 : Shape := ⟨2, ![1, 128]⟩
abbrev S100000x1 : Shape := ⟨2, ![100000, 1]⟩
abbrev S64x128 : Shape := ⟨2, ![64, 128]⟩
abbrev S5000x1 : Shape := ⟨2, ![5000, 1]⟩
abbrev S5000x64 : Shape := ⟨2, ![5000, 64]⟩
abbrev S64x5000 : Shape := ⟨2, ![64, 5000]⟩
abbrev S64 : Shape := ⟨1, ![64]⟩
abbrev S64x1 : Shape := ⟨2, ![64, 1]⟩
abbrev S64x4 : Shape := ⟨2, ![64, 4]⟩
abbrev S1x4 : Shape := ⟨2, ![1, 4]⟩

abbrev nBuf : Space → Nat
  | .hbm => 128
  | .vmem => 35
  | .smem => 0
  | _ => 0

abbrev bufTy : (tb : Table) → Fin (tcTables nBuf tb) → BufTy
  | .hbm, ⟨0, _⟩ => ⟨S100000x3, .f32⟩
  | .hbm, ⟨1, _⟩ => ⟨S2x1600000, .i32⟩
  | .hbm, ⟨2, _⟩ => ⟨S100000, .i32⟩
  | .hbm, ⟨3, _⟩ => ⟨S3x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S128x4, .f32⟩
  | .hbm, ⟨10, _⟩ => ⟨S4, .f32⟩
  | .hbm, ⟨11, _⟩ => ⟨S100000, .i32⟩
  | .hbm, ⟨12, _⟩ => ⟨S1x1600000, .i32⟩
  | .hbm, ⟨13, _⟩ => ⟨S1600000, .i32⟩
  | .hbm, ⟨14, _⟩ => ⟨S1700000, .i32⟩
  | .hbm, ⟨15, _⟩ => ⟨S1x1600000, .i32⟩
  | .hbm, ⟨16, _⟩ => ⟨S1600000, .i32⟩
  | .hbm, ⟨17, _⟩ => ⟨S1700000, .i32⟩
  | .hbm, ⟨18, _⟩ => ⟨S_, .f32⟩
  | .hbm, ⟨19, _⟩ => ⟨S1700000, .f32⟩
  | .hbm, ⟨20, _⟩ => ⟨S_, .f32⟩
  | .hbm, ⟨21, _⟩ => ⟨S100000, .f32⟩
  | .hbm, ⟨22, _⟩ => ⟨S1700000x1, .i32⟩
  | .hbm, ⟨23, _⟩ => ⟨S100000, .f32⟩
  | .hbm, ⟨24, _⟩ => ⟨S_, .f32⟩
  | .hbm, ⟨25, _⟩ => ⟨S100000, .f32⟩
  | .hbm, ⟨26, _⟩ => ⟨S100000, .i1⟩
  | .hbm, ⟨27, _⟩ => ⟨S_, .f32⟩
  | .hbm, ⟨28, _⟩ => ⟨S100000, .f32⟩
  | .hbm, ⟨29, _⟩ => ⟨S100000, .f32⟩
  | .hbm, ⟨30, _⟩ => ⟨S_, .f32⟩
  | .hbm, ⟨31, _⟩ => ⟨S_, .f32⟩
  | .hbm, ⟨32, _⟩ => ⟨S100000, .f32⟩
  | .hbm, ⟨33, _⟩ => ⟨S100000, .f32⟩
  | .hbm, ⟨34, _⟩ => ⟨S_, .i32⟩
  | .hbm, ⟨35, _⟩ => ⟨S1700000, .i32⟩
  | .hbm, ⟨36, _⟩ => ⟨S1700000, .i1⟩
  | .hbm, ⟨37, _⟩ => ⟨S_, .i32⟩
  | .hbm, ⟨38, _⟩ => ⟨S1700000, .i32⟩
  | .hbm, ⟨39, _⟩ => ⟨S1700000, .i32⟩
  | .hbm, ⟨40, _⟩ => ⟨S1700000, .i32⟩
  | .hbm, ⟨41, _⟩ => ⟨S1700000x1, .i32⟩
  | .hbm, ⟨42, _⟩ => ⟨S1700000, .f32⟩
  | .hbm, ⟨43, _⟩ => ⟨S_, .i32⟩
  | .hbm, ⟨44, _⟩ => ⟨S1700000, .i32⟩
  | .hbm, ⟨45, _⟩ => ⟨S1700000, .i1⟩
  | .hbm, ⟨46, _⟩ => ⟨S_, .i32⟩
  | .hbm, ⟨47, _⟩ => ⟨S1700000, .i32⟩
  | .hbm, ⟨48, _⟩ => ⟨S1700000, .i32⟩
  | .hbm, ⟨49, _⟩ => ⟨S1700000, .i32⟩
  | .hbm, ⟨50, _⟩ => ⟨S1700000x1, .i32⟩
  | .hbm, ⟨51, _⟩ => ⟨S1700000, .f32⟩
  | .hbm, ⟨52, _⟩ => ⟨S1700000, .f32⟩
  | .hbm, ⟨53, _⟩ => ⟨S100000x128, .f32⟩
  | .hbm, ⟨54, _⟩ => ⟨S1700000x1, .f32⟩
  | .hbm, ⟨55, _⟩ => ⟨S_, .i32⟩
  | .hbm, ⟨56, _⟩ => ⟨S1700000, .i32⟩
  | .hbm, ⟨57, _⟩ => ⟨S1700000, .i1⟩
  | .hbm, ⟨58, _⟩ => ⟨S_, .i32⟩
  | .hbm, ⟨59, _⟩ => ⟨S1700000, .i32⟩
  | .hbm, ⟨60, _⟩ => ⟨S1700000, .i32⟩
  | .hbm, ⟨61, _⟩ => ⟨S1700000, .i32⟩
  | .hbm, ⟨62, _⟩ => ⟨S1700000x1, .i32⟩
  | .hbm, ⟨63, _⟩ => ⟨S1700000x128, .f32⟩
  | .hbm, ⟨64, _⟩ => ⟨S1700000x128, .f32⟩
  | .hbm, ⟨65, _⟩ => ⟨S1700000x128, .f32⟩
  | .hbm, ⟨66, _⟩ => ⟨S_, .f32⟩
  | .hbm, ⟨67, _⟩ => ⟨S100000x128, .f32⟩
  | .hbm, ⟨68, _⟩ => ⟨S1700000x1, .i32⟩
  | .hbm, ⟨69, _⟩ => ⟨S100000x128, .f32⟩
  | .hbm, ⟨70, _⟩ => ⟨S1x128, .f32⟩
  | .hbm, ⟨71, _⟩ => ⟨S100000x128, .f32⟩
  | .hbm, ⟨72, _⟩ => ⟨S100000x128, .f32⟩
  | .hbm, ⟨73, _⟩ => ⟨S1700000x1, .f32⟩
  | .hbm, ⟨74, _⟩ => ⟨S_, .i32⟩
  | .hbm, ⟨75, _⟩ => ⟨S1700000, .i32⟩
  | .hbm, ⟨76, _⟩ => ⟨S1700000, .i1⟩
  | .hbm, ⟨77, _⟩ => ⟨S_, .i32⟩
  | .hbm, ⟨78, _⟩ => ⟨S1700000, .i32⟩
  | .hbm, ⟨79, _⟩ => ⟨S1700000, .i32⟩
  | .hbm, ⟨80, _⟩ => ⟨S1700000, .i32⟩
  | .hbm, ⟨81, _⟩ => ⟨S1700000x1, .i32⟩
  | .hbm, ⟨82, _⟩ => ⟨S1700000x128, .f32⟩
  | .hbm, ⟨83, _⟩ => ⟨S1700000x128, .f32⟩
  | .hbm, ⟨84, _⟩ => ⟨S1700000x128, .f32⟩
  | .hbm, ⟨85, _⟩ => ⟨S_, .f32⟩
  | .hbm, ⟨86, _⟩ => ⟨S100000x128, .f32⟩
  | .hbm, ⟨87, _⟩ => ⟨S1700000x1, .i32⟩
  | .hbm, ⟨88, _⟩ => ⟨S100000x128, .f32⟩
  | .hbm, ⟨89, _⟩ => ⟨S1x128, .f32⟩
  | .hbm, ⟨90, _⟩ => ⟨S100000x128, .f32⟩
  | .hbm, ⟨91, _⟩ => ⟨S100000x128, .f32⟩
  | .hbm, ⟨92, _⟩ => ⟨S1700000x1, .f32⟩
  | .hbm, ⟨93, _⟩ => ⟨S_, .i32⟩
  | .hbm, ⟨94, _⟩ => ⟨S1700000, .i32⟩
  | .hbm, ⟨95, _⟩ => ⟨S1700000, .i1⟩
  | .hbm, ⟨96, _⟩ => ⟨S_, .i32⟩
  | .hbm, ⟨97, _⟩ => ⟨S1700000, .i32⟩
  | .hbm, ⟨98, _⟩ => ⟨S1700000, .i32⟩
  | .hbm, ⟨99, _⟩ => ⟨S1700000, .i32⟩
  | .hbm, ⟨100, _⟩ => ⟨S1700000x1, .i32⟩
  | .hbm, ⟨101, _⟩ => ⟨S1700000x128, .f32⟩
  | .hbm, ⟨102, _⟩ => ⟨S1700000x128, .f32⟩
  | .hbm, ⟨103, _⟩ => ⟨S1700000x128, .f32⟩
  | .hbm, ⟨104, _⟩ => ⟨S_, .f32⟩
  | .hbm, ⟨105, _⟩ => ⟨S100000x128, .f32⟩
  | .hbm, ⟨106, _⟩ => ⟨S1700000x1, .i32⟩
  | .hbm, ⟨107, _⟩ => ⟨S100000x128, .f32⟩
  | .hbm, ⟨108, _⟩ => ⟨S1x128, .f32⟩
  | .hbm, ⟨109, _⟩ => ⟨S100000x128, .f32⟩
  | .hbm, ⟨110, _⟩ => ⟨S100000x1, .i32⟩
  | .hbm, ⟨111, _⟩ => ⟨S64x128, .f32⟩
  | .hbm, ⟨112, _⟩ => ⟨S_, .f32⟩
  | .hbm, ⟨113, _⟩ => ⟨S100000, .f32⟩
  | .hbm, ⟨114, _⟩ => ⟨S_, .f32⟩
  | .hbm, ⟨115, _⟩ => ⟨S64, .f32⟩
  | .hbm, ⟨116, _⟩ => ⟨S100000x1, .i32⟩
  | .hbm, ⟨117, _⟩ => ⟨S64, .f32⟩
  | .hbm, ⟨118, _⟩ => ⟨S_, .f32⟩
  | .hbm, ⟨119, _⟩ => ⟨S64, .f32⟩
  | .hbm, ⟨120, _⟩ => ⟨S64, .f32⟩
  | .hbm, ⟨121, _⟩ => ⟨S64x1, .f32⟩
  | .hbm, ⟨122, _⟩ => ⟨S64x128, .f32⟩
  | .hbm, ⟨123, _⟩ => ⟨S64x128, .f32⟩
  | .hbm, ⟨124, _⟩ => ⟨S64x4, .f32⟩
  | .hbm, ⟨125, _⟩ => ⟨S1x4, .f32⟩
  | .hbm, ⟨126, _⟩ => ⟨S64x4, .f32⟩
  | .hbm, ⟨127, _⟩ => ⟨S64x4, .f32⟩
  | .local _ .vmem, ⟨0, _⟩ => ⟨S5000x3, .f32⟩
  | .local _ .vmem, ⟨1, _⟩ => ⟨S5000x3, .f32⟩
  | .local _ .vmem, ⟨2, _⟩ => ⟨S3x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S1x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S128x128, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S5000x128, .f32⟩
  | .local _ .vmem, ⟨17, _⟩ => ⟨S1x128, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S128x128, .f32⟩
  | .local _ .vmem, ⟨23, _⟩ => ⟨S5000x128, .f32⟩
  | .local _ .vmem, ⟨24, _⟩ => ⟨S5000x128, .f32⟩
  | .local _ .vmem, ⟨25, _⟩ => ⟨S5000x128, .f32⟩
  | .local _ .vmem, ⟨26, _⟩ => ⟨S5000x128, .f32⟩
  | .local _ .vmem, ⟨27, _⟩ => ⟨S1x128, .f32⟩
  | .local _ .vmem, ⟨28, _⟩ => ⟨S5000x128, .f32⟩
  | .local _ .vmem, ⟨29, _⟩ => ⟨S5000x128, .f32⟩
  | .local _ .vmem, ⟨30, _⟩ => ⟨S5000x128, .f32⟩
  | .local _ .vmem, ⟨31, _⟩ => ⟨S5000x128, .f32⟩
  | .local _ .vmem, ⟨32, _⟩ => ⟨S5000x1, .i32⟩
  | .local _ .vmem, ⟨33, _⟩ => ⟨S5000x1, .i32⟩
  | .local _ .vmem, ⟨34, _⟩ => ⟨S64x128, .f32⟩
  | _, _ => ⟨S100000x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | _, _ => false

abbrev semScoped : Fin 0 → Bool
  | ⟨_, h⟩ => absurd h (Nat.not_lt_zero _)

abbrev dmaSemScoped : Fin 35 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | _ => false

abbrev sig : RefSig :=
  ofTc nBuf bufTy 0 35 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_cst_0 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst_1 : Ref sig .tc := ⟨.hbm, 24, rfl⟩
abbrev main_v11 : Ref sig .tc := ⟨.hbm, 25, rfl⟩
abbrev main_v12 : Ref sig .tc := ⟨.hbm, 26, rfl⟩
abbrev main_cst_2 : Ref sig .tc := ⟨.hbm, 27, rfl⟩
abbrev main_v13 : Ref sig .tc := ⟨.hbm, 28, rfl⟩
abbrev main_v14 : Ref sig .tc := ⟨.hbm, 29, rfl⟩
abbrev main_cst_3 : Ref sig .tc := ⟨.hbm, 30, rfl⟩
abbrev main_call0_v0 : Ref sig .tc := ⟨.hbm, 31, rfl⟩
abbrev main_call0_v1 : Ref sig .tc := ⟨.hbm, 32, rfl⟩
abbrev main_v15 : Ref sig .tc := ⟨.hbm, 33, rfl⟩
abbrev main_c : Ref sig .tc := ⟨.hbm, 34, rfl⟩
abbrev main_v16 : Ref sig .tc := ⟨.hbm, 35, rfl⟩
abbrev main_v17 : Ref sig .tc := ⟨.hbm, 36, rfl⟩
abbrev main_c_4 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_c_5 : Ref sig .tc := ⟨.hbm, 43, rfl⟩
abbrev main_v23 : Ref sig .tc := ⟨.hbm, 44, rfl⟩
abbrev main_v24 : Ref sig .tc := ⟨.hbm, 45, rfl⟩
abbrev main_c_6 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_c_7 : Ref sig .tc := ⟨.hbm, 55, rfl⟩
abbrev main_v33 : Ref sig .tc := ⟨.hbm, 56, rfl⟩
abbrev main_v34 : Ref sig .tc := ⟨.hbm, 57, rfl⟩
abbrev main_c_8 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_cst_9 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_c_10 : Ref sig .tc := ⟨.hbm, 74, rfl⟩
abbrev main_v49 : Ref sig .tc := ⟨.hbm, 75, rfl⟩
abbrev main_v50 : Ref sig .tc := ⟨.hbm, 76, rfl⟩
abbrev main_c_11 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_cst_12 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_c_13 : Ref sig .tc := ⟨.hbm, 93, rfl⟩
abbrev main_v65 : Ref sig .tc := ⟨.hbm, 94, rfl⟩
abbrev main_v66 : Ref sig .tc := ⟨.hbm, 95, rfl⟩
abbrev main_c_14 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_cst_15 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_cst_16 : Ref sig .tc := ⟨.hbm, 112, rfl⟩
abbrev main_v81 : Ref sig .tc := ⟨.hbm, 113, rfl⟩
abbrev main_cst_17 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_cst_18 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc4_stg0_0 : Ref sig .tc := ⟨.vmem, 20, rfl⟩
abbrev cc4_stg0_1 : Ref sig .tc := ⟨.vmem, 21, rfl⟩
abbrev cc4_stg1_0 : Ref sig .tc := ⟨.vmem, 22, rfl⟩
abbrev cc4_stg2_0 : Ref sig .tc := ⟨.vmem, 23, rfl⟩
abbrev cc4_stg2_1 : Ref sig .tc := ⟨.vmem, 24, rfl⟩
abbrev cc5_stg0_0 : Ref sig .tc := ⟨.vmem, 25, rfl⟩
abbrev cc5_stg0_1 : Ref sig .tc := ⟨.vmem, 26, rfl⟩
abbrev cc5_stg1_0 : Ref sig .tc := ⟨.vmem, 27, rfl⟩
abbrev cc5_stg2_0 : Ref sig .tc := ⟨.vmem, 28, rfl⟩
abbrev cc5_stg2_1 : Ref sig .tc := ⟨.vmem, 29, rfl⟩
abbrev cc6_stg0_0 : Ref sig .tc := ⟨.vmem, 30, rfl⟩
abbrev cc6_stg0_1 : Ref sig .tc := ⟨.vmem, 31, rfl⟩
abbrev cc6_stg1_0 : Ref sig .tc := ⟨.vmem, 32, rfl⟩
abbrev cc6_stg1_1 : Ref sig .tc := ⟨.vmem, 33, rfl⟩
abbrev cc6_stg2_0 : Ref sig .tc := ⟨.vmem, 34, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19
abbrev cc4_sem0_0 : DmaSem sig := 20
abbrev cc4_sem0_1 : DmaSem sig := 21
abbrev cc4_sem1_0 : DmaSem sig := 22
abbrev cc4_sem2_0 : DmaSem sig := 23
abbrev cc4_sem2_1 : DmaSem sig := 24
abbrev cc5_sem0_0 : DmaSem sig := 25
abbrev cc5_sem0_1 : DmaSem sig := 26
abbrev cc5_sem1_0 : DmaSem sig := 27
abbrev cc5_sem2_0 : DmaSem sig := 28
abbrev cc5_sem2_1 : DmaSem sig := 29
abbrev cc6_sem0_0 : DmaSem sig := 30
abbrev cc6_sem0_1 : DmaSem sig := 31
abbrev cc6_sem1_0 : DmaSem sig := 32
abbrev cc6_sem1_1 : DmaSem sig := 33
abbrev cc6_sem2_0 : DmaSem sig := 34

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S3x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![20], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S5000x128 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![20], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x128 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S5000x128 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev grid6 : Pipeline.Grid := ⟨1, ![20], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage6_0 : Fin 2 → Memref sig .tc .vmem S5000x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S5000x1 .i32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 1 → Memref sig .tc .vmem S64x128 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  inb_S5000x3_S5000x3_0_0 : ∀ a, (![0, 0] : Fin 2 → Nat) a + S5000x3.size a ≤ S5000x3.size a
  h_S5000x3 : 0 < S5000x3.numel
  bitsLt_bf16_f32 : FTy.bits .bf16 < FTy.bits .f32
  inb_S3x128_S3x128_0_0 : ∀ a, (![0, 0] : Fin 2 → Nat) a + S3x128.size a ≤ S3x128.size a
  h_S3x128 : 0 < S3x128.numel
  inb_S5000x128_S5000x128_0_0 : ∀ a, (![0, 0] : Fin 2 → Nat) a + S5000x128.size a ≤ S5000x128.size a
  h_S5000x128 : 0 < S5000x128.numel
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  shapeCasts_S128_S1x128 : S128.ShapeCasts S1x128
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S128x128_S128x128_0_0 : ∀ a, (![0, 0] : Fin 2 → Nat) a + S128x128.size a ≤ S128x128.size a
  h_S128x128 : 0 < S128x128.numel
  shapeCasts_S100000_S100000x1 : S100000.ShapeCasts S100000x1
  inb_S64x128_S64x128_0_0 : ∀ a, (![0, 0] : Fin 2 → Nat) a + S64x128.size a ≤ S64x128.size a
  h_S64x128 : 0 < S64x128.numel
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  iota_S5000x64_d1_w32 : S5000x64.Iotas .tc 32 [1]
  broadcasts_S5000x1_S5000x64 : S5000x1.Broadcasts S5000x64
  natLt_1_32 : 1 < 32
  transposes_S5000x64_p1_0_S64x5000 : S5000x64.Transposes [1, 0] S64x5000
  shapeCasts_S64x128_S64x128 : S64x128.ShapeCasts S64x128
  bcast_S_S64 : S_.BroadcastsInDim S64 (![] : Fin 0 → Fin S64.rank)
  bcast_S100000_S100000x1_0 : S100000.BroadcastsInDim S100000x1 (![0] : Fin 1 → Fin S100000x1.rank)
  bcast_S64_S64x1_0 : S64.BroadcastsInDim S64x1 (![0] : Fin 1 → Fin S64x1.rank)
  bcast_S64x1_S64x128_0_1 : S64x1.BroadcastsInDim S64x128 (![0, 1] : Fin 2 → Fin S64x128.rank)
  bcast_S4_S1x4_1 : S4.BroadcastsInDim S1x4 (![1] : Fin 1 → Fin S1x4.rank)
  bcast_S1x4_S64x4_0_1 : S1x4.BroadcastsInDim S64x4 (![0, 1] : Fin 2 → Fin S64x4.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S5000x3_S3x128_S5000x128_1_0_0_1_n_n_wf : DotDims.WF S5000x3 S3x128 S5000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S5000x128_S128x128_S5000x128_1_0_0_1_n_n_wf : DotDims.WF S5000x128 S128x128 S5000x128 [1] [0] [0] [1] [] []
  dot_S64x5000_S5000x128_S64x128_1_0_0_1_n_n_wf : DotDims.WF S64x5000 S5000x128 S64x128 [1] [0] [0] [1] [] []
  scatter_S64_S100000x1_S100000_n_0_0_1_wf : ScatterDims.WF S64 S100000x1 S100000 [] [0] [0] 1
  dot_S64x128_S128x4_S64x4_1_0_0_1_n_n_wf : DotDims.WF S64x128 S128x4 S64x4 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x3.size a ≤ S100000x3.size a
  hwx0_0 : ∀ i : grid0.Coords, EltTy.bits .f32 = 32 ∨ (Rect.block (s := S100000x3) S5000x3.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S3x128.size a ≤ S3x128.size a
  hwx0_1 : ∀ i : grid0.Coords, EltTy.bits .f32 = 32 ∨ (Rect.block (s := S3x128) S3x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S100000x128.size a
  hwx0_2 : ∀ i : grid0.Coords, EltTy.bits .f32 = 32 ∨ (Rect.block (s := S100000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S100000x128.size a
  hwx1_2 : ∀ i : grid1.Coords, EltTy.bits .f32 = 32 ∨ (Rect.block (s := S100000x128) S5000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x128.size a ≤ S100000x128.size a
  hwx2_2 : ∀ i : grid2.Coords, EltTy.bits .f32 = 32 ∨ (Rect.block (s := S100000x128) S5000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S100000x128.size a
  hwx3_0 : ∀ i : grid3.Coords, EltTy.bits .f32 = 32 ∨ (Rect.block (s := S100000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x128.size a ≤ S100000x128.size a
  hwx3_2 : ∀ i : grid3.Coords, EltTy.bits .f32 = 32 ∨ (Rect.block (s := S100000x128) S5000x128.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S100000x128.size a
  hwx4_0 : ∀ i : grid4.Coords, EltTy.bits .f32 = 32 ∨ (Rect.block (s := S100000x128) S5000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x128.size a ≤ S128x128.size a
  hwx4_1 : ∀ i : grid4.Coords, EltTy.bits .f32 = 32 ∨ (Rect.block (s := S128x128) S128x128.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S5000x128.size a ≤ S100000x128.size a
  hwx4_2 : ∀ i : grid4.Coords, EltTy.bits .f32 = 32 ∨ (Rect.block (s := S100000x128) S5000x128.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x128.size a ≤ S100000x128.size a
  hwx5_0 : ∀ i : grid5.Coords, EltTy.bits .f32 = 32 ∨ (Rect.block (s := S100000x128) S5000x128.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x128.size a ≤ S1x128.size a
  hwx5_1 : ∀ i : grid5.Coords, EltTy.bits .f32 = 32 ∨ (Rect.block (s := S1x128) S1x128.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S5000x128.size a ≤ S100000x128.size a
  hwx5_2 : ∀ i : grid5.Coords, EltTy.bits .f32 = 32 ∨ (Rect.block (s := S100000x128) S5000x128.size (cc5_transform_2 i) (hinb5_2 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S5000x128.size a ≤ S100000x128.size a
  hwx6_0 : ∀ i : grid6.Coords, EltTy.bits .f32 = 32 ∨ (Rect.block (s := S100000x128) S5000x128.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S5000x1.size a ≤ S100000x1.size a
  hwx6_1 : ∀ i : grid6.Coords, EltTy.bits .i32 = 32 ∨ (Rect.block (s := S100000x1) S5000x1.size (cc6_transform_1 i) (hinb6_1 i)).WholeWords (EltTy.packing .i32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S64x128.size a ≤ S64x128.size a
  hwx6_2 : ∀ i : grid6.Coords, EltTy.bits .f32 = 32 ∨ (Rect.block (s := S64x128) S64x128.size (cc6_transform_2 i) (hinb6_2 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S5000x3_S3x128_S5000x128_1_0_0_1_n_n : DotDims S5000x3 S3x128 S5000x128 where
  lhsContracting := [1]
  rhsContracting := [0]
  lhsNonContracting := [0]
  rhsNonContracting := [1]
  lhsBatch := []
  rhsBatch := []
  wf := dot_S5000x3_S3x128_S5000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S64x5000_S5000x128_S64x128_1_0_0_1_n_n : DotDims S64x5000 S5000x128 S64x128 where
  lhsContracting := [1]
  rhsContracting := [0]
  lhsNonContracting := [0]
  rhsNonContracting := [1]
  lhsBatch := []
  rhsBatch := []
  wf := dot_S64x5000_S5000x128_S64x128_1_0_0_1_n_n_wf
def scatter_S64_S100000x1_S100000_n_0_0_1 : ScatterDims S64 S100000x1 S100000 where
  updateWindowDims := []
  insertedWindowDims := [0]
  scatterDimsToOperandDims := [0]
  indexVectorDim := 1
  wf := scatter_S64_S100000x1_S100000_n_0_0_1_wf
def dot_S64x128_S128x4_S64x4_1_0_0_1_n_n : DotDims S64x128 S128x4 S64x4 where
  lhsContracting := [1]
  rhsContracting := [0]
  lhsNonContracting := [0]
  rhsNonContracting := [1]
  lhsBatch := []
  rhsBatch := []
  wf := dot_S64x128_S128x4_S64x4_1_0_0_1_n_n_wf

abbrev win0_0 : Pipeline.Window sig grid0 :=
  Pipeline.Window.ofSpec (Memref.whole main_arg0) S5000x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S3x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v31) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v44) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v45) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v46) S5000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v46) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg5) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v47) S5000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v60) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v61) S1x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v62) S5000x128.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v62) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg7) S128x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v63) S5000x128.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v76) S5000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v77) S1x128.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v78) S5000x128.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

abbrev win6_0 : Pipeline.Window sig grid6 :=
  Pipeline.Window.ofSpec (Memref.whole main_v78) S5000x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v79) S5000x1.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_v80) S64x128.size cc6_transform_2 reads6_2 true true 1 stage6_2 sem6_2
    hrank6 hreads6_2 hinb6_2 nbuf6_2 (Memref.isWhole_whole _) hwx6_2 hstage6_2

abbrev win6 : Fin 3 → Pipeline.Window sig grid6 := fun | 0 => win6_0 | 1 => win6_1 | 2 => win6_2 | ⟨_ + 3, h⟩ => absurd h (Nat.not_lt.2 (Nat.le_add_left _ _))
abbrev spec6 : Fin 3 → Pipeline.WinSpec sig grid6.rank := fun w => (win6 w).toWinSpec

class Facts : Prop extends Facts₀ where

variable [Facts]
-- ==== ReferenceIdeal.lean ====
abbrev S100000x3 : Shape := ⟨2, ![100000, 3]⟩
abbrev S2x1600000 : Shape := ⟨2, ![2, 1600000]⟩
abbrev S100000 : Shape := ⟨1, ![100000]⟩
abbrev S3x128 : Shape := ⟨2, ![3, 128]⟩
abbrev S128 : Shape := ⟨1, ![128]⟩
abbrev S128x128 : Shape := ⟨2, ![128, 128]⟩
abbrev S128x4 : Shape := ⟨2, ![128, 4]⟩
abbrev S4 : Shape := ⟨1, ![4]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x128 : Shape := ⟨2, ![100000, 128]⟩
abbrev S1700000x128 : Shape := ⟨2, ![1700000, 128]⟩
abbrev S1x128 : Shape := ⟨2, ![1, 128]⟩
abbrev S64x128 : Shape := ⟨2, ![64, 128]⟩
abbrev S100000x1 : Shape := ⟨2, ![100000, 1]⟩
abbrev S64 : Shape := ⟨1, ![64]⟩
abbrev S64x1 : Shape := ⟨2, ![64, 1]⟩
abbrev S64x4 : Shape := ⟨2, ![64, 4]⟩
abbrev S1x4 : Shape := ⟨2, ![1, 4]⟩

abbrev nBuf : Space → Nat
  | .hbm => 139
  | .vmem => 0
  | .smem => 0
  | _ => 0

abbrev hbmTy0_0 (i : Nat) : BufTy := match i % 128 with
  | 0 => ⟨S100000x3, .f32⟩
  | 1 => ⟨S2x1600000, .i32⟩
  | 2 => ⟨S100000, .i32⟩
  | 3 => ⟨S3x128, .f32⟩
  | 4 => ⟨S128, .f32⟩
  | 5 => ⟨S128x128, .f32⟩
  | 6 => ⟨S128, .f32⟩
  | 7 => ⟨S128x128, .f32⟩
  | 8 => ⟨S128, .f32⟩
  | 9 => ⟨S128x4, .f32⟩
  | 10 => ⟨S4, .f32⟩
  | 11 => ⟨S100000, .i32⟩
  | 12 => ⟨S1x1600000, .i32⟩
  | 13 => ⟨S1600000, .i32⟩
  | 14 => ⟨S1700000, .i32⟩
  | 15 => ⟨S1x1600000, .i32⟩
  | 16 => ⟨S1600000, .i32⟩
  | 17 => ⟨S1700000, .i32⟩
  | 18 => ⟨S_, .f32⟩
  | 19 => ⟨S1700000, .f32⟩
  | 20 => ⟨S_, .f32⟩
  | 21 => ⟨S100000, .f32⟩
  | 22 => ⟨S1700000x1, .i32⟩
  | 23 => ⟨S100000, .f32⟩
  | 24 => ⟨S_, .f32⟩
  | 25 => ⟨S100000, .f32⟩
  | 26 => ⟨S100000, .i1⟩
  | 27 => ⟨S_, .f32⟩
  | 28 => ⟨S100000, .f32⟩
  | 29 => ⟨S100000, .f32⟩
  | 30 => ⟨S_, .f32⟩
  | 31 => ⟨S_, .f32⟩
  | 32 => ⟨S100000, .f32⟩
  | 33 => ⟨S100000, .f32⟩
  | 34 => ⟨S_, .i32⟩
  | 35 => ⟨S1700000, .i32⟩
  | 36 => ⟨S1700000, .i1⟩
  | 37 => ⟨S_, .i32⟩
  | 38 => ⟨S1700000, .i32⟩
  | 39 => ⟨S1700000, .i32⟩
  | 40 => ⟨S1700000, .i32⟩
  | 41 => ⟨S1700000x1, .i32⟩
  | 42 => ⟨S1700000, .f32⟩
  | 43 => ⟨S_, .i32⟩
  | 44 => ⟨S1700000, .i32⟩
  | 45 => ⟨S1700000, .i1⟩
  | 46 => ⟨S_, .i32⟩
  | 47 => ⟨S1700000, .i32⟩
  | 48 => ⟨S1700000, .i32⟩
  | 49 => ⟨S1700000, .i32⟩
  | 50 => ⟨S1700000x1, .i32⟩
  | 51 => ⟨S1700000, .f32⟩
  | 52 => ⟨S1700000, .f32⟩
  | 53 => ⟨S100000x128, .f32⟩
  | 54 => ⟨S1700000x1, .f32⟩
  | 55 => ⟨S_, .i32⟩
  | 56 => ⟨S1700000, .i32⟩
  | 57 => ⟨S1700000, .i1⟩
  | 58 => ⟨S_, .i32⟩
  | 59 => ⟨S1700000, .i32⟩
  | 60 => ⟨S1700000, .i32⟩
  | 61 => ⟨S1700000, .i32⟩
  | 62 => ⟨S1700000x1, .i32⟩
  | 63 => ⟨S1700000x128, .f32⟩
  | 64 => ⟨S1700000x128, .f32⟩
  | 65 => ⟨S1700000x128, .f32⟩
  | 66 => ⟨S_, .f32⟩
  | 67 => ⟨S100000x128, .f32⟩
  | 68 => ⟨S1700000x1, .i32⟩
  | 69 => ⟨S100000x128, .f32⟩
  | 70 => ⟨S1x128, .f32⟩
  | 71 => ⟨S100000x128, .f32⟩
  | 72 => ⟨S100000x128, .f32⟩
  | 73 => ⟨S_, .f32⟩
  | 74 => ⟨S100000x128, .f32⟩
  | 75 => ⟨S100000x128, .f32⟩
  | 76 => ⟨S100000x128, .f32⟩
  | 77 => ⟨S1700000x1, .f32⟩
  | 78 => ⟨S_, .i32⟩
  | 79 => ⟨S1700000, .i32⟩
  | 80 => ⟨S1700000, .i1⟩
  | 81 => ⟨S_, .i32⟩
  | 82 => ⟨S1700000, .i32⟩
  | 83 => ⟨S1700000, .i32⟩
  | 84 => ⟨S1700000, .i32⟩
  | 85 => ⟨S1700000x1, .i32⟩
  | 86 => ⟨S1700000x128, .f32⟩
  | 87 => ⟨S1700000x128, .f32⟩
  | 88 => ⟨S1700000x128, .f32⟩
  | 89 => ⟨S_, .f32⟩
  | 90 => ⟨S100000x128, .f32⟩
  | 91 => ⟨S1700000x1, .i32⟩
  | 92 => ⟨S100000x128, .f32⟩
  | 93 => ⟨S1x128, .f32⟩
  | 94 => ⟨S100000x128, .f32⟩
  | 95 => ⟨S100000x128, .f32⟩
  | 96 => ⟨S_, .f32⟩
  | 97 => ⟨S100000x128, .f32⟩
  | 98 => ⟨S100000x128, .f32⟩
  | 99 => ⟨S100000x128, .f32⟩
  | 100 => ⟨S1700000x1, .f32⟩
  | 101 => ⟨S_, .i32⟩
  | 102 => ⟨S1700000, .i32⟩
  | 103 => ⟨S1700000, .i1⟩
  | 104 => ⟨S_, .i32⟩
  | 105 => ⟨S1700000, .i32⟩
  | 106 => ⟨S1700000, .i32⟩
  | 107 => ⟨S1700000, .i32⟩
  | 108 => ⟨S1700000x1, .i32⟩
  | 109 => ⟨S1700000x128, .f32⟩
  | 110 => ⟨S1700000x128, .f32⟩
  | 111 => ⟨S1700000x128, .f32⟩
  | 112 => ⟨S_, .f32⟩
  | 113 => ⟨S100000x128, .f32⟩
  | 114 => ⟨S1700000x1, .i32⟩
  | 115 => ⟨S100000x128, .f32⟩
  | 116 => ⟨S1x128, .f32⟩
  | 117 => ⟨S100000x128, .f32⟩
  | 118 => ⟨S100000x128, .f32⟩
  | 119 => ⟨S_, .f32⟩
  | 120 => ⟨S64x128, .f32⟩
  | 121 => ⟨S100000x1, .i32⟩
  | 122 => ⟨S64x128, .f32⟩
  | 123 => ⟨S_, .f32⟩
  | 124 => ⟨S100000, .f32⟩
  | 125 => ⟨S_, .f32⟩
  | 126 => ⟨S64, .f32⟩
  | 127 => ⟨S100000x1, .i32⟩
  | _ => ⟨S100000x3, .f32⟩

abbrev hbmTy0_1 (i : Nat) : BufTy := match i % 128 with
  | 0 => ⟨S64, .f32⟩
  | 1 => ⟨S_, .f32⟩
  | 2 => ⟨S64, .f32⟩
  | 3 => ⟨S64, .f32⟩
  | 4 => ⟨S64x1, .f32⟩
  | 5 => ⟨S64x128, .f32⟩
  | 6 => ⟨S64x128, .f32⟩
  | 7 => ⟨S64x4, .f32⟩
  | 8 => ⟨S1x4, .f32⟩
  | 9 => ⟨S64x4, .f32⟩
  | 10 => ⟨S64x4, .f32⟩
  | _ => ⟨S100000x3, .f32⟩

abbrev hbmTy (i : Nat) : BufTy := match i / 128 with
  | 0 => hbmTy0_0 i
  | 1 => hbmTy0_1 i
  | _ => ⟨S100000x3, .f32⟩

abbrev bufTy : (tb : Table) → Fin (tcTables nBuf tb) → BufTy
  | .hbm, ⟨i, _⟩ => hbmTy i
  | _, _ => ⟨S100000x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_cst_0 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst_1 : Ref sig .tc := ⟨.hbm, 24, rfl⟩
abbrev main_v11 : Ref sig .tc := ⟨.hbm, 25, rfl⟩
abbrev main_v12 : Ref sig .tc := ⟨.hbm, 26, rfl⟩
abbrev main_cst_2 : Ref sig .tc := ⟨.hbm, 27, rfl⟩
abbrev main_v13 : Ref sig .tc := ⟨.hbm, 28, rfl⟩
abbrev main_v14 : Ref sig .tc := ⟨.hbm, 29, rfl⟩
abbrev main_cst_3 : Ref sig .tc := ⟨.hbm, 30, rfl⟩
abbrev main_call0_v0 : Ref sig .tc := ⟨.hbm, 31, rfl⟩
abbrev main_call0_v1 : Ref sig .tc := ⟨.hbm, 32, rfl⟩
abbrev main_v15 : Ref sig .tc := ⟨.hbm, 33, rfl⟩
abbrev main_c : Ref sig .tc := ⟨.hbm, 34, rfl⟩
abbrev main_v16 : Ref sig .tc := ⟨.hbm, 35, rfl⟩
abbrev main_v17 : Ref sig .tc := ⟨.hbm, 36, rfl⟩
abbrev main_c_4 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_c_5 : Ref sig .tc := ⟨.hbm, 43, rfl⟩
abbrev main_v23 : Ref sig .tc := ⟨.hbm, 44, rfl⟩
abbrev main_v24 : Ref sig .tc := ⟨.hbm, 45, rfl⟩
abbrev main_c_6 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_c_7 : Ref sig .tc := ⟨.hbm, 55, rfl⟩
abbrev main_v33 : Ref sig .tc := ⟨.hbm, 56, rfl⟩
abbrev main_v34 : Ref sig .tc := ⟨.hbm, 57, rfl⟩
abbrev main_c_8 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_cst_9 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_call1_cst : Ref sig .tc := ⟨.hbm, 73, rfl⟩
abbrev main_call1_v0 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_c_10 : Ref sig .tc := ⟨.hbm, 78, rfl⟩
abbrev main_v51 : Ref sig .tc := ⟨.hbm, 79, rfl⟩
abbrev main_v52 : Ref sig .tc := ⟨.hbm, 80, rfl⟩
abbrev main_c_11 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_cst_12 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_call2_cst : Ref sig .tc := ⟨.hbm, 96, rfl⟩
abbrev main_call2_v0 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_c_13 : Ref sig .tc := ⟨.hbm, 101, rfl⟩
abbrev main_v69 : Ref sig .tc := ⟨.hbm, 102, rfl⟩
abbrev main_v70 : Ref sig .tc := ⟨.hbm, 103, rfl⟩
abbrev main_c_14 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_cst_15 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_cst_16 : Ref sig .tc := ⟨.hbm, 119, rfl⟩
abbrev main_v84 : Ref sig .tc := ⟨.hbm, 120, rfl⟩
abbrev main_v85 : Ref sig .tc := ⟨.hbm, 121, rfl⟩
abbrev main_v86 : Ref sig .tc := ⟨.hbm, 122, rfl⟩
abbrev main_cst_17 : Ref sig .tc := ⟨.hbm, 123, rfl⟩
abbrev main_v87 : Ref sig .tc := ⟨.hbm, 124, rfl⟩
abbrev main_cst_18 : Ref sig .tc := ⟨.hbm, 125, rfl⟩
abbrev main_v88 : Ref sig .tc := ⟨.hbm, 126, rfl⟩
abbrev main_v89 : Ref sig .tc := ⟨.hbm, 127, rfl⟩
abbrev main_v90 : Ref sig .tc := ⟨.hbm, 128, rfl⟩
abbrev main_cst_19 : Ref sig .tc := ⟨.hbm, 129, rfl⟩
abbrev main_v91 : Ref sig .tc := ⟨.hbm, 130, rfl⟩
abbrev main_v92 : Ref sig .tc := ⟨.hbm, 131, rfl⟩
abbrev main_v93 : Ref sig .tc := ⟨.hbm, 132, rfl⟩
abbrev main_v94 : Ref sig .tc := ⟨.hbm, 133, rfl⟩
abbrev main_v95 : Ref sig .tc := ⟨.hbm, 134, rfl⟩
abbrev main_v96 : Ref sig .tc := ⟨.hbm, 135, rfl⟩
abbrev main_v97 : Ref sig .tc := ⟨.hbm, 136, rfl⟩
abbrev main_v98 : Ref sig .tc := ⟨.hbm, 137, rfl⟩
abbrev main_v99 : Ref sig .tc := ⟨.hbm, 138, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S64x128 : S_.BroadcastsInDim S64x128 (![] : Fin 0 → Fin S64x128.rank)
  bcast_S100000_S100000x1_0 : S100000.BroadcastsInDim S100000x1 (![0] : Fin 1 → Fin S100000x1.rank)
  bcast_S_S64 : S_.BroadcastsInDim S64 (![] : Fin 0 → Fin S64.rank)
  bcast_S64_S64x1_0 : S64.BroadcastsInDim S64x1 (![0] : Fin 1 → Fin S64x1.rank)
  bcast_S64x1_S64x128_0_1 : S64x1.BroadcastsInDim S64x128 (![0, 1] : Fin 2 → Fin S64x128.rank)
  bcast_S4_S1x4_1 : S4.BroadcastsInDim S1x4 (![1] : Fin 1 → Fin S1x4.rank)
  bcast_S1x4_S64x4_0_1 : S1x4.BroadcastsInDim S64x4 (![0, 1] : Fin 2 → Fin S64x4.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x3_S3x128_S100000x128_1_0_0_1_n_n_wf : DotDims.WF S100000x3 S3x128 S100000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S100000x128_S128x128_S100000x128_1_0_0_1_n_n_wf : DotDims.WF S100000x128 S128x128 S100000x128 [1] [0] [0] [1] [] []
  scatter_S64x128_S100000x1_S100000x128_1_0_0_1_wf : ScatterDims.WF S64x128 S100000x1 S100000x128 [1] [0] [0] 1
  scatter_S64_S100000x1_S100000_n_0_0_1_wf : ScatterDims.WF S64 S100000x1 S100000 [] [0] [0] 1
  dot_S64x128_S128x4_S64x4_1_0_0_1_n_n_wf : DotDims.WF S64x128 S128x4 S64x4 [1] [0] [0] [1] [] []

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x3_S3x128_S100000x128_1_0_0_1_n_n : DotDims S100000x3 S3x128 S100000x128 where
  lhsContracting := [1]
  rhsContracting := [0]
  lhsNonContracting := [0]
  rhsNonContracting := [1]
  lhsBatch := []
  rhsBatch := []
  wf := dot_S100000x3_S3x128_S100000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def scatter_S64x128_S100000x1_S100000x128_1_0_0_1 : ScatterDims S64x128 S100000x1 S100000x128 where
  updateWindowDims := [1]
  insertedWindowDims := [0]
  scatterDimsToOperandDims := [0]
  indexVectorDim := 1
  wf := scatter_S64x128_S100000x1_S100000x128_1_0_0_1_wf
def scatter_S64_S100000x1_S100000_n_0_0_1 : ScatterDims S64 S100000x1 S100000 where
  updateWindowDims := []
  insertedWindowDims := [0]
  scatterDimsToOperandDims := [0]
  indexVectorDim := 1
  wf := scatter_S64_S100000x1_S100000_n_0_0_1_wf
def dot_S64x128_S128x4_S64x4_1_0_0_1_n_n : DotDims S64x128 S128x4 S64x4 where
  lhsContracting := [1]
  rhsContracting := [0]
  lhsNonContracting := [0]
  rhsNonContracting := [1]
  lhsBatch := []
  rhsBatch := []
  wf := dot_S64x128_S128x4_S64x4_1_0_0_1_n_n_wf

class Facts : Prop extends Facts₀ where

variable [Facts]
-- ==== Proof.Lin0.lean ====
/-
  Projection region 0: twenty grid points, point `t` multiplying rows `5000 t … 5000 t + 4999` of the node features `x` by the whole
  `[3, 128]` matrix (the operands narrowed to bf16 first, which at the extended reals changes nothing) into a zero
  accumulator, and writing the [5000, 128] block back at the same rows of the result. At an index `(r, q)` both the block product and
  the reference's whole matrix product are the sum over the contraction position `k` of `X (r, k) * W (k, q)`; the twenty
  blocks tile the array, so the array ends holding the reference's product.
-/
import proofs.«423662_j14370960573165_1_alg».proof.Proof.Gen.KernelIdeal.Frame
import proofs.«423662_j14370960573165_1_alg».proof.Proof.Gen.ReferenceIdeal
import Idealize.ShloMosaic.Lib.Pipeline.Value
import Idealize.ShloMosaic.Lib.ValueIdx
import Idealize.ShloMosaic.Lib.ValueLayout
import Idealize.ShloMosaic.PureOps.Ideal.Laws

noncomputable section

open Idealize.ShloMosaic Idealize.ShloMosaic.TcCoe Idealize.SL.Sem
open Idealize.ShloMosaic.Pipeline (Dat)

namespace Cert.KernelIdeal.Lin0

open Cert.KernelIdeal Cert.KernelIdeal.Gen

/-- The TensorCore's buffer contents when a region is entered. -/
abbrev Entry := (c : Dev nD) → (b : Ref sig .tc) → Buf (Elt Ideal) ((c : Thread nD τ).loc b)

/-! ## The block product's operand indices, axis by axis -/

/-- Row axis of the left operand: the output's row. -/
theorem lhs_blk_0 (y : S5000x128.Idx) (q : dot_S5000x3_S3x128_S5000x128_1_0_0_1_n_n.contr.Idx) :
    (dot_S5000x3_S3x128_S5000x128_1_0_0_1_n_n.lhsIdx y q 0).val = (y 0).val := by
  unfold DotDims.lhsIdx
  rw [dif_neg (show ¬(0 : Fin S5000x3.rank) ∈ dot_S5000x3_S3x128_S5000x128_1_0_0_1_n_n.lhsBatch by decide), dif_pos (show (0 : Fin S5000x3.rank) ∈ dot_S5000x3_S3x128_S5000x128_1_0_0_1_n_n.lhsNonContracting by decide)]
  rfl
/-- Column axis of the left operand: the contraction position. -/
theorem lhs_blk_1 (y : S5000x128.Idx) (q : dot_S5000x3_S3x128_S5000x128_1_0_0_1_n_n.contr.Idx) :
    (dot_S5000x3_S3x128_S5000x128_1_0_0_1_n_n.lhsIdx y q 1).val = (q ⟨0, by decide⟩).val :=
  dot_S5000x3_S3x128_S5000x128_1_0_0_1_n_n.lhsIdx_val_of_single rfl y q
/-- Row axis of the right operand: the contraction position. -/
theorem rhs_blk_0 (y : S5000x128.Idx) (q : dot_S5000x3_S3x128_S5000x128_1_0_0_1_n_n.contr.Idx) :
    (dot_S5000x3_S3x128_S5000x128_1_0_0_1_n_n.rhsIdx y q 0).val = (q ⟨0, by decide⟩).val :=
  dot_S5000x3_S3x128_S5000x128_1_0_0_1_n_n.rhsIdx_val_of_single rfl y q
/-- Column axis of the right operand: the output's column. -/
theorem rhs_blk_1 (y : S5000x128.Idx) (q : dot_S5000x3_S3x128_S5000x128_1_0_0_1_n_n.contr.Idx) :
    (dot_S5000x3_S3x128_S5000x128_1_0_0_1_n_n.rhsIdx y q 1).val = (y 1).val := by
  unfold DotDims.rhsIdx
  rw [dif_neg (show ¬(1 : Fin S3x128.rank) ∈ dot_S5000x3_S3x128_S5000x128_1_0_0_1_n_n.rhsBatch by decide), dif_pos (show (1 : Fin S3x128.rank) ∈ dot_S5000x3_S3x128_S5000x128_1_0_0_1_n_n.rhsNonContracting by decide)]
  rfl

/-- The left operand's index of a block row and a contraction position. -/
abbrev lblk (y : S5000x128.Idx) (k : Fin 3) : S5000x3.Idx := fun a => match a with
  | ⟨0, _⟩ => ⟨(y 0).val, (y 0).isLt⟩
  | ⟨1, _⟩ => ⟨k.val, k.isLt⟩
/-- The right operand's index of a contraction position and a column. -/
abbrev rblk (y : S5000x128.Idx) (k : Fin 3) : S3x128.Idx := fun a => match a with
  | ⟨0, _⟩ => ⟨k.val, k.isLt⟩
  | ⟨1, _⟩ => ⟨(y 1).val, (y 1).isLt⟩

/-- The body's payload at a block index: exact arithmetic makes the narrowing to bf16 the identity and the
    product into the zero accumulator the three-term sum over the contraction. -/
theorem pay_apply (x0 : FVec Ideal S5000x3 .f32) (x1 : FVec Ideal S3x128 .f32) (y : S5000x128.Idx) :
    k0_pay1 (F := Ideal) x0 x1 y = ∑ k : Fin 3, x0 (lblk y k) * x1 (rblk y k) := by
  unfold k0_pay1
  refine (Ideal.matmul_constant_zero_apply dot_S5000x3_S3x128_S5000x128_1_0_0_1_n_n none _ _ y).trans ?_
  rw [← Equiv.sum_comp (ValueIdx.contrEquiv1 dot_S5000x3_S3x128_S5000x128_1_0_0_1_n_n 3 rfl rfl).symm]
  refine Finset.sum_congr rfl fun k _ => ?_
  have hk := ValueIdx.contrEquiv1_symm_val dot_S5000x3_S3x128_S5000x128_1_0_0_1_n_n 3 rfl rfl k
  have el : dot_S5000x3_S3x128_S5000x128_1_0_0_1_n_n.lhsIdx y ((ValueIdx.contrEquiv1 dot_S5000x3_S3x128_S5000x128_1_0_0_1_n_n 3 rfl rfl).symm k) = lblk y k := funext fun a => Fin.ext (by
    match a with
    | ⟨0, _⟩ => exact lhs_blk_0 _ _
    | ⟨1, _⟩ => exact (lhs_blk_1 _ _).trans hk)
  have er : dot_S5000x3_S3x128_S5000x128_1_0_0_1_n_n.rhsIdx y ((ValueIdx.contrEquiv1 dot_S5000x3_S3x128_S5000x128_1_0_0_1_n_n 3 rfl rfl).symm k) = rblk y k := funext fun a => Fin.ext (by
    match a with
    | ⟨0, _⟩ => exact (rhs_blk_0 _ _).trans hk
    | ⟨1, _⟩ => exact rhs_blk_1 _ _)
  rw [el, er]
  rfl

/-! ## The host product's operand indices, axis by axis -/

theorem lhs_arr_0 (i : Cert.ReferenceIdeal.S100000x128.Idx) (q : Cert.ReferenceIdeal.dot_S100000x3_S3x128_S100000x128_1_0_0_1_n_n.contr.Idx) :
    (Cert.ReferenceIdeal.dot_S100000x3_S3x128_S100000x128_1_0_0_1_n_n.lhsIdx i q 0).val = (i 0).val := by
  unfold DotDims.lhsIdx
  rw [dif_neg (show ¬(0 : Fin Cert.ReferenceIdeal.S100000x3.rank) ∈ Cert.ReferenceIdeal.dot_S100000x3_S3x128_S100000x128_1_0_0_1_n_n.lhsBatch by decide), dif_pos (show (0 : Fin Cert.ReferenceIdeal.S100000x3.rank) ∈ Cert.ReferenceIdeal.dot_S100000x3_S3x128_S100000x128_1_0_0_1_n_n.lhsNonContracting by decide)]
  rfl
theorem lhs_arr_1 (i : Cert.ReferenceIdeal.S100000x128.Idx) (q : Cert.ReferenceIdeal.dot_S100000x3_S3x128_S100000x128_1_0_0_1_n_n.contr.Idx) :
    (Cert.ReferenceIdeal.dot_S100000x3_S3x128_S100000x128_1_0_0_1_n_n.lhsIdx i q 1).val = (q ⟨0, by decide⟩).val :=
  Cert.ReferenceIdeal.dot_S100000x3_S3x128_S100000x128_1_0_0_1_n_n.lhsIdx_val_of_single rfl i q
theorem rhs_arr_0 (i : Cert.ReferenceIdeal.S100000x128.Idx) (q : Cert.ReferenceIdeal.dot_S100000x3_S3x128_S100000x128_1_0_0_1_n_n.contr.Idx) :
    (Cert.ReferenceIdeal.dot_S100000x3_S3x128_S100000x128_1_0_0_1_n_n.rhsIdx i q 0).val = (q ⟨0, by decide⟩).val :=
  Cert.ReferenceIdeal.dot_S100000x3_S3x128_S100000x128_1_0_0_1_n_n.rhsIdx_val_of_single rfl i q
theorem rhs_arr_1 (i : Cert.ReferenceIdeal.S100000x128.Idx) (q : Cert.ReferenceIdeal.dot_S100000x3_S3x128_S100000x128_1_0_0_1_n_n.contr.Idx) :
    (Cert.ReferenceIdeal.dot_S100000x3_S3x128_S100000x128_1_0_0_1_n_n.rhsIdx i q 1).val = (i 1).val := by
  unfold DotDims.rhsIdx
  rw [dif_neg (show ¬(1 : Fin Cert.ReferenceIdeal.S3x128.rank) ∈ Cert.ReferenceIdeal.dot_S100000x3_S3x128_S100000x128_1_0_0_1_n_n.rhsBatch by decide), dif_pos (show (1 : Fin Cert.ReferenceIdeal.S3x128.rank) ∈ Cert.ReferenceIdeal.dot_S100000x3_S3x128_S100000x128_1_0_0_1_n_n.rhsNonContracting by decide)]
  rfl

/-- The left array's index of a row and a contraction position. -/
abbrev larr (i : S100000x128.Idx) (k : Fin 3) : S100000x3.Idx := fun a => match a with
  | ⟨0, _⟩ => ⟨(i 0).val, (i 0).isLt⟩
  | ⟨1, _⟩ => ⟨k.val, k.isLt⟩
/-- The weight's index of a contraction position and a column. -/
abbrev rarr (i : S100000x128.Idx) (k : Fin 3) : S3x128.Idx := fun a => match a with
  | ⟨0, _⟩ => ⟨k.val, k.isLt⟩
  | ⟨1, _⟩ => ⟨(i 1).val, (i 1).isLt⟩

/-- x @ W, index by index: row i₀ of x against column i₁ of W. -/
abbrev prod (X : S100000x3.Idx → Elt Ideal .f32) (W : S3x128.Idx → Elt Ideal .f32) : S100000x128.Idx → Elt Ideal .f32 :=
  fun i => ∑ k : Fin 3, X (larr i k) * W (rarr i k)

/-- The host's product is that function. -/
theorem host_eq_prod (X : S100000x3.Idx → Elt Ideal .f32) (W : S3x128.Idx → Elt Ideal .f32) :
    Host.dotGeneral (F := Ideal) (φ₁ := .f32) (φ₂ := .f32) Cert.ReferenceIdeal.dot_S100000x3_S3x128_S100000x128_1_0_0_1_n_n none X W = prod X W := by
  funext i
  simp only [Host.dotGeneral]
  rw [Ideal.dotGeneral_apply, ← Equiv.sum_comp (ValueIdx.contrEquiv1 Cert.ReferenceIdeal.dot_S100000x3_S3x128_S100000x128_1_0_0_1_n_n 3 rfl rfl).symm]
  refine Finset.sum_congr rfl fun k _ => ?_
  have hk := ValueIdx.contrEquiv1_symm_val Cert.ReferenceIdeal.dot_S100000x3_S3x128_S100000x128_1_0_0_1_n_n 3 rfl rfl k
  have el : Cert.ReferenceIdeal.dot_S100000x3_S3x128_S100000x128_1_0_0_1_n_n.lhsIdx i ((ValueIdx.contrEquiv1 Cert.ReferenceIdeal.dot_S100000x3_S3x128_S100000x128_1_0_0_1_n_n 3 rfl rfl).symm k) = larr i k := funext fun a => Fin.ext (by
    match a with
    | ⟨0, _⟩ => exact lhs_arr_0 _ _
    | ⟨1, _⟩ => exact (lhs_arr_1 _ _).trans hk)
  have er : Cert.ReferenceIdeal.dot_S100000x3_S3x128_S100000x128_1_0_0_1_n_n.rhsIdx i ((ValueIdx.contrEquiv1 Cert.ReferenceIdeal.dot_S100000x3_S3x128_S100000x128_1_0_0_1_n_n 3 rfl rfl).symm k) = rarr i k := funext fun a => Fin.ext (by
    match a with
    | ⟨0, _⟩ => exact (rhs_arr_0 _ _).trans hk
    | ⟨1, _⟩ => exact rhs_arr_1 _ _)
  rw [el, er]

/-! ## From the blocks to the array -/

theorem hz : (![0, 0] : Fin 2 → Nat) = fun _ => 0 := funext fun a => by fin_cases a <;> rfl

/-- The index maps over the grid: point t's block of x and of the product is block row t; W's block is the whole
    matrix at every point. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Point t's block of x is rows 5000 t … 5000 t + 4999 of x. -/
theorem xblk_apply (V : Entry) (c : Dev nD) (t : Fin cfg0.N) (x : S5000x3.Idx) (k : S100000x3.Idx)
    (hk0 : (k 0).val = 5000 * t.val + (x 0).val) (hk1 : (k 1).val = (x 1).val) :
    (iblk0 V c 0 t : FVec Ideal S5000x3 .f32) x = (V c main_arg0 : S100000x3.Idx → Elt Ideal .f32) k := by
  obtain ⟨e0, e1, -⟩ := idx_facts t
  unfold iblk0
  rw [View.read_apply]
  show V c main_arg0 _ = V c main_arg0 _
  congr 1
  funext a
  apply Fin.ext
  match a with
  | ⟨0, _⟩ => show win0_0.index t (0 : Fin 2) * 5000 + 1 * (x 0).val = (k 0).val; rw [e0, hk0]; omega
  | ⟨1, _⟩ => show win0_0.index t (1 : Fin 2) * 3 + 1 * (x 1).val = (k 1).val; rw [e1, hk1]; omega

/-- Every point's block of W is W. -/
theorem wblk_apply (V : Entry) (c : Dev nD) (t : Fin cfg0.N) (x : S3x128.Idx) (k : S3x128.Idx)
    (hk0 : (k 0).val = (x 0).val) (hk1 : (k 1).val = (x 1).val) :
    (iblk0 V c 1 t : FVec Ideal S3x128 .f32) x = (V c main_arg3 : S3x128.Idx → Elt Ideal .f32) k := by
  obtain ⟨-, -, e2, e3, -⟩ := idx_facts t
  unfold iblk0
  rw [View.read_apply]
  show V c main_arg3 _ = V c main_arg3 _
  congr 1
  funext a
  apply Fin.ext
  match a with
  | ⟨0, _⟩ => show win0_1.index t (0 : Fin 2) * 3 + 1 * (x 0).val = (k 0).val; rw [e2, hk0]; omega
  | ⟨1, _⟩ => show win0_1.index t (1 : Fin 2) * 128 + 1 * (x 1).val = (k 1).val; rw [e3, hk1]; omega

/-- One point of the body against one entry of x @ W: when the block operands are the arrays' entries on the
    contraction, term by term, the payload's sum is the product's. -/
theorem point_eq (x0 : FVec Ideal S5000x3 .f32) (x1 : FVec Ideal S3x128 .f32)
    (X : S100000x3.Idx → Elt Ideal .f32) (W : S3x128.Idx → Elt Ideal .f32) (y : S5000x128.Idx) (i : S100000x128.Idx)
    (h0 : ∀ k : Fin 3, x0 (lblk y k) = X (larr i k)) (h1 : ∀ k : Fin 3, x1 (rblk y k) = W (rarr i k)) :
    k0_pay1 (F := Ideal) x0 x1 y = prod X W i := by
  rw [pay_apply]
  exact Finset.sum_congr rfl fun k _ => by rw [h0 k, h1 k]

/-- WHAT POINT t WRITES BACK is block t of x @ W. -/
theorem flushed_eq (V : Entry) (c : Dev nD) (t : Fin cfg0.N) :
    (dat0 V c).flushed 2 t = ((cfg0.win 2).blk t).view.read (Elt Ideal) (prod (V c main_arg0) (V c main_arg3)) := by
  show (cfg0.win 2).cut (grid0.coords t) ((dat0 V c).after 2 t) = _
  rw [after0_2]
  unfold out0_2
  rw [View.canon_unit_zero hz]
  simp only [View.ld_unit_zero (S := S5000x3) hz, View.ld_unit_zero (S := S3x128) hz]
  obtain ⟨-, -, -, -, e4, e5⟩ := idx_facts t
  funext j
  show k0_pay1 (F := Ideal) (iblk0 V c 0 t) (iblk0 V c 1 t) j
    = prod (V c main_arg0) (V c main_arg3) (((cfg0.win 2).blk t).view.emb j)
  have hj0 : (j 0).val < 5000 := (j 0).isLt
  have hj1 : (j 1).val < 128 := (j 1).isLt
  refine point_eq _ _ _ _ j _ (fun k => ?_) (fun k => ?_)
  · refine xblk_apply V c t _ _ ?_ ?_
    · show win0_2.index t (0 : Fin 2) * 5000 + 1 * (j 0).val = 5000 * t.val + (j 0).val
      rw [e4]; omega
    · rfl
  · refine wblk_apply V c t _ _ ?_ ?_
    · rfl
    · show win0_2.index t (1 : Fin 2) * 128 + 1 * (j 1).val = (j 1).val
      rw [e5]; omega

/-- An index of the array is in point t's block iff each coordinate is in the block's range on its axis. -/
theorem mem_blk (t : Fin cfg0.N) (i : S100000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v31).slice (win0_2.rect t)).set ↔ _
  rw [View.set_slice_whole, Rect.mem_set_unit]
  exact Iff.rfl

/-- The blocks cover the array: row r is in the block of point r / 5000. -/
theorem cover (i : S100000x128.Idx) :
    ∃ t : Fin cfg0.N, (cfg0.win 2).flush t = true ∧ i ∈ ((cfg0.win 2).blk t).view.set := by
  have hi0 : (i 0).val < 100000 := (i 0).isLt
  have hi1 : (i 1).val < 128 := (i 1).isLt
  have hN : cfg0.N = 20 := N_0
  obtain ⟨t, ht⟩ : ∃ t : Fin cfg0.N, t.val = (i 0).val / 5000 := ⟨⟨(i 0).val / 5000, by omega⟩, rfl⟩
  obtain ⟨-, -, -, -, e4, e5⟩ := idx_facts t
  refine ⟨t, flush0_2 t, ?_⟩
  rw [mem_blk]
  intro a
  match a with
  | ⟨0, _⟩ =>
    show win0_2.index t (0 : Fin 2) * 5000 ≤ (i 0).val ∧ (i 0).val < win0_2.index t (0 : Fin 2) * 5000 + 5000
    rw [e4, ht]; omega
  | ⟨1, _⟩ =>
    show win0_2.index t (1 : Fin 2) * 128 ≤ (i 1).val ∧ (i 1).val < win0_2.index t (1 : Fin 2) * 128 + 128
    rw [e5]; omega

theorem final (V : Entry) (c : Dev nD) :
    (dat0 V c).arrAt 2 cfg0.N
      = Host.dotGeneral (F := Ideal) (φ₁ := .f32) (φ₂ := .f32) Cert.ReferenceIdeal.dot_S100000x3_S3x128_S100000x128_1_0_0_1_n_n none
          (V c main_arg0) (V c main_arg3) :=
  ((dat0 V c).arrAt_eq_of_cover 2 (prod (V c main_arg0) (V c main_arg3)) (fun t _ => flushed_eq V c t) cover).trans
    (host_eq_prod _ _).symm

end Cert.KernelIdeal.Lin0

end
-- ==== Proof.Lin2.lean ====
/-
  Projection region 2: twenty grid points, point `t` multiplying rows `5000 t … 5000 t + 4999` of the first layer's activations by the whole
  `[128, 128]` matrix (the operands narrowed to bf16 first, which at the extended reals changes nothing) into a zero
  accumulator, and writing the [5000, 128] block back at the same rows of the result. At an index `(r, q)` both the block product and
  the reference's whole matrix product are the sum over the contraction position `k` of `X (r, k) * W (k, q)`; the twenty
  blocks tile the array, so the array ends holding the reference's product.
-/
import proofs.«423662_j14370960573165_1_alg».proof.Proof.Gen.KernelIdeal.Frame
import proofs.«423662_j14370960573165_1_alg».proof.Proof.Gen.ReferenceIdeal
import Idealize.ShloMosaic.Lib.Pipeline.Value
import Idealize.ShloMosaic.Lib.ValueIdx
import Idealize.ShloMosaic.Lib.ValueLayout
import Idealize.ShloMosaic.PureOps.Ideal.Laws

noncomputable section

open Idealize.ShloMosaic Idealize.ShloMosaic.TcCoe Idealize.SL.Sem
open Idealize.ShloMosaic.Pipeline (Dat)

namespace Cert.KernelIdeal.Lin2

open Cert.KernelIdeal Cert.KernelIdeal.Gen

/-- The TensorCore's buffer contents when a region is entered. -/
abbrev Entry := (c : Dev nD) → (b : Ref sig .tc) → Buf (Elt Ideal) ((c : Thread nD τ).loc b)

/-! ## The block product's operand indices, axis by axis -/

/-- Row axis of the left operand: the output's row. -/
theorem lhs_blk_0 (y : S5000x128.Idx) (q : dot_S5000x128_S128x128_S5000x128_1_0_0_1_n_n.contr.Idx) :
    (dot_S5000x128_S128x128_S5000x128_1_0_0_1_n_n.lhsIdx y q 0).val = (y 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
/-- Column axis of the left operand: the contraction position. -/
theorem lhs_blk_1 (y : S5000x128.Idx) (q : dot_S5000x128_S128x128_S5000x128_1_0_0_1_n_n.contr.Idx) :
    (dot_S5000x128_S128x128_S5000x128_1_0_0_1_n_n.lhsIdx y q 1).val = (q ⟨0, by decide⟩).val :=
  dot_S5000x128_S128x128_S5000x128_1_0_0_1_n_n.lhsIdx_val_of_single rfl y q
/-- Row axis of the right operand: the contraction position. -/
theorem rhs_blk_0 (y : S5000x128.Idx) (q : dot_S5000x128_S128x128_S5000x128_1_0_0_1_n_n.contr.Idx) :
    (dot_S5000x128_S128x128_S5000x128_1_0_0_1_n_n.rhsIdx y q 0).val = (q ⟨0, by decide⟩).val :=
  dot_S5000x128_S128x128_S5000x128_1_0_0_1_n_n.rhsIdx_val_of_single rfl y q
/-- Column axis of the right operand: the output's column. -/
theorem rhs_blk_1 (y : S5000x128.Idx) (q : dot_S5000x128_S128x128_S5000x128_1_0_0_1_n_n.contr.Idx) :
    (dot_S5000x128_S128x128_S5000x128_1_0_0_1_n_n.rhsIdx y q 1).val = (y 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- The left operand's index of a block row and a contraction position. -/
abbrev lblk (y : S5000x128.Idx) (k : Fin 128) : S5000x128.Idx := fun a => match a with
  | ⟨0, _⟩ => ⟨(y 0).val, (y 0).isLt⟩
  | ⟨1, _⟩ => ⟨k.val, k.isLt⟩
/-- The right operand's index of a contraction position and a column. -/
abbrev rblk (y : S5000x128.Idx) (k : Fin 128) : S128x128.Idx := fun a => match a with
  | ⟨0, _⟩ => ⟨k.val, k.isLt⟩
  | ⟨1, _⟩ => ⟨(y 1).val, (y 1).isLt⟩

/-- The body's payload at a block index: the reshape to the same shape is the identity, exact arithmetic makes the
    narrowing to bf16 the identity, and the product into the zero accumulator is the 128-term sum over the
    contraction. -/
theorem pay_apply (x0 : FVec Ideal S5000x128 .f32) (x1 : FVec Ideal S128x128 .f32) (y : S5000x128.Idx) :
    k2_pay1 (F := Ideal) x0 x1 y = ∑ k : Fin 128, x0 (lblk y k) * x1 (rblk y k) := by
  unfold k2_pay1
  refine (Ideal.matmul_constant_zero_apply dot_S5000x128_S128x128_S5000x128_1_0_0_1_n_n none _ _ y).trans ?_
  rw [← Equiv.sum_comp (ValueIdx.contrEquiv1 dot_S5000x128_S128x128_S5000x128_1_0_0_1_n_n 128 rfl rfl).symm]
  refine Finset.sum_congr rfl fun k _ => ?_
  have hk := ValueIdx.contrEquiv1_symm_val dot_S5000x128_S128x128_S5000x128_1_0_0_1_n_n 128 rfl rfl k
  have el : dot_S5000x128_S128x128_S5000x128_1_0_0_1_n_n.lhsIdx y ((ValueIdx.contrEquiv1 dot_S5000x128_S128x128_S5000x128_1_0_0_1_n_n 128 rfl rfl).symm k) = lblk y k := funext fun a => Fin.ext (by
    match a with
    | ⟨0, _⟩ => exact lhs_blk_0 _ _
    | ⟨1, _⟩ => exact (lhs_blk_1 _ _).trans hk)
  have er : dot_S5000x128_S128x128_S5000x128_1_0_0_1_n_n.rhsIdx y ((ValueIdx.contrEquiv1 dot_S5000x128_S128x128_S5000x128_1_0_0_1_n_n 128 rfl rfl).symm k) = rblk y k := funext fun a => Fin.ext (by
    match a with
    | ⟨0, _⟩ => exact (rhs_blk_0 _ _).trans hk
    | ⟨1, _⟩ => exact rhs_blk_1 _ _)
  rw [el, er]
  exact congrArg (fun v : FVec Ideal S5000x128 .f32 => v (lblk y k) * x1 (rblk y k)) (shapeCast_self x0 _)

/-! ## The host product's operand indices, axis by axis -/

theorem lhs_arr_0 (i : Cert.ReferenceIdeal.S100000x128.Idx) (q : Cert.ReferenceIdeal.dot_S100000x128_S128x128_S100000x128_1_0_0_1_n_n.contr.Idx) :
    (Cert.ReferenceIdeal.dot_S100000x128_S128x128_S100000x128_1_0_0_1_n_n.lhsIdx i q 0).val = (i 0).val := by
  unfold DotDims.lhsIdx
  rw [dif_neg (show ¬(0 : Fin Cert.ReferenceIdeal.S100000x128.rank) ∈ Cert.ReferenceIdeal.dot_S100000x128_S128x128_S100000x128_1_0_0_1_n_n.lhsBatch by decide), dif_pos (show (0 : Fin Cert.ReferenceIdeal.S100000x128.rank) ∈ Cert.ReferenceIdeal.dot_S100000x128_S128x128_S100000x128_1_0_0_1_n_n.lhsNonContracting by decide)]
  rfl
theorem lhs_arr_1 (i : Cert.ReferenceIdeal.S100000x128.Idx) (q : Cert.ReferenceIdeal.dot_S100000x128_S128x128_S100000x128_1_0_0_1_n_n.contr.Idx) :
    (Cert.ReferenceIdeal.dot_S100000x128_S128x128_S100000x128_1_0_0_1_n_n.lhsIdx i q 1).val = (q ⟨0, by decide⟩).val :=
  Cert.ReferenceIdeal.dot_S100000x128_S128x128_S100000x128_1_0_0_1_n_n.lhsIdx_val_of_single rfl i q
theorem rhs_arr_0 (i : Cert.ReferenceIdeal.S100000x128.Idx) (q : Cert.ReferenceIdeal.dot_S100000x128_S128x128_S100000x128_1_0_0_1_n_n.contr.Idx) :
    (Cert.ReferenceIdeal.dot_S100000x128_S128x128_S100000x128_1_0_0_1_n_n.rhsIdx i q 0).val = (q ⟨0, by decide⟩).val :=
  Cert.ReferenceIdeal.dot_S100000x128_S128x128_S100000x128_1_0_0_1_n_n.rhsIdx_val_of_single rfl i q
theorem rhs_arr_1 (i : Cert.ReferenceIdeal.S100000x128.Idx) (q : Cert.ReferenceIdeal.dot_S100000x128_S128x128_S100000x128_1_0_0_1_n_n.contr.Idx) :
    (Cert.ReferenceIdeal.dot_S100000x128_S128x128_S100000x128_1_0_0_1_n_n.rhsIdx i q 1).val = (i 1).val := by
  unfold DotDims.rhsIdx
  rw [dif_neg (show ¬(1 : Fin Cert.ReferenceIdeal.S128x128.rank) ∈ Cert.ReferenceIdeal.dot_S100000x128_S128x128_S100000x128_1_0_0_1_n_n.rhsBatch by decide), dif_pos (show (1 : Fin Cert.ReferenceIdeal.S128x128.rank) ∈ Cert.ReferenceIdeal.dot_S100000x128_S128x128_S100000x128_1_0_0_1_n_n.rhsNonContracting by decide)]
  rfl

/-- The left array's index of a row and a contraction position. -/
abbrev larr (i : S100000x128.Idx) (k : Fin 128) : S100000x128.Idx := fun a => match a with
  | ⟨0, _⟩ => ⟨(i 0).val, (i 0).isLt⟩
  | ⟨1, _⟩ => ⟨k.val, k.isLt⟩
/-- The weight's index of a contraction position and a column. -/
abbrev rarr (i : S100000x128.Idx) (k : Fin 128) : S128x128.Idx := fun a => match a with
  | ⟨0, _⟩ => ⟨k.val, k.isLt⟩
  | ⟨1, _⟩ => ⟨(i 1).val, (i 1).isLt⟩

/-- h @ W, index by index: row i₀ of h against column i₁ of W. -/
abbrev prod (X : S100000x128.Idx → Elt Ideal .f32) (W : S128x128.Idx → Elt Ideal .f32) : S100000x128.Idx → Elt Ideal .f32 :=
  fun i => ∑ k : Fin 128, X (larr i k) * W (rarr i k)

/-- The host's product is that function. -/
theorem host_eq_prod (X : S100000x128.Idx → Elt Ideal .f32) (W : S128x128.Idx → Elt Ideal .f32) :
    Host.dotGeneral (F := Ideal) (φ₁ := .f32) (φ₂ := .f32) Cert.ReferenceIdeal.dot_S100000x128_S128x128_S100000x128_1_0_0_1_n_n none X W = prod X W := by
  funext i
  simp only [Host.dotGeneral]
  rw [Ideal.dotGeneral_apply, ← Equiv.sum_comp (ValueIdx.contrEquiv1 Cert.ReferenceIdeal.dot_S100000x128_S128x128_S100000x128_1_0_0_1_n_n 128 rfl rfl).symm]
  refine Finset.sum_congr rfl fun k _ => ?_
  have hk := ValueIdx.contrEquiv1_symm_val Cert.ReferenceIdeal.dot_S100000x128_S128x128_S100000x128_1_0_0_1_n_n 128 rfl rfl k
  have el : Cert.ReferenceIdeal.dot_S100000x128_S128x128_S100000x128_1_0_0_1_n_n.lhsIdx i ((ValueIdx.contrEquiv1 Cert.ReferenceIdeal.dot_S100000x128_S128x128_S100000x128_1_0_0_1_n_n 128 rfl rfl).symm k) = larr i k := funext fun a => Fin.ext (by
    match a with
    | ⟨0, _⟩ => exact lhs_arr_0 _ _
    | ⟨1, _⟩ => exact (lhs_arr_1 _ _).trans hk)
  have er : Cert.ReferenceIdeal.dot_S100000x128_S128x128_S100000x128_1_0_0_1_n_n.rhsIdx i ((ValueIdx.contrEquiv1 Cert.ReferenceIdeal.dot_S100000x128_S128x128_S100000x128_1_0_0_1_n_n 128 rfl rfl).symm k) = rarr i k := funext fun a => Fin.ext (by
    match a with
    | ⟨0, _⟩ => exact (rhs_arr_0 _ _).trans hk
    | ⟨1, _⟩ => exact rhs_arr_1 _ _)
  rw [el, er]

/-! ## From the blocks to the array -/

theorem hz : (![0, 0] : Fin 2 → Nat) = fun _ => 0 := funext fun a => by fin_cases a <;> rfl

/-- The index maps over the grid: point t's block of h and of the product is block row t; W's block is the whole
    matrix at every point. -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- Point t's block of h is rows 5000 t … 5000 t + 4999 of h. -/
theorem xblk_apply (V : Entry) (c : Dev nD) (t : Fin cfg2.N) (x : S5000x128.Idx) (k : S100000x128.Idx)
    (hk0 : (k 0).val = 5000 * t.val + (x 0).val) (hk1 : (k 1).val = (x 1).val) :
    (iblk2 V c 0 t : FVec Ideal S5000x128 .f32) x = (V c main_v46 : S100000x128.Idx → Elt Ideal .f32) k := by
  obtain ⟨e0, e1, -⟩ := idx_facts t
  unfold iblk2
  rw [View.read_apply]
  show V c main_v46 _ = V c main_v46 _
  congr 1
  funext a
  apply Fin.ext
  match a with
  | ⟨0, _⟩ => show win2_0.index t (0 : Fin 2) * 5000 + 1 * (x 0).val = (k 0).val; rw [e0, hk0]; omega
  | ⟨1, _⟩ => show win2_0.index t (1 : Fin 2) * 128 + 1 * (x 1).val = (k 1).val; rw [e1, hk1]; omega

/-- Every point's block of W is W. -/
theorem wblk_apply (V : Entry) (c : Dev nD) (t : Fin cfg2.N) (x : S128x128.Idx) (k : S128x128.Idx)
    (hk0 : (k 0).val = (x 0).val) (hk1 : (k 1).val = (x 1).val) :
    (iblk2 V c 1 t : FVec Ideal S128x128 .f32) x = (V c main_arg5 : S128x128.Idx → Elt Ideal .f32) k := by
  obtain ⟨-, -, e2, e3, -⟩ := idx_facts t
  unfold iblk2
  rw [View.read_apply]
  show V c main_arg5 _ = V c main_arg5 _
  congr 1
  funext a
  apply Fin.ext
  match a with
  | ⟨0, _⟩ => show win2_1.index t (0 : Fin 2) * 128 + 1 * (x 0).val = (k 0).val; rw [e2, hk0]; omega
  | ⟨1, _⟩ => show win2_1.index t (1 : Fin 2) * 128 + 1 * (x 1).val = (k 1).val; rw [e3, hk1]; omega

/-- One point of the body against one entry of h @ W: when the block operands are the arrays' entries on the
    contraction, term by term, the payload's sum is the product's. -/
theorem point_eq (x0 : FVec Ideal S5000x128 .f32) (x1 : FVec Ideal S128x128 .f32)
    (X : S100000x128.Idx → Elt Ideal .f32) (W : S128x128.Idx → Elt Ideal .f32) (y : S5000x128.Idx) (i : S100000x128.Idx)
    (h0 : ∀ k : Fin 128, x0 (lblk y k) = X (larr i k)) (h1 : ∀ k : Fin 128, x1 (rblk y k) = W (rarr i k)) :
    k2_pay1 (F := Ideal) x0 x1 y = prod X W i := by
  rw [pay_apply]
  exact Finset.sum_congr rfl fun k _ => by rw [h0 k, h1 k]

/-- WHAT POINT t WRITES BACK is block t of h @ W. -/
theorem flushed_eq (V : Entry) (c : Dev nD) (t : Fin cfg2.N) :
    (dat2 V c).flushed 2 t = ((cfg2.win 2).blk t).view.read (Elt Ideal) (prod (V c main_v46) (V c main_arg5)) := by
  show (cfg2.win 2).cut (grid2.coords t) ((dat2 V c).after 2 t) = _
  rw [after2_2]
  unfold out2_2
  rw [View.canon_unit_zero hz]
  simp only [View.ld_unit_zero (S := S5000x128) hz, View.ld_unit_zero (S := S128x128) hz]
  obtain ⟨-, -, -, -, e4, e5⟩ := idx_facts t
  funext j
  show k2_pay1 (F := Ideal) (iblk2 V c 0 t) (iblk2 V c 1 t) j
    = prod (V c main_v46) (V c main_arg5) (((cfg2.win 2).blk t).view.emb j)
  have hj0 : (j 0).val < 5000 := (j 0).isLt
  have hj1 : (j 1).val < 128 := (j 1).isLt
  refine point_eq _ _ _ _ j _ (fun k => ?_) (fun k => ?_)
  · refine xblk_apply V c t _ _ ?_ ?_
    · show win2_2.index t (0 : Fin 2) * 5000 + 1 * (j 0).val = 5000 * t.val + (j 0).val
      rw [e4]; omega
    · rfl
  · refine wblk_apply V c t _ _ ?_ ?_
    · rfl
    · show win2_2.index t (1 : Fin 2) * 128 + 1 * (j 1).val = (j 1).val
      rw [e5]; omega

/-- An index of the array is in point t's block iff each coordinate is in the block's range on its axis. -/
theorem mem_blk (t : Fin cfg2.N) (i : S100000x128.Idx) :
    i ∈ ((cfg2.win 2).blk t).view.set ↔ ∀ a : Fin 2, win2_2.index t a * S5000x128.size a ≤ (i a).val ∧ (i a).val < win2_2.index t a * S5000x128.size a + S5000x128.size a := by
  show i ∈ ((View.whole main_v47).slice (win2_2.rect t)).set ↔ _
  rw [View.set_slice_whole, Rect.mem_set_unit]
  exact Iff.rfl

/-- The blocks cover the array: row r is in the block of point r / 5000. -/
theorem cover (i : S100000x128.Idx) :
    ∃ t : Fin cfg2.N, (cfg2.win 2).flush t = true ∧ i ∈ ((cfg2.win 2).blk t).view.set := by
  have hi0 : (i 0).val < 100000 := (i 0).isLt
  have hi1 : (i 1).val < 128 := (i 1).isLt
  have hN : cfg2.N = 20 := N_2
  obtain ⟨t, ht⟩ : ∃ t : Fin cfg2.N, t.val = (i 0).val / 5000 := ⟨⟨(i 0).val / 5000, by omega⟩, rfl⟩
  obtain ⟨-, -, -, -, e4, e5⟩ := idx_facts t
  refine ⟨t, flush2_2 t, ?_⟩
  rw [mem_blk]
  intro a
  match a with
  | ⟨0, _⟩ =>
    show win2_2.index t (0 : Fin 2) * 5000 ≤ (i 0).val ∧ (i 0).val < win2_2.index t (0 : Fin 2) * 5000 + 5000
    rw [e4, ht]; omega
  | ⟨1, _⟩ =>
    show win2_2.index t (1 : Fin 2) * 128 ≤ (i 1).val ∧ (i 1).val < win2_2.index t (1 : Fin 2) * 128 + 128
    rw [e5]; omega

theorem final (V : Entry) (c : Dev nD) :
    (dat2 V c).arrAt 2 cfg2.N
      = Host.dotGeneral (F := Ideal) (φ₁ := .f32) (φ₂ := .f32) Cert.ReferenceIdeal.dot_S100000x128_S128x128_S100000x128_1_0_0_1_n_n none
          (V c main_v46) (V c main_arg5) :=
  ((dat2 V c).arrAt_eq_of_cover 2 (prod (V c main_v46) (V c main_arg5)) (fun t _ => flushed_eq V c t) cover).trans
    (host_eq_prod _ _).symm

end Cert.KernelIdeal.Lin2

end
-- ==== Proof.Lin4.lean ====
/-
  Projection region 4: twenty grid points, point `t` multiplying rows `5000 t … 5000 t + 4999` of the second layer's activations by the whole
  `[128, 128]` matrix (the operands narrowed to bf16 first, which at the extended reals changes nothing) into a zero
  accumulator, and writing the [5000, 128] block back at the same rows of the result. At an index `(r, q)` both the block product and
  the reference's whole matrix product are the sum over the contraction position `k` of `X (r, k) * W (k, q)`; the twenty
  blocks tile the array, so the array ends holding the reference's product.
-/
import proofs.«423662_j14370960573165_1_alg».proof.Proof.Gen.KernelIdeal.Frame
import proofs.«423662_j14370960573165_1_alg».proof.Proof.Gen.ReferenceIdeal
import Idealize.ShloMosaic.Lib.Pipeline.Value
import Idealize.ShloMosaic.Lib.ValueIdx
import Idealize.ShloMosaic.Lib.ValueLayout
import Idealize.ShloMosaic.PureOps.Ideal.Laws

noncomputable section

open Idealize.ShloMosaic Idealize.ShloMosaic.TcCoe Idealize.SL.Sem
open Idealize.ShloMosaic.Pipeline (Dat)

namespace Cert.KernelIdeal.Lin4

open Cert.KernelIdeal Cert.KernelIdeal.Gen

/-- The TensorCore's buffer contents when a region is entered. -/
abbrev Entry := (c : Dev nD) → (b : Ref sig .tc) → Buf (Elt Ideal) ((c : Thread nD τ).loc b)

/-! ## The block product's operand indices, axis by axis -/

/-- Row axis of the left operand: the output's row. -/
theorem lhs_blk_0 (y : S5000x128.Idx) (q : dot_S5000x128_S128x128_S5000x128_1_0_0_1_n_n.contr.Idx) :
    (dot_S5000x128_S128x128_S5000x128_1_0_0_1_n_n.lhsIdx y q 0).val = (y 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
/-- Column axis of the left operand: the contraction position. -/
theorem lhs_blk_1 (y : S5000x128.Idx) (q : dot_S5000x128_S128x128_S5000x128_1_0_0_1_n_n.contr.Idx) :
    (dot_S5000x128_S128x128_S5000x128_1_0_0_1_n_n.lhsIdx y q 1).val = (q ⟨0, by decide⟩).val :=
  dot_S5000x128_S128x128_S5000x128_1_0_0_1_n_n.lhsIdx_val_of_single rfl y q
/-- Row axis of the right operand: the contraction position. -/
theorem rhs_blk_0 (y : S5000x128.Idx) (q : dot_S5000x128_S128x128_S5000x128_1_0_0_1_n_n.contr.Idx) :
    (dot_S5000x128_S128x128_S5000x128_1_0_0_1_n_n.rhsIdx y q 0).val = (q ⟨0, by decide⟩).val :=
  dot_S5000x128_S128x128_S5000x128_1_0_0_1_n_n.rhsIdx_val_of_single rfl y q
/-- Column axis of the right operand: the output's column. -/
theorem rhs_blk_1 (y : S5000x128.Idx) (q : dot_S5000x128_S128x128_S5000x128_1_0_0_1_n_n.contr.Idx) :
    (dot_S5000x128_S128x128_S5000x128_1_0_0_1_n_n.rhsIdx y q 1).val = (y 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- The left operand's index of a block row and a contraction position. -/
abbrev lblk (y : S5000x128.Idx) (k : Fin 128) : S5000x128.Idx := fun a => match a with
  | ⟨0, _⟩ => ⟨(y 0).val, (y 0).isLt⟩
  | ⟨1, _⟩ => ⟨k.val, k.isLt⟩
/-- The right operand's index of a contraction position and a column. -/
abbrev rblk (y : S5000x128.Idx) (k : Fin 128) : S128x128.Idx := fun a => match a with
  | ⟨0, _⟩ => ⟨k.val, k.isLt⟩
  | ⟨1, _⟩ => ⟨(y 1).val, (y 1).isLt⟩

/-- The body's payload at a block index: the reshape to the same shape is the identity, exact arithmetic makes the
    narrowing to bf16 the identity, and the product into the zero accumulator is the 128-term sum over the
    contraction. -/
theorem pay_apply (x0 : FVec Ideal S5000x128 .f32) (x1 : FVec Ideal S128x128 .f32) (y : S5000x128.Idx) :
    k4_pay1 (F := Ideal) x0 x1 y = ∑ k : Fin 128, x0 (lblk y k) * x1 (rblk y k) := by
  unfold k4_pay1
  refine (Ideal.matmul_constant_zero_apply dot_S5000x128_S128x128_S5000x128_1_0_0_1_n_n none _ _ y).trans ?_
  rw [← Equiv.sum_comp (ValueIdx.contrEquiv1 dot_S5000x128_S128x128_S5000x128_1_0_0_1_n_n 128 rfl rfl).symm]
  refine Finset.sum_congr rfl fun k _ => ?_
  have hk := ValueIdx.contrEquiv1_symm_val dot_S5000x128_S128x128_S5000x128_1_0_0_1_n_n 128 rfl rfl k
  have el : dot_S5000x128_S128x128_S5000x128_1_0_0_1_n_n.lhsIdx y ((ValueIdx.contrEquiv1 dot_S5000x128_S128x128_S5000x128_1_0_0_1_n_n 128 rfl rfl).symm k) = lblk y k := funext fun a => Fin.ext (by
    match a with
    | ⟨0, _⟩ => exact lhs_blk_0 _ _
    | ⟨1, _⟩ => exact (lhs_blk_1 _ _).trans hk)
  have er : dot_S5000x128_S128x128_S5000x128_1_0_0_1_n_n.rhsIdx y ((ValueIdx.contrEquiv1 dot_S5000x128_S128x128_S5000x128_1_0_0_1_n_n 128 rfl rfl).symm k) = rblk y k := funext fun a => Fin.ext (by
    match a with
    | ⟨0, _⟩ => exact (rhs_blk_0 _ _).trans hk
    | ⟨1, _⟩ => exact rhs_blk_1 _ _)
  rw [el, er]
  exact congrArg (fun v : FVec Ideal S5000x128 .f32 => v (lblk y k) * x1 (rblk y k)) (shapeCast_self x0 _)

/-! ## The host product's operand indices, axis by axis -/

theorem lhs_arr_0 (i : Cert.ReferenceIdeal.S100000x128.Idx) (q : Cert.ReferenceIdeal.dot_S100000x128_S128x128_S100000x128_1_0_0_1_n_n.contr.Idx) :
    (Cert.ReferenceIdeal.dot_S100000x128_S128x128_S100000x128_1_0_0_1_n_n.lhsIdx i q 0).val = (i 0).val := by
  unfold DotDims.lhsIdx
  rw [dif_neg (show ¬(0 : Fin Cert.ReferenceIdeal.S100000x128.rank) ∈ Cert.ReferenceIdeal.dot_S100000x128_S128x128_S100000x128_1_0_0_1_n_n.lhsBatch by decide), dif_pos (show (0 : Fin Cert.ReferenceIdeal.S100000x128.rank) ∈ Cert.ReferenceIdeal.dot_S100000x128_S128x128_S100000x128_1_0_0_1_n_n.lhsNonContracting by decide)]
  rfl
theorem lhs_arr_1 (i : Cert.ReferenceIdeal.S100000x128.Idx) (q : Cert.ReferenceIdeal.dot_S100000x128_S128x128_S100000x128_1_0_0_1_n_n.contr.Idx) :
    (Cert.ReferenceIdeal.dot_S100000x128_S128x128_S100000x128_1_0_0_1_n_n.lhsIdx i q 1).val = (q ⟨0, by decide⟩).val :=
  Cert.ReferenceIdeal.dot_S100000x128_S128x128_S100000x128_1_0_0_1_n_n.lhsIdx_val_of_single rfl i q
theorem rhs_arr_0 (i : Cert.ReferenceIdeal.S100000x128.Idx) (q : Cert.ReferenceIdeal.dot_S100000x128_S128x128_S100000x128_1_0_0_1_n_n.contr.Idx) :
    (Cert.ReferenceIdeal.dot_S100000x128_S128x128_S100000x128_1_0_0_1_n_n.rhsIdx i q 0).val = (q ⟨0, by decide⟩).val :=
  Cert.ReferenceIdeal.dot_S100000x128_S128x128_S100000x128_1_0_0_1_n_n.rhsIdx_val_of_single rfl i q
theorem rhs_arr_1 (i : Cert.ReferenceIdeal.S100000x128.Idx) (q : Cert.ReferenceIdeal.dot_S100000x128_S128x128_S100000x128_1_0_0_1_n_n.contr.Idx) :
    (Cert.ReferenceIdeal.dot_S100000x128_S128x128_S100000x128_1_0_0_1_n_n.rhsIdx i q 1).val = (i 1).val := by
  unfold DotDims.rhsIdx
  rw [dif_neg (show ¬(1 : Fin Cert.ReferenceIdeal.S128x128.rank) ∈ Cert.ReferenceIdeal.dot_S100000x128_S128x128_S100000x128_1_0_0_1_n_n.rhsBatch by decide), dif_pos (show (1 : Fin Cert.ReferenceIdeal.S128x128.rank) ∈ Cert.ReferenceIdeal.dot_S100000x128_S128x128_S100000x128_1_0_0_1_n_n.rhsNonContracting by decide)]
  rfl

/-- The left array's index of a row and a contraction position. -/
abbrev larr (i : S100000x128.Idx) (k : Fin 128) : S100000x128.Idx := fun a => match a with
  | ⟨0, _⟩ => ⟨(i 0).val, (i 0).isLt⟩
  | ⟨1, _⟩ => ⟨k.val, k.isLt⟩
/-- The weight's index of a contraction position and a column. -/
abbrev rarr (i : S100000x128.Idx) (k : Fin 128) : S128x128.Idx := fun a => match a with
  | ⟨0, _⟩ => ⟨k.val, k.isLt⟩
  | ⟨1, _⟩ => ⟨(i 1).val, (i 1).isLt⟩

/-- h @ W, index by index: row i₀ of h against column i₁ of W. -/
abbrev prod (X : S100000x128.Idx → Elt Ideal .f32) (W : S128x128.Idx → Elt Ideal .f32) : S100000x128.Idx → Elt Ideal .f32 :=
  fun i => ∑ k : Fin 128, X (larr i k) * W (rarr i k)

/-- The host's product is that function. -/
theorem host_eq_prod (X : S100000x128.Idx → Elt Ideal .f32) (W : S128x128.Idx → Elt Ideal .f32) :
    Host.dotGeneral (F := Ideal) (φ₁ := .f32) (φ₂ := .f32) Cert.ReferenceIdeal.dot_S100000x128_S128x128_S100000x128_1_0_0_1_n_n none X W = prod X W := by
  funext i
  simp only [Host.dotGeneral]
  rw [Ideal.dotGeneral_apply, ← Equiv.sum_comp (ValueIdx.contrEquiv1 Cert.ReferenceIdeal.dot_S100000x128_S128x128_S100000x128_1_0_0_1_n_n 128 rfl rfl).symm]
  refine Finset.sum_congr rfl fun k _ => ?_
  have hk := ValueIdx.contrEquiv1_symm_val Cert.ReferenceIdeal.dot_S100000x128_S128x128_S100000x128_1_0_0_1_n_n 128 rfl rfl k
  have el : Cert.ReferenceIdeal.dot_S100000x128_S128x128_S100000x128_1_0_0_1_n_n.lhsIdx i ((ValueIdx.contrEquiv1 Cert.ReferenceIdeal.dot_S100000x128_S128x128_S100000x128_1_0_0_1_n_n 128 rfl rfl).symm k) = larr i k := funext fun a => Fin.ext (by
    match a with
    | ⟨0, _⟩ => exact lhs_arr_0 _ _
    | ⟨1, _⟩ => exact (lhs_arr_1 _ _).trans hk)
  have er : Cert.ReferenceIdeal.dot_S100000x128_S128x128_S100000x128_1_0_0_1_n_n.rhsIdx i ((ValueIdx.contrEquiv1 Cert.ReferenceIdeal.dot_S100000x128_S128x128_S100000x128_1_0_0_1_n_n 128 rfl rfl).symm k) = rarr i k := funext fun a => Fin.ext (by
    match a with
    | ⟨0, _⟩ => exact (rhs_arr_0 _ _).trans hk
    | ⟨1, _⟩ => exact rhs_arr_1 _ _)
  rw [el, er]

/-! ## From the blocks to the array -/

theorem hz : (![0, 0] : Fin 2 → Nat) = fun _ => 0 := funext fun a => by fin_cases a <;> rfl

/-- The index maps over the grid: point t's block of h and of the product is block row t; W's block is the whole
    matrix at every point. -/
theorem idx_facts : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0 :=
  (by decide +kernel : ∀ t : Fin grid4.N, _)

/-- Point t's block of h is rows 5000 t … 5000 t + 4999 of h. -/
theorem xblk_apply (V : Entry) (c : Dev nD) (t : Fin cfg4.N) (x : S5000x128.Idx) (k : S100000x128.Idx)
    (hk0 : (k 0).val = 5000 * t.val + (x 0).val) (hk1 : (k 1).val = (x 1).val) :
    (iblk4 V c 0 t : FVec Ideal S5000x128 .f32) x = (V c main_v62 : S100000x128.Idx → Elt Ideal .f32) k := by
  obtain ⟨e0, e1, -⟩ := idx_facts t
  unfold iblk4
  rw [View.read_apply]
  show V c main_v62 _ = V c main_v62 _
  congr 1
  funext a
  apply Fin.ext
  match a with
  | ⟨0, _⟩ => show win4_0.index t (0 : Fin 2) * 5000 + 1 * (x 0).val = (k 0).val; rw [e0, hk0]; omega
  | ⟨1, _⟩ => show win4_0.index t (1 : Fin 2) * 128 + 1 * (x 1).val = (k 1).val; rw [e1, hk1]; omega

/-- Every point's block of W is W. -/
theorem wblk_apply (V : Entry) (c : Dev nD) (t : Fin cfg4.N) (x : S128x128.Idx) (k : S128x128.Idx)
    (hk0 : (k 0).val = (x 0).val) (hk1 : (k 1).val = (x 1).val) :
    (iblk4 V c 1 t : FVec Ideal S128x128 .f32) x = (V c main_arg7 : S128x128.Idx → Elt Ideal .f32) k := by
  obtain ⟨-, -, e2, e3, -⟩ := idx_facts t
  unfold iblk4
  rw [View.read_apply]
  show V c main_arg7 _ = V c main_arg7 _
  congr 1
  funext a
  apply Fin.ext
  match a with
  | ⟨0, _⟩ => show win4_1.index t (0 : Fin 2) * 128 + 1 * (x 0).val = (k 0).val; rw [e2, hk0]; omega
  | ⟨1, _⟩ => show win4_1.index t (1 : Fin 2) * 128 + 1 * (x 1).val = (k 1).val; rw [e3, hk1]; omega

/-- One point of the body against one entry of h @ W: when the block operands are the arrays' entries on the
    contraction, term by term, the payload's sum is the product's. -/
theorem point_eq (x0 : FVec Ideal S5000x128 .f32) (x1 : FVec Ideal S128x128 .f32)
    (X : S100000x128.Idx → Elt Ideal .f32) (W : S128x128.Idx → Elt Ideal .f32) (y : S5000x128.Idx) (i : S100000x128.Idx)
    (h0 : ∀ k : Fin 128, x0 (lblk y k) = X (larr i k)) (h1 : ∀ k : Fin 128, x1 (rblk y k) = W (rarr i k)) :
    k4_pay1 (F := Ideal) x0 x1 y = prod X W i := by
  rw [pay_apply]
  exact Finset.sum_congr rfl fun k _ => by rw [h0 k, h1 k]

/-- WHAT POINT t WRITES BACK is block t of h @ W. -/
theorem flushed_eq (V : Entry) (c : Dev nD) (t : Fin cfg4.N) :
    (dat4 V c).flushed 2 t = ((cfg4.win 2).blk t).view.read (Elt Ideal) (prod (V c main_v62) (V c main_arg7)) := by
  show (cfg4.win 2).cut (grid4.coords t) ((dat4 V c).after 2 t) = _
  rw [after4_2]
  unfold out4_2
  rw [View.canon_unit_zero hz]
  simp only [View.ld_unit_zero (S := S5000x128) hz, View.ld_unit_zero (S := S128x128) hz]
  obtain ⟨-, -, -, -, e4, e5⟩ := idx_facts t
  funext j
  show k4_pay1 (F := Ideal) (iblk4 V c 0 t) (iblk4 V c 1 t) j
    = prod (V c main_v62) (V c main_arg7) (((cfg4.win 2).blk t).view.emb j)
  have hj0 : (j 0).val < 5000 := (j 0).isLt
  have hj1 : (j 1).val < 128 := (j 1).isLt
  refine point_eq _ _ _ _ j _ (fun k => ?_) (fun k => ?_)
  · refine xblk_apply V c t _ _ ?_ ?_
    · show win4_2.index t (0 : Fin 2) * 5000 + 1 * (j 0).val = 5000 * t.val + (j 0).val
      rw [e4]; omega
    · rfl
  · refine wblk_apply V c t _ _ ?_ ?_
    · rfl
    · show win4_2.index t (1 : Fin 2) * 128 + 1 * (j 1).val = (j 1).val
      rw [e5]; omega

/-- An index of the array is in point t's block iff each coordinate is in the block's range on its axis. -/
theorem mem_blk (t : Fin cfg4.N) (i : S100000x128.Idx) :
    i ∈ ((cfg4.win 2).blk t).view.set ↔ ∀ a : Fin 2, win4_2.index t a * S5000x128.size a ≤ (i a).val ∧ (i a).val < win4_2.index t a * S5000x128.size a + S5000x128.size a := by
  show i ∈ ((View.whole main_v63).slice (win4_2.rect t)).set ↔ _
  rw [View.set_slice_whole, Rect.mem_set_unit]
  exact Iff.rfl

/-- The blocks cover the array: row r is in the block of point r / 5000. -/
theorem cover (i : S100000x128.Idx) :
    ∃ t : Fin cfg4.N, (cfg4.win 2).flush t = true ∧ i ∈ ((cfg4.win 2).blk t).view.set := by
  have hi0 : (i 0).val < 100000 := (i 0).isLt
  have hi1 : (i 1).val < 128 := (i 1).isLt
  have hN : cfg4.N = 20 := N_4
  obtain ⟨t, ht⟩ : ∃ t : Fin cfg4.N, t.val = (i 0).val / 5000 := ⟨⟨(i 0).val / 5000, by omega⟩, rfl⟩
  obtain ⟨-, -, -, -, e4, e5⟩ := idx_facts t
  refine ⟨t, flush4_2 t, ?_⟩
  rw [mem_blk]
  intro a
  match a with
  | ⟨0, _⟩ =>
    show win4_2.index t (0 : Fin 2) * 5000 ≤ (i 0).val ∧ (i 0).val < win4_2.index t (0 : Fin 2) * 5000 + 5000
    rw [e4, ht]; omega
  | ⟨1, _⟩ =>
    show win4_2.index t (1 : Fin 2) * 128 ≤ (i 1).val ∧ (i 1).val < win4_2.index t (1 : Fin 2) * 128 + 128
    rw [e5]; omega

theorem final (V : Entry) (c : Dev nD) :
    (dat4 V c).arrAt 2 cfg4.N
      = Host.dotGeneral (F := Ideal) (φ₁ := .f32) (φ₂ := .f32) Cert.ReferenceIdeal.dot_S100000x128_S128x128_S100000x128_1_0_0_1_n_n none
          (V c main_v62) (V c main_arg7) :=
  ((dat4 V c).arrAt_eq_of_cover 2 (prod (V c main_v62) (V c main_arg7)) (fun t _ => flushed_eq V c t) cover).trans
    (host_eq_prod _ _).symm

end Cert.KernelIdeal.Lin4

end
-- ==== Proof.Act1.lean ====
/-
  Activation region 1: twenty grid points, point `t` taking rows `5000 t … 5000 t + 4999` of the first aggregate, adding the bias row
  `b1` (a `[1, 128]` row, broadcast down the block), taking the maximum with zero, and writing the block back at the same rows of
  the result. At an index `(r, q)` that is `max (A (r, q) + b q) 0`, which is what the reference's two broadcasts, its sum and its maximum
  give at that index; the twenty blocks tile the array.
-/
import proofs.«423662_j14370960573165_1_alg».proof.Proof.Gen.KernelIdeal.Frame
import proofs.«423662_j14370960573165_1_alg».proof.Proof.Gen.ReferenceIdeal
import Idealize.ShloMosaic.Lib.Pipeline.Value
import Idealize.ShloMosaic.Lib.ValueIdx
import Idealize.ShloMosaic.Lib.ValueLayout
import Idealize.ShloMosaic.PureOps.Ideal.Laws

noncomputable section

open Idealize.ShloMosaic Idealize.ShloMosaic.TcCoe Idealize.SL.Sem
open Idealize.ShloMosaic.Pipeline (Dat)

namespace Cert.KernelIdeal.Act1

open Cert.KernelIdeal Cert.KernelIdeal.Gen
open Idealize.ShloMosaic.ValueIdx

/-- The TensorCore's buffer contents when a region is entered. -/
abbrev Entry := (c : Dev nD) → (b : Ref sig .tc) → Buf (Elt Ideal) ((c : Thread nD τ).loc b)

/-! ## The first activation layer: `max (x + b, 0)` of a [100000,128] array and a [128] bias row

The region walks the array in 20 blocks of 5000 rows. At each block it adds the one bias row to every row of the
block and takes the maximum with zero. Below: the block's payload at one element, the whole-array function at one
element, each input block as rows of its array, what one point writes back, the cover of the array by the 20
blocks, and the array after the run. -/

/-- Both accesses of the body start at the origin of their buffers. -/
theorem origin : (![0, 0] : Fin 2 → Nat) = fun _ => 0 := funext fun a => by fin_cases a <;> rfl

/-- THE PAYLOAD AT ONE ELEMENT: row `p`, column `q` of the stored block is the maximum of zero and the sum of
    the input block's element there and the bias row's element at column `q` (the two casts keep their shapes; the
    [1,128] row broadcast over 5000 rows reads its one row). -/
theorem relu_block_apply (x0 : FVec Ideal S5000x128 .f32) (x1 : FVec Ideal S1x128 .f32) (p : Fin 5000) (q : Fin 128) :
    k1_pay1 x0 x1 (ix2 p q) = max (x0 (ix2 p q) + x1 (ix2 0 q)) (Ideal.ofBits .f32 0x00000000#32) := by
  unfold k1_pay1
  rw [shapeCast_self, shapeCast_self]
  exact congrArg (fun z => max (x0 (ix2 p q) + z) (Ideal.ofBits .f32 0x00000000#32))
    (broadcastTo_1b_ab_apply x1 broadcasts_S1x128_S5000x128 p q)

/-- The whole-array function: `max (A + b, 0)` with the bias `b` broadcast along the rows and zero everywhere. -/
abbrev biasRelu (A : FVec Ideal S100000x128 .f32) (b : FVec Ideal S128 .f32) : FVec Ideal S100000x128 .f32 :=
  maximumf (addf A
      (broadcastInDim Cert.ReferenceIdeal.S100000x128 ![0, 1] Cert.ReferenceIdeal.Facts₀.bcast_S1x128_S100000x128_0_1
        (broadcastInDim Cert.ReferenceIdeal.S1x128 ![1] Cert.ReferenceIdeal.Facts₀.bcast_S128_S1x128_1 b)))
    (broadcastInDim Cert.ReferenceIdeal.S100000x128 ![] Cert.ReferenceIdeal.Facts₀.bcast_S_S100000x128 (constant (F := Ideal) S_ .f32 0x00000000#32))

/-- THE WHOLE-ARRAY FUNCTION AT ONE ELEMENT: at row `r`, column `q` it is `max (A (r, q) + b q, 0)`: the bias goes
    [128] → [1,128] → [100000,128], each broadcast reading its operand at the column, and the zero is the same
    word everywhere. -/
theorem biasRelu_apply (A : FVec Ideal S100000x128 .f32) (b : FVec Ideal S128 .f32) (r : Fin 100000) (q : Fin 128) :
    biasRelu A b (ix2 r q) = max (A (ix2 r q) + b (ix1 q)) (Ideal.ofBits .f32 0x00000000#32) := by
  have bias_at : broadcastInDim Cert.ReferenceIdeal.S100000x128 ![0, 1] Cert.ReferenceIdeal.Facts₀.bcast_S1x128_S100000x128_0_1
      (broadcastInDim Cert.ReferenceIdeal.S1x128 ![1] Cert.ReferenceIdeal.Facts₀.bcast_S128_S1x128_1 b) (ix2 r q) = b (ix1 q) := by
    refine (broadcastInDim_apply _ _ _ (ix2 r q) (ix2 (0 : Fin 1) q) fun a => ?_).trans ?_
    · match a with
      | ⟨0, _⟩ => rfl
      | ⟨1, _⟩ => rfl
    · refine broadcastInDim_apply _ _ _ (ix2 (0 : Fin 1) q) (ix1 q) fun a => ?_
      match a with
      | ⟨0, _⟩ => rfl
  show max (A (ix2 r q) + _) _ = _
  rw [bias_at]
  rfl

/-- The index maps over the grid: at point `t` the input rows and the output rows are block `t` along the rows and
    block 0 along the columns; the bias row is block (0, 0) at every point. -/
theorem block_indices : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- The input block at point `t` is rows `5000 t … 5000 t + 4999` of the input array: element `x` of the block is
    the array's element `k` whenever `k` is `x` moved down by `5000 t` rows. -/
theorem rows_block_apply (V : Entry) (c : Dev nD) (t : Fin cfg1.N) (x : S5000x128.Idx) (k : S100000x128.Idx)
    (hk0 : (k 0).val = 5000 * t.val + (x 0).val) (hk1 : (k 1).val = (x 1).val) :
    (iblk1 V c 0 t : FVec Ideal S5000x128 .f32) x = (V c main_v44 : FVec Ideal S100000x128 .f32) k := by
  obtain ⟨e0, e1, -⟩ := block_indices t
  unfold iblk1
  rw [View.read_apply]
  show V c main_v44 _ = V c main_v44 _
  congr 1
  funext a
  apply Fin.ext
  match a with
  | ⟨0, _⟩ => show win1_0.index t 0 * 5000 + 1 * (x 0).val = (k 0).val; rw [e0, hk0]; omega
  | ⟨1, _⟩ => show win1_0.index t 1 * 128 + 1 * (x 1).val = (k 1).val; rw [e1, hk1]; omega

/-- The bias block at every point is the whole [1,128] bias array. -/
theorem bias_block_apply (V : Entry) (c : Dev nD) (t : Fin cfg1.N) (x : S1x128.Idx) :
    (iblk1 V c 1 t : FVec Ideal S1x128 .f32) x = (V c main_v45 : FVec Ideal S1x128 .f32) x := by
  obtain ⟨-, -, e0, e1, -⟩ := block_indices t
  unfold iblk1
  rw [View.read_apply]
  show V c main_v45 _ = V c main_v45 _
  congr 1
  funext a
  apply Fin.ext
  match a with
  | ⟨0, _⟩ => show win1_1.index t 0 * 1 + 1 * (x 0).val = (x 0).val; rw [e0]; omega
  | ⟨1, _⟩ => show win1_1.index t 1 * 128 + 1 * (x 1).val = (x 1).val; rw [e1]; omega

/-- ONE ELEMENT OF ONE POINT'S BLOCK: the payload of point `t`'s two input blocks at block element `j` is the
    whole-array function at the array element `k` that `j` is in block `t` (`5000 t` rows further down, same
    column): both are `max (A k + b (column), 0)`, the bias array being the [128] row `b` with a unit axis in front. -/
theorem relu_block_point (V : Entry) (c : Dev nD) (b : FVec Ideal S128 .f32)
    (hb : V c main_v45 = shapeCast S1x128 b shapeCasts_S128_S1x128) (t : Fin cfg1.N)
    (j : S5000x128.Idx) (k : S100000x128.Idx)
    (hk0 : (k 0).val = 5000 * t.val + (j 0).val) (hk1 : (k 1).val = (j 1).val) :
    k1_pay1 (iblk1 V c 0 t) (iblk1 V c 1 t) j = biasRelu (V c main_v44) b k := by
  obtain ⟨p, q, rfl⟩ : ∃ (p : Fin 5000) (q : Fin 128), j = ix2 p q := ⟨j 0, j 1, eq_ix2 j⟩
  obtain ⟨r, q', rfl⟩ : ∃ (r : Fin 100000) (q' : Fin 128), k = ix2 r q' := ⟨k 0, k 1, eq_ix2 k⟩
  obtain rfl : q' = q := Fin.ext hk1
  refine (relu_block_apply (iblk1 V c 0 t) (iblk1 V c 1 t) p q').trans ?_
  refine Eq.trans ?_ (biasRelu_apply (V c main_v44) b r q').symm
  have rows_at : (iblk1 V c 0 t : FVec Ideal S5000x128 .f32) (ix2 p q') = (V c main_v44 : FVec Ideal S100000x128 .f32) (ix2 r q') :=
    rows_block_apply V c t (ix2 p q') (ix2 r q') hk0 rfl
  have bias_at : (iblk1 V c 1 t : FVec Ideal S1x128 .f32) (ix2 0 q') = b (ix1 q') := by
    refine (bias_block_apply V c t (ix2 0 q')).trans ?_
    rw [hb]
    exact shapeCast_a_1a_apply b shapeCasts_S128_S1x128 0 q'
  rw [rows_at, bias_at]

/-- WHAT POINT `t` WRITES BACK is block `t` of the whole-array function of the arrays as the region finds them. -/
theorem flushed_eq (V : Entry) (c : Dev nD) (b : FVec Ideal S128 .f32)
    (hb : V c main_v45 = shapeCast S1x128 b shapeCasts_S128_S1x128) (t : Fin cfg1.N) :
    (dat1 V c).flushed 2 t = ((cfg1.win 2).blk t).view.read (Elt Ideal) (biasRelu (V c main_v44) b) := by
  show (cfg1.win 2).cut (grid1.coords t) ((dat1 V c).after 2 t) = _
  rw [after1_2]
  unfold out1_2
  rw [View.canon_unit_zero origin]
  simp only [View.ld_unit_zero (S := S5000x128) origin, View.ld_unit_zero (S := S1x128) origin]
  obtain ⟨-, -, -, -, e0, e1⟩ := block_indices t
  funext j
  show k1_pay1 (iblk1 V c 0 t) (iblk1 V c 1 t) j = biasRelu (V c main_v44) b (((cfg1.win 2).blk t).view.emb j)
  refine relu_block_point V c b hb t j _ ?_ ?_
  · show win1_2.index t (0 : Fin 2) * 5000 + 1 * (j 0).val = 5000 * t.val + (j 0).val
    rw [e0]; omega
  · show win1_2.index t (1 : Fin 2) * 128 + 1 * (j 1).val = (j 1).val
    rw [e1]; omega

/-- An element of the output array is in point `t`'s block iff each coordinate is in the block's range on its axis. -/
theorem mem_blk (t : Fin cfg1.N) (i : S100000x128.Idx) :
    i ∈ ((cfg1.win 2).blk t).view.set ↔ ∀ a : Fin 2, win1_2.index t a * S5000x128.size a ≤ (i a).val ∧ (i a).val < win1_2.index t a * S5000x128.size a + S5000x128.size a := by
  show i ∈ ((View.whole main_v46).slice (win1_2.rect t)).set ↔ _
  rw [View.set_slice_whole, Rect.mem_set_unit]
  exact Iff.rfl

/-- THE 20 BLOCKS COVER THE ARRAY: row `r` is in the block of point `r / 5000`, which is written back. -/
theorem cover (i : S100000x128.Idx) :
    ∃ t : Fin cfg1.N, (cfg1.win 2).flush t = true ∧ i ∈ ((cfg1.win 2).blk t).view.set := by
  have hi0 : (i 0).val < 100000 := (i 0).isLt
  have hi1 : (i 1).val < 128 := (i 1).isLt
  have hN : cfg1.N = 20 := N_1
  let t : Fin cfg1.N := ⟨(i 0).val / 5000, by rw [hN]; omega⟩
  obtain ⟨-, -, -, -, e0, e1⟩ := block_indices t
  refine ⟨t, flush1_2 t, ?_⟩
  rw [mem_blk]
  intro a
  match a with
  | ⟨0, _⟩ => show win1_2.index t (0 : Fin 2) * 5000 ≤ (i 0).val ∧ (i 0).val < win1_2.index t (0 : Fin 2) * 5000 + 5000
              rw [e0]; show (i 0).val / 5000 * 5000 ≤ (i 0).val ∧ (i 0).val < (i 0).val / 5000 * 5000 + 5000; omega
  | ⟨1, _⟩ => show win1_2.index t (1 : Fin 2) * 128 ≤ (i 1).val ∧ (i 1).val < win1_2.index t (1 : Fin 2) * 128 + 128
              rw [e1]; omega

/-- THE ARRAY AFTER THE REGION: every element is in some written-back block, and every block is the whole-array
    function's, so the array ends holding `max (A + b, 0)`. -/
theorem final (V : Entry) (c : Dev nD) (b : FVec Ideal S128 .f32)
    (hb : V c main_v45 = shapeCast S1x128 b shapeCasts_S128_S1x128) :
    (dat1 V c).arrAt 2 cfg1.N
      = maximumf (addf (V c main_v44)
          (broadcastInDim Cert.ReferenceIdeal.S100000x128 ![0, 1] Cert.ReferenceIdeal.Facts₀.bcast_S1x128_S100000x128_0_1
            (broadcastInDim Cert.ReferenceIdeal.S1x128 ![1] Cert.ReferenceIdeal.Facts₀.bcast_S128_S1x128_1 b)))
          (broadcastInDim Cert.ReferenceIdeal.S100000x128 ![] Cert.ReferenceIdeal.Facts₀.bcast_S_S100000x128 (constant (F := Ideal) S_ .f32 0x00000000#32)) :=
  (dat1 V c).arrAt_eq_of_cover 2 (biasRelu (V c main_v44) b) (fun t _ => flushed_eq V c b hb t) cover

end Cert.KernelIdeal.Act1

end
-- ==== Proof.Act3.lean ====
/-
  Activation region 3: twenty grid points, point `t` taking rows `5000 t … 5000 t + 4999` of the second aggregate, adding the bias row
  `b2` (a `[1, 128]` row, broadcast down the block), taking the maximum with zero, and writing the block back at the same rows of
  the result. At an index `(r, q)` that is `max (A (r, q) + b q) 0`, which is what the reference's two broadcasts, its sum and its maximum
  give at that index; the twenty blocks tile the array.
-/
import proofs.«423662_j14370960573165_1_alg».proof.Proof.Gen.KernelIdeal.Frame
import proofs.«423662_j14370960573165_1_alg».proof.Proof.Gen.ReferenceIdeal
import Idealize.ShloMosaic.Lib.Pipeline.Value
import Idealize.ShloMosaic.Lib.ValueIdx
import Idealize.ShloMosaic.Lib.ValueLayout
import Idealize.ShloMosaic.PureOps.Ideal.Laws

noncomputable section

open Idealize.ShloMosaic Idealize.ShloMosaic.TcCoe Idealize.SL.Sem
open Idealize.ShloMosaic.Pipeline (Dat)

namespace Cert.KernelIdeal.Act3

open Cert.KernelIdeal Cert.KernelIdeal.Gen
open Idealize.ShloMosaic.ValueIdx

/-- The TensorCore's buffer contents when a region is entered. -/
abbrev Entry := (c : Dev nD) → (b : Ref sig .tc) → Buf (Elt Ideal) ((c : Thread nD τ).loc b)

/-! ## The second activation layer: `max (x + b, 0)` of a [100000,128] array and a [128] bias row

The region walks the array in 20 blocks of 5000 rows. At each block it adds the one bias row to every row of the
block and takes the maximum with zero. Below: the block's payload at one element, the whole-array function at one
element, each input block as rows of its array, what one point writes back, the cover of the array by the 20
blocks, and the array after the run. -/

/-- Both accesses of the body start at the origin of their buffers. -/
theorem origin : (![0, 0] : Fin 2 → Nat) = fun _ => 0 := funext fun a => by fin_cases a <;> rfl

/-- THE PAYLOAD AT ONE ELEMENT: row `p`, column `q` of the stored block is the maximum of zero and the sum of
    the input block's element there and the bias row's element at column `q` (the two casts keep their shapes; the
    [1,128] row broadcast over 5000 rows reads its one row). -/
theorem relu_block_apply (x0 : FVec Ideal S5000x128 .f32) (x1 : FVec Ideal S1x128 .f32) (p : Fin 5000) (q : Fin 128) :
    k3_pay1 x0 x1 (ix2 p q) = max (x0 (ix2 p q) + x1 (ix2 0 q)) (Ideal.ofBits .f32 0x00000000#32) := by
  unfold k3_pay1
  rw [shapeCast_self, shapeCast_self]
  exact congrArg (fun z => max (x0 (ix2 p q) + z) (Ideal.ofBits .f32 0x00000000#32))
    (broadcastTo_1b_ab_apply x1 broadcasts_S1x128_S5000x128 p q)

/-- The whole-array function: `max (A + b, 0)` with the bias `b` broadcast along the rows and zero everywhere. -/
abbrev biasRelu (A : FVec Ideal S100000x128 .f32) (b : FVec Ideal S128 .f32) : FVec Ideal S100000x128 .f32 :=
  maximumf (addf A
      (broadcastInDim Cert.ReferenceIdeal.S100000x128 ![0, 1] Cert.ReferenceIdeal.Facts₀.bcast_S1x128_S100000x128_0_1
        (broadcastInDim Cert.ReferenceIdeal.S1x128 ![1] Cert.ReferenceIdeal.Facts₀.bcast_S128_S1x128_1 b)))
    (broadcastInDim Cert.ReferenceIdeal.S100000x128 ![] Cert.ReferenceIdeal.Facts₀.bcast_S_S100000x128 (constant (F := Ideal) S_ .f32 0x00000000#32))

/-- THE WHOLE-ARRAY FUNCTION AT ONE ELEMENT: at row `r`, column `q` it is `max (A (r, q) + b q, 0)`: the bias goes
    [128] → [1,128] → [100000,128], each broadcast reading its operand at the column, and the zero is the same
    word everywhere. -/
theorem biasRelu_apply (A : FVec Ideal S100000x128 .f32) (b : FVec Ideal S128 .f32) (r : Fin 100000) (q : Fin 128) :
    biasRelu A b (ix2 r q) = max (A (ix2 r q) + b (ix1 q)) (Ideal.ofBits .f32 0x00000000#32) := by
  have bias_at : broadcastInDim Cert.ReferenceIdeal.S100000x128 ![0, 1] Cert.ReferenceIdeal.Facts₀.bcast_S1x128_S100000x128_0_1
      (broadcastInDim Cert.ReferenceIdeal.S1x128 ![1] Cert.ReferenceIdeal.Facts₀.bcast_S128_S1x128_1 b) (ix2 r q) = b (ix1 q) := by
    refine (broadcastInDim_apply _ _ _ (ix2 r q) (ix2 (0 : Fin 1) q) fun a => ?_).trans ?_
    · match a with
      | ⟨0, _⟩ => rfl
      | ⟨1, _⟩ => rfl
    · refine broadcastInDim_apply _ _ _ (ix2 (0 : Fin 1) q) (ix1 q) fun a => ?_
      match a with
      | ⟨0, _⟩ => rfl
  show max (A (ix2 r q) + _) _ = _
  rw [bias_at]
  rfl

/-- The index maps over the grid: at point `t` the input rows and the output rows are block `t` along the rows and
    block 0 along the columns; the bias row is block (0, 0) at every point. -/
theorem block_indices : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- The input block at point `t` is rows `5000 t … 5000 t + 4999` of the input array: element `x` of the block is
    the array's element `k` whenever `k` is `x` moved down by `5000 t` rows. -/
theorem rows_block_apply (V : Entry) (c : Dev nD) (t : Fin cfg3.N) (x : S5000x128.Idx) (k : S100000x128.Idx)
    (hk0 : (k 0).val = 5000 * t.val + (x 0).val) (hk1 : (k 1).val = (x 1).val) :
    (iblk3 V c 0 t : FVec Ideal S5000x128 .f32) x = (V c main_v60 : FVec Ideal S100000x128 .f32) k := by
  obtain ⟨e0, e1, -⟩ := block_indices t
  unfold iblk3
  rw [View.read_apply]
  show V c main_v60 _ = V c main_v60 _
  congr 1
  funext a
  apply Fin.ext
  match a with
  | ⟨0, _⟩ => show win3_0.index t 0 * 5000 + 1 * (x 0).val = (k 0).val; rw [e0, hk0]; omega
  | ⟨1, _⟩ => show win3_0.index t 1 * 128 + 1 * (x 1).val = (k 1).val; rw [e1, hk1]; omega

/-- The bias block at every point is the whole [1,128] bias array. -/
theorem bias_block_apply (V : Entry) (c : Dev nD) (t : Fin cfg3.N) (x : S1x128.Idx) :
    (iblk3 V c 1 t : FVec Ideal S1x128 .f32) x = (V c main_v61 : FVec Ideal S1x128 .f32) x := by
  obtain ⟨-, -, e0, e1, -⟩ := block_indices t
  unfold iblk3
  rw [View.read_apply]
  show V c main_v61 _ = V c main_v61 _
  congr 1
  funext a
  apply Fin.ext
  match a with
  | ⟨0, _⟩ => show win3_1.index t 0 * 1 + 1 * (x 0).val = (x 0).val; rw [e0]; omega
  | ⟨1, _⟩ => show win3_1.index t 1 * 128 + 1 * (x 1).val = (x 1).val; rw [e1]; omega

/-- ONE ELEMENT OF ONE POINT'S BLOCK: the payload of point `t`'s two input blocks at block element `j` is the
    whole-array function at the array element `k` that `j` is in block `t` (`5000 t` rows further down, same
    column): both are `max (A k + b (column), 0)`, the bias array being the [128] row `b` with a unit axis in front. -/
theorem relu_block_point (V : Entry) (c : Dev nD) (b : FVec Ideal S128 .f32)
    (hb : V c main_v61 = shapeCast S1x128 b shapeCasts_S128_S1x128) (t : Fin cfg3.N)
    (j : S5000x128.Idx) (k : S100000x128.Idx)
    (hk0 : (k 0).val = 5000 * t.val + (j 0).val) (hk1 : (k 1).val = (j 1).val) :
    k3_pay1 (iblk3 V c 0 t) (iblk3 V c 1 t) j = biasRelu (V c main_v60) b k := by
  obtain ⟨p, q, rfl⟩ : ∃ (p : Fin 5000) (q : Fin 128), j = ix2 p q := ⟨j 0, j 1, eq_ix2 j⟩
  obtain ⟨r, q', rfl⟩ : ∃ (r : Fin 100000) (q' : Fin 128), k = ix2 r q' := ⟨k 0, k 1, eq_ix2 k⟩
  obtain rfl : q' = q := Fin.ext hk1
  refine (relu_block_apply (iblk3 V c 0 t) (iblk3 V c 1 t) p q').trans ?_
  refine Eq.trans ?_ (biasRelu_apply (V c main_v60) b r q').symm
  have rows_at : (iblk3 V c 0 t : FVec Ideal S5000x128 .f32) (ix2 p q') = (V c main_v60 : FVec Ideal S100000x128 .f32) (ix2 r q') :=
    rows_block_apply V c t (ix2 p q') (ix2 r q') hk0 rfl
  have bias_at : (iblk3 V c 1 t : FVec Ideal S1x128 .f32) (ix2 0 q') = b (ix1 q') := by
    refine (bias_block_apply V c t (ix2 0 q')).trans ?_
    rw [hb]
    exact shapeCast_a_1a_apply b shapeCasts_S128_S1x128 0 q'
  rw [rows_at, bias_at]

/-- WHAT POINT `t` WRITES BACK is block `t` of the whole-array function of the arrays as the region finds them. -/
theorem flushed_eq (V : Entry) (c : Dev nD) (b : FVec Ideal S128 .f32)
    (hb : V c main_v61 = shapeCast S1x128 b shapeCasts_S128_S1x128) (t : Fin cfg3.N) :
    (dat3 V c).flushed 2 t = ((cfg3.win 2).blk t).view.read (Elt Ideal) (biasRelu (V c main_v60) b) := by
  show (cfg3.win 2).cut (grid3.coords t) ((dat3 V c).after 2 t) = _
  rw [after3_2]
  unfold out3_2
  rw [View.canon_unit_zero origin]
  simp only [View.ld_unit_zero (S := S5000x128) origin, View.ld_unit_zero (S := S1x128) origin]
  obtain ⟨-, -, -, -, e0, e1⟩ := block_indices t
  funext j
  show k3_pay1 (iblk3 V c 0 t) (iblk3 V c 1 t) j = biasRelu (V c main_v60) b (((cfg3.win 2).blk t).view.emb j)
  refine relu_block_point V c b hb t j _ ?_ ?_
  · show win3_2.index t (0 : Fin 2) * 5000 + 1 * (j 0).val = 5000 * t.val + (j 0).val
    rw [e0]; omega
  · show win3_2.index t (1 : Fin 2) * 128 + 1 * (j 1).val = (j 1).val
    rw [e1]; omega

/-- An element of the output array is in point `t`'s block iff each coordinate is in the block's range on its axis. -/
theorem mem_blk (t : Fin cfg3.N) (i : S100000x128.Idx) :
    i ∈ ((cfg3.win 2).blk t).view.set ↔ ∀ a : Fin 2, win3_2.index t a * S5000x128.size a ≤ (i a).val ∧ (i a).val < win3_2.index t a * S5000x128.size a + S5000x128.size a := by
  show i ∈ ((View.whole main_v62).slice (win3_2.rect t)).set ↔ _
  rw [View.set_slice_whole, Rect.mem_set_unit]
  exact Iff.rfl

/-- THE 20 BLOCKS COVER THE ARRAY: row `r` is in the block of point `r / 5000`, which is written back. -/
theorem cover (i : S100000x128.Idx) :
    ∃ t : Fin cfg3.N, (cfg3.win 2).flush t = true ∧ i ∈ ((cfg3.win 2).blk t).view.set := by
  have hi0 : (i 0).val < 100000 := (i 0).isLt
  have hi1 : (i 1).val < 128 := (i 1).isLt
  have hN : cfg3.N = 20 := N_3
  let t : Fin cfg3.N := ⟨(i 0).val / 5000, by rw [hN]; omega⟩
  obtain ⟨-, -, -, -, e0, e1⟩ := block_indices t
  refine ⟨t, flush3_2 t, ?_⟩
  rw [mem_blk]
  intro a
  match a with
  | ⟨0, _⟩ => show win3_2.index t (0 : Fin 2) * 5000 ≤ (i 0).val ∧ (i 0).val < win3_2.index t (0 : Fin 2) * 5000 + 5000
              rw [e0]; show (i 0).val / 5000 * 5000 ≤ (i 0).val ∧ (i 0).val < (i 0).val / 5000 * 5000 + 5000; omega
  | ⟨1, _⟩ => show win3_2.index t (1 : Fin 2) * 128 ≤ (i 1).val ∧ (i 1).val < win3_2.index t (1 : Fin 2) * 128 + 128
              rw [e1]; omega

/-- THE ARRAY AFTER THE REGION: every element is in some written-back block, and every block is the whole-array
    function's, so the array ends holding `max (A + b, 0)`. -/
theorem final (V : Entry) (c : Dev nD) (b : FVec Ideal S128 .f32)
    (hb : V c main_v61 = shapeCast S1x128 b shapeCasts_S128_S1x128) :
    (dat3 V c).arrAt 2 cfg3.N
      = maximumf (addf (V c main_v60)
          (broadcastInDim Cert.ReferenceIdeal.S100000x128 ![0, 1] Cert.ReferenceIdeal.Facts₀.bcast_S1x128_S100000x128_0_1
            (broadcastInDim Cert.ReferenceIdeal.S1x128 ![1] Cert.ReferenceIdeal.Facts₀.bcast_S128_S1x128_1 b)))
          (broadcastInDim Cert.ReferenceIdeal.S100000x128 ![] Cert.ReferenceIdeal.Facts₀.bcast_S_S100000x128 (constant (F := Ideal) S_ .f32 0x00000000#32)) :=
  (dat3 V c).arrAt_eq_of_cover 2 (biasRelu (V c main_v60) b) (fun t _ => flushed_eq V c b hb t) cover

end Cert.KernelIdeal.Act3

end
-- ==== Proof.Act5.lean ====
/-
  Activation region 5: twenty grid points, point `t` taking rows `5000 t … 5000 t + 4999` of the third aggregate, adding the bias row
  `b3` (a `[1, 128]` row, broadcast down the block) and writing the block back at the same rows of
  the result. At an index `(r, q)` that is `A (r, q) + b q`, which is what the reference's two broadcasts, its sum
  give at that index; the twenty blocks tile the array.
-/
import proofs.«423662_j14370960573165_1_alg».proof.Proof.Gen.KernelIdeal.Frame
import proofs.«423662_j14370960573165_1_alg».proof.Proof.Gen.ReferenceIdeal
import Idealize.ShloMosaic.Lib.Pipeline.Value
import Idealize.ShloMosaic.Lib.ValueIdx
import Idealize.ShloMosaic.Lib.ValueLayout
import Idealize.ShloMosaic.PureOps.Ideal.Laws

noncomputable section

open Idealize.ShloMosaic Idealize.ShloMosaic.TcCoe Idealize.SL.Sem
open Idealize.ShloMosaic.Pipeline (Dat)

namespace Cert.KernelIdeal.Act5

open Cert.KernelIdeal Cert.KernelIdeal.Gen
open Idealize.ShloMosaic.ValueIdx

/-- The TensorCore's buffer contents when a region is entered. -/
abbrev Entry := (c : Dev nD) → (b : Ref sig .tc) → Buf (Elt Ideal) ((c : Thread nD τ).loc b)

/-! ## The last layer's bias: `x + b` of a [100000,128] array and a [128] bias row

The region walks the array in 20 blocks of 5000 rows. At each block it adds the one bias row to every row of the
block. Below: the block's payload at one element, the whole-array function at one
element, each input block as rows of its array, what one point writes back, the cover of the array by the 20
blocks, and the array after the run. -/

/-- Both accesses of the body start at the origin of their buffers. -/
theorem origin : (![0, 0] : Fin 2 → Nat) = fun _ => 0 := funext fun a => by fin_cases a <;> rfl

/-- THE PAYLOAD AT ONE ELEMENT: row `p`, column `q` of the stored block is the sum of the input block's
    element there and the bias row's element at column `q` (the two casts keep their shapes; the [1,128] row
    broadcast over 5000 rows reads its one row). -/
theorem add_block_apply (x0 : FVec Ideal S5000x128 .f32) (x1 : FVec Ideal S1x128 .f32) (p : Fin 5000) (q : Fin 128) :
    k5_pay1 x0 x1 (ix2 p q) = x0 (ix2 p q) + x1 (ix2 0 q) := by
  unfold k5_pay1
  rw [shapeCast_self, shapeCast_self]
  exact congrArg (fun z => x0 (ix2 p q) + z)
    (broadcastTo_1b_ab_apply x1 broadcasts_S1x128_S5000x128 p q)

/-- The whole-array function: `A + b` with the bias `b` broadcast along the rows. -/
abbrev biasAdd (A : FVec Ideal S100000x128 .f32) (b : FVec Ideal S128 .f32) : FVec Ideal S100000x128 .f32 :=
  addf A
    (broadcastInDim Cert.ReferenceIdeal.S100000x128 ![0, 1] Cert.ReferenceIdeal.Facts₀.bcast_S1x128_S100000x128_0_1
      (broadcastInDim Cert.ReferenceIdeal.S1x128 ![1] Cert.ReferenceIdeal.Facts₀.bcast_S128_S1x128_1 b))

/-- THE WHOLE-ARRAY FUNCTION AT ONE ELEMENT: at row `r`, column `q` it is `A (r, q) + b q`: the bias goes
    [128] → [1,128] → [100000,128], each broadcast reading its operand at the column. -/
theorem biasAdd_apply (A : FVec Ideal S100000x128 .f32) (b : FVec Ideal S128 .f32) (r : Fin 100000) (q : Fin 128) :
    biasAdd A b (ix2 r q) = A (ix2 r q) + b (ix1 q) := by
  have bias_at : broadcastInDim Cert.ReferenceIdeal.S100000x128 ![0, 1] Cert.ReferenceIdeal.Facts₀.bcast_S1x128_S100000x128_0_1
      (broadcastInDim Cert.ReferenceIdeal.S1x128 ![1] Cert.ReferenceIdeal.Facts₀.bcast_S128_S1x128_1 b) (ix2 r q) = b (ix1 q) := by
    refine (broadcastInDim_apply _ _ _ (ix2 r q) (ix2 (0 : Fin 1) q) fun a => ?_).trans ?_
    · match a with
      | ⟨0, _⟩ => rfl
      | ⟨1, _⟩ => rfl
    · refine broadcastInDim_apply _ _ _ (ix2 (0 : Fin 1) q) (ix1 q) fun a => ?_
      match a with
      | ⟨0, _⟩ => rfl
  show A (ix2 r q) + _ = _
  rw [bias_at]

/-- The index maps over the grid: at point `t` the input rows and the output rows are block `t` along the rows and
    block 0 along the columns; the bias row is block (0, 0) at every point. -/
theorem block_indices : ∀ t : Fin cfg5.N, win5_0.index t (0 : Fin 2) = t.val ∧ win5_0.index t (1 : Fin 2) = 0
    ∧ win5_1.index t (0 : Fin 2) = 0 ∧ win5_1.index t (1 : Fin 2) = 0
    ∧ win5_2.index t (0 : Fin 2) = t.val ∧ win5_2.index t (1 : Fin 2) = 0 :=
  (by decide +kernel : ∀ t : Fin grid5.N, _)

/-- The input block at point `t` is rows `5000 t … 5000 t + 4999` of the input array: element `x` of the block is
    the array's element `k` whenever `k` is `x` moved down by `5000 t` rows. -/
theorem rows_block_apply (V : Entry) (c : Dev nD) (t : Fin cfg5.N) (x : S5000x128.Idx) (k : S100000x128.Idx)
    (hk0 : (k 0).val = 5000 * t.val + (x 0).val) (hk1 : (k 1).val = (x 1).val) :
    (iblk5 V c 0 t : FVec Ideal S5000x128 .f32) x = (V c main_v76 : FVec Ideal S100000x128 .f32) k := by
  obtain ⟨e0, e1, -⟩ := block_indices t
  unfold iblk5
  rw [View.read_apply]
  show V c main_v76 _ = V c main_v76 _
  congr 1
  funext a
  apply Fin.ext
  match a with
  | ⟨0, _⟩ => show win5_0.index t 0 * 5000 + 1 * (x 0).val = (k 0).val; rw [e0, hk0]; omega
  | ⟨1, _⟩ => show win5_0.index t 1 * 128 + 1 * (x 1).val = (k 1).val; rw [e1, hk1]; omega

/-- The bias block at every point is the whole [1,128] bias array. -/
theorem bias_block_apply (V : Entry) (c : Dev nD) (t : Fin cfg5.N) (x : S1x128.Idx) :
    (iblk5 V c 1 t : FVec Ideal S1x128 .f32) x = (V c main_v77 : FVec Ideal S1x128 .f32) x := by
  obtain ⟨-, -, e0, e1, -⟩ := block_indices t
  unfold iblk5
  rw [View.read_apply]
  show V c main_v77 _ = V c main_v77 _
  congr 1
  funext a
  apply Fin.ext
  match a with
  | ⟨0, _⟩ => show win5_1.index t 0 * 1 + 1 * (x 0).val = (x 0).val; rw [e0]; omega
  | ⟨1, _⟩ => show win5_1.index t 1 * 128 + 1 * (x 1).val = (x 1).val; rw [e1]; omega

/-- ONE ELEMENT OF ONE POINT'S BLOCK: the payload of point `t`'s two input blocks at block element `j` is the
    whole-array function at the array element `k` that `j` is in block `t` (`5000 t` rows further down, same
    column): both are `A k + b (column)`, the bias array being the [128] row `b` with a unit axis in front. -/
theorem add_block_point (V : Entry) (c : Dev nD) (b : FVec Ideal S128 .f32)
    (hb : V c main_v77 = shapeCast S1x128 b shapeCasts_S128_S1x128) (t : Fin cfg5.N)
    (j : S5000x128.Idx) (k : S100000x128.Idx)
    (hk0 : (k 0).val = 5000 * t.val + (j 0).val) (hk1 : (k 1).val = (j 1).val) :
    k5_pay1 (iblk5 V c 0 t) (iblk5 V c 1 t) j = biasAdd (V c main_v76) b k := by
  obtain ⟨p, q, rfl⟩ : ∃ (p : Fin 5000) (q : Fin 128), j = ix2 p q := ⟨j 0, j 1, eq_ix2 j⟩
  obtain ⟨r, q', rfl⟩ : ∃ (r : Fin 100000) (q' : Fin 128), k = ix2 r q' := ⟨k 0, k 1, eq_ix2 k⟩
  obtain rfl : q' = q := Fin.ext hk1
  refine (add_block_apply (iblk5 V c 0 t) (iblk5 V c 1 t) p q').trans ?_
  refine Eq.trans ?_ (biasAdd_apply (V c main_v76) b r q').symm
  have rows_at : (iblk5 V c 0 t : FVec Ideal S5000x128 .f32) (ix2 p q') = (V c main_v76 : FVec Ideal S100000x128 .f32) (ix2 r q') :=
    rows_block_apply V c t (ix2 p q') (ix2 r q') hk0 rfl
  have bias_at : (iblk5 V c 1 t : FVec Ideal S1x128 .f32) (ix2 0 q') = b (ix1 q') := by
    refine (bias_block_apply V c t (ix2 0 q')).trans ?_
    rw [hb]
    exact shapeCast_a_1a_apply b shapeCasts_S128_S1x128 0 q'
  rw [rows_at, bias_at]

/-- WHAT POINT `t` WRITES BACK is block `t` of the whole-array function of the arrays as the region finds them. -/
theorem flushed_eq (V : Entry) (c : Dev nD) (b : FVec Ideal S128 .f32)
    (hb : V c main_v77 = shapeCast S1x128 b shapeCasts_S128_S1x128) (t : Fin cfg5.N) :
    (dat5 V c).flushed 2 t = ((cfg5.win 2).blk t).view.read (Elt Ideal) (biasAdd (V c main_v76) b) := by
  show (cfg5.win 2).cut (grid5.coords t) ((dat5 V c).after 2 t) = _
  rw [after5_2]
  unfold out5_2
  rw [View.canon_unit_zero origin]
  simp only [View.ld_unit_zero (S := S5000x128) origin, View.ld_unit_zero (S := S1x128) origin]
  obtain ⟨-, -, -, -, e0, e1⟩ := block_indices t
  funext j
  show k5_pay1 (iblk5 V c 0 t) (iblk5 V c 1 t) j = biasAdd (V c main_v76) b (((cfg5.win 2).blk t).view.emb j)
  refine add_block_point V c b hb t j _ ?_ ?_
  · show win5_2.index t (0 : Fin 2) * 5000 + 1 * (j 0).val = 5000 * t.val + (j 0).val
    rw [e0]; omega
  · show win5_2.index t (1 : Fin 2) * 128 + 1 * (j 1).val = (j 1).val
    rw [e1]; omega

/-- An element of the output array is in point `t`'s block iff each coordinate is in the block's range on its axis. -/
theorem mem_blk (t : Fin cfg5.N) (i : S100000x128.Idx) :
    i ∈ ((cfg5.win 2).blk t).view.set ↔ ∀ a : Fin 2, win5_2.index t a * S5000x128.size a ≤ (i a).val ∧ (i a).val < win5_2.index t a * S5000x128.size a + S5000x128.size a := by
  show i ∈ ((View.whole main_v78).slice (win5_2.rect t)).set ↔ _
  rw [View.set_slice_whole, Rect.mem_set_unit]
  exact Iff.rfl

/-- THE 20 BLOCKS COVER THE ARRAY: row `r` is in the block of point `r / 5000`, which is written back. -/
theorem cover (i : S100000x128.Idx) :
    ∃ t : Fin cfg5.N, (cfg5.win 2).flush t = true ∧ i ∈ ((cfg5.win 2).blk t).view.set := by
  have hi0 : (i 0).val < 100000 := (i 0).isLt
  have hi1 : (i 1).val < 128 := (i 1).isLt
  have hN : cfg5.N = 20 := N_5
  let t : Fin cfg5.N := ⟨(i 0).val / 5000, by rw [hN]; omega⟩
  obtain ⟨-, -, -, -, e0, e1⟩ := block_indices t
  refine ⟨t, flush5_2 t, ?_⟩
  rw [mem_blk]
  intro a
  match a with
  | ⟨0, _⟩ => show win5_2.index t (0 : Fin 2) * 5000 ≤ (i 0).val ∧ (i 0).val < win5_2.index t (0 : Fin 2) * 5000 + 5000
              rw [e0]; show (i 0).val / 5000 * 5000 ≤ (i 0).val ∧ (i 0).val < (i 0).val / 5000 * 5000 + 5000; omega
  | ⟨1, _⟩ => show win5_2.index t (1 : Fin 2) * 128 ≤ (i 1).val ∧ (i 1).val < win5_2.index t (1 : Fin 2) * 128 + 128
              rw [e1]; omega

/-- THE ARRAY AFTER THE REGION: every element is in some written-back block, and every block is the whole-array
    function's, so the array ends holding `A + b`. -/
theorem final (V : Entry) (c : Dev nD) (b : FVec Ideal S128 .f32)
    (hb : V c main_v77 = shapeCast S1x128 b shapeCasts_S128_S1x128) :
    (dat5 V c).arrAt 2 cfg5.N
      = addf (V c main_v76)
          (broadcastInDim Cert.ReferenceIdeal.S100000x128 ![0, 1] Cert.ReferenceIdeal.Facts₀.bcast_S1x128_S100000x128_0_1
            (broadcastInDim Cert.ReferenceIdeal.S1x128 ![1] Cert.ReferenceIdeal.Facts₀.bcast_S128_S1x128_1 b)) :=
  (dat5 V c).arrAt_eq_of_cover 2 (biasAdd (V c main_v76) b) (fun t _ => flushed_eq V c b hb t) cover

end Cert.KernelIdeal.Act5

end
-- ==== Proof.LibIndex.lean ====
/-
  Row gathers and row scatters read at an index.

  `x[idx]` along the leading axis of a two-axis array lowers to a gather whose start indices are a column `[E, 1]`:
  result row `e` is operand row `idx[e, 0]`, the index read as a signed integer and clamped into `[0, N - 1]`. The same
  holds for a one-axis operand. A scatter of rows along the leading axis sends update row `e` to operand row `idx[e, 0]`,
  read signed and NOT clamped: an update whose row is outside the operand is dropped.
-/
import Idealize.ShloMosaic.PureOps.ShapeOps
import Idealize.ShloMosaic.Lib.ValueIdx

namespace Cert.Gcn

open Idealize.ShloMosaic Idealize.ShloMosaic.ValueIdx

/-- A signed 32-bit word clamped into `[0, N - 1]`, as a row number. -/
def crow (N : Nat) (hN : 0 < N) (v : BitVec 32) : Fin N := ⟨min v.toInt.toNat (N - 1), by omega⟩

/-- A word already in `[0, N)` is its own clamp. -/
theorem crow_val_of_range {N : Nat} (hN : 0 < N) (v : BitVec 32) (h0 : 0 ≤ v.toInt) (h1 : v.toInt < N) :
    ((crow N hN v).val : Int) = v.toInt := by
  show ((min v.toInt.toNat (N - 1) : Nat) : Int) = v.toInt
  omega

/-- The dimension numbers of a row gather: operand `[N, D]`, start indices `[E, 1]`, result `[E, D]`. -/
abbrev rowGatherDims (N E D : Nat)
    (wf : GatherDims.WF ⟨2, ![N, D]⟩ ⟨2, ![E, 1]⟩ ⟨2, ![E, D]⟩ [1] [0] [] [0] [] 1 ![1, D]) :
    GatherDims ⟨2, ![N, D]⟩ ⟨2, ![E, 1]⟩ ⟨2, ![E, D]⟩ where
  offsetDims := [1]
  collapsedSliceDims := [0]
  operandBatchingDims := []
  startIndicesBatchingDims := []
  startIndexMap := [0]
  indexVectorDim := 1
  sliceSizes := ![1, D]
  wf := wf

/-- A row gather at `(e, c)` is the operand at row `clamp idx[e, 0]`, column `c`. -/
theorem gatherRows_apply {α : Type} {N E D : Nat} (hN : 0 < N)
    (wf : GatherDims.WF ⟨2, ![N, D]⟩ ⟨2, ![E, 1]⟩ ⟨2, ![E, D]⟩ [1] [0] [] [0] [] 1 ![1, D])
    (x : (⟨2, ![N, D]⟩ : Shape).Idx → α) (idx : IVec ⟨2, ![E, 1]⟩ 32) (j : (⟨2, ![E, D]⟩ : Shape).Idx) :
    Host.gather (rowGatherDims N E D wf) x idx j = x (ix2 (crow N hN (idx (ix2 (j 0) 0))) (j 1)) := by
  unfold Host.gather
  congr 1
  funext a
  refine Fin.ext ?_
  match a with
  | ⟨0, _⟩ =>
    -- axis 0 is collapsed and named by the start index map: only the clamped start index, read at `[e, 0]`
    show (rowGatherDims N E D wf).start j idx 0 + (rowGatherDims N E D wf).batchCoord j 0
      + (rowGatherDims N E D wf).offCoord j 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims N E D wf).startIndexMap from List.mem_singleton.mpr rfl)]
    have hsi : (rowGatherDims N E D wf).siIdx j ⟨List.idxOf (0 : Fin 2) (rowGatherDims N E D wf).startIndexMap,
        List.idxOf_lt_length_iff.2 (List.mem_singleton.mpr rfl)⟩ = ix2 (j 0) 0 := by
      funext b; refine Fin.ext ?_
      match b with
      | ⟨0, _⟩ => rfl
      | ⟨1, _⟩ => rfl
    rw [hsi]
    rfl
  | ⟨1, _⟩ =>
    -- axis 1 is the one kept axis and no start index names it: start zero, offset the result's column
    show (rowGatherDims N E D wf).start j idx 1 + (rowGatherDims N E D wf).batchCoord j 1
      + (rowGatherDims N E D wf).offCoord j 1 = (j 1).val
    rw [GatherDims.batchCoord_eq_zero _ _ _ List.not_mem_nil]
    unfold GatherDims.start
    rw [dif_neg (show ¬ (1 : Fin 2) ∈ (rowGatherDims N E D wf).startIndexMap from
      (show ¬ (1 : Fin 2) ∈ ([0] : List (Fin 2)) by decide))]
    unfold GatherDims.offCoord
    rw [dif_pos (show (1 : Fin 2) ∈ (rowGatherDims N E D wf).sKept from
      (GatherDims.mem_sKept _ _).mpr ⟨(show ¬ (1 : Fin 2) ∈ ([0] : List (Fin 2)) by decide), List.not_mem_nil⟩)]
    simp only [Nat.zero_add, Nat.add_zero]
    rfl

/-- The dimension numbers of an element gather: operand `[N]`, start indices `[E, 1]`, result `[E]`. -/
abbrev vecGatherDims (N E : Nat)
    (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- An element gather at `e` is the operand at `clamp idx[e, 0]`. -/
theorem gatherVec_apply {α : Type} {N E : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ 32) (e : (⟨1, ![E]⟩ : Shape).Idx) :
    Host.gather (vecGatherDims N E wf) x idx e = x (ix1 (crow N hN (idx (ix2 (e 0) 0)))) := by
  unfold Host.gather
  congr 1
  funext a
  obtain rfl : a = 0 := Subsingleton.elim _ _
  refine Fin.ext ?_
  -- the one operand axis is collapsed: no batching coordinate, no offset coordinate, only the clamped start
  show (vecGatherDims N E wf).start e idx 0 + (vecGatherDims N E wf).batchCoord e 0
    + (vecGatherDims N E wf).offCoord e 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecGatherDims N E wf).startIndexMap from List.mem_singleton.mpr rfl)]
  -- the start index is read at `[e, 0]`
  have hsi : (vecGatherDims N E wf).siIdx e ⟨List.idxOf (0 : Fin 1) (vecGatherDims N E wf).startIndexMap,
      List.idxOf_lt_length_iff.2 (List.mem_singleton.mpr rfl)⟩ = ix2 (e 0) 0 := by
    funext b; refine Fin.ext ?_
    match b with
    | ⟨0, _⟩ => rfl
    | ⟨1, _⟩ => rfl
  rw [hsi]
  rfl

/-- The dimension numbers of a row scatter: operand `[N, D]`, scatter indices `[E, 1]`, updates `[E, D]`. -/
abbrev rowScatterDims (N E D : Nat)
    (wf : ScatterDims.WF ⟨2, ![N, D]⟩ ⟨2, ![E, 1]⟩ ⟨2, ![E, D]⟩ [1] [0] [0] 1) :
    ScatterDims ⟨2, ![N, D]⟩ ⟨2, ![E, 1]⟩ ⟨2, ![E, D]⟩ where
  updateWindowDims := [1]
  insertedWindowDims := [0]
  scatterDimsToOperandDims := [0]
  indexVectorDim := 1
  wf := wf

/-- An update `(e, c)` that lands at `(n, c')` has `idx[e, 0] = n` as a signed integer and `c = c'`. -/
theorem scatterRows_resultIdx {N E D : Nat}
    (wf : ScatterDims.WF ⟨2, ![N, D]⟩ ⟨2, ![E, 1]⟩ ⟨2, ![E, D]⟩ [1] [0] [0] 1)
    (idx : IVec ⟨2, ![E, 1]⟩ 32) (j : (⟨2, ![E, D]⟩ : Shape).Idx) (i : (⟨2, ![N, D]⟩ : Shape).Idx)
    (h : (rowScatterDims N E D wf).resultIdx? j idx = some i) :
    (idx (ix2 (j 0) 0)).toInt = ((i 0).val : Int) ∧ (j 1).val = (i 1).val := by
  unfold ScatterDims.resultIdx? at h
  split at h
  · rename_i hr
    have hf := Option.some.inj h
    have h0 : ((rowScatterDims N E D wf).start j idx 0 + ((rowScatterDims N E D wf).window j 0 : Nat)).toNat
        = (i 0).val := congrArg Fin.val (congrFun hf 0)
    have h1 : ((rowScatterDims N E D wf).start j idx 1 + ((rowScatterDims N E D wf).window j 1 : Nat)).toNat
        = (i 1).val := congrArg Fin.val (congrFun hf 1)
    have hr0 := hr 0
    have hr1 := hr 1
    -- axis 0 is named by the map and inserted: the start is the signed index, the window coordinate is zero
    have hs0 : (rowScatterDims N E D wf).start j idx 0 = (idx (ix2 (j 0) 0)).toInt := by
      unfold ScatterDims.start
      rw [dif_pos (show (0 : Fin 2) ∈ (rowScatterDims N E D wf).scatterDimsToOperandDims from
        List.mem_singleton.mpr rfl)]
      have hsi : (rowScatterDims N E D wf).siIdx j
          ⟨List.idxOf (0 : Fin 2) (rowScatterDims N E D wf).scatterDimsToOperandDims,
            List.idxOf_lt_length_iff.2 (List.mem_singleton.mpr rfl)⟩ = ix2 (j 0) 0 := by
        funext b; refine Fin.ext ?_
        match b with
        | ⟨0, _⟩ => rfl
        | ⟨1, _⟩ => rfl
      rw [hsi]
      rfl
    have hw0 : (rowScatterDims N E D wf).window j 0 = 0 := by
      unfold ScatterDims.window
      rw [dif_neg (show ¬ (0 : Fin 2) ∈ (rowScatterDims N E D wf).sKept from
        (show ¬ (0 : Fin 2) ∈ (List.finRange 2).filter (fun a => a ∉ ([0] : List (Fin 2))) by decide))]
    -- axis 1 is not named by the map and is the one window axis: the start is zero, the window coordinate is the update's column
    have hs1 : (rowScatterDims N E D wf).start j idx 1 = 0 := by
      unfold ScatterDims.start
      rw [dif_neg (show ¬ (1 : Fin 2) ∈ (rowScatterDims N E D wf).scatterDimsToOperandDims from
        (show ¬ (1 : Fin 2) ∈ ([0] : List (Fin 2)) by decide))]
    have hw1 : (rowScatterDims N E D wf).window j 1 = (j 1).val := by
      unfold ScatterDims.window
      rw [dif_pos (show (1 : Fin 2) ∈ (rowScatterDims N E D wf).sKept from
        (show (1 : Fin 2) ∈ (List.finRange 2).filter (fun a => a ∉ ([0] : List (Fin 2))) by decide))]
      rfl
    rw [hs0, hw0] at h0 hr0
    rw [hs1, hw1] at h1 hr1
    simp only [Nat.cast_zero, Int.add_zero, Int.zero_add, Int.toNat_natCast] at h0 h1 hr0
    refine ⟨?_, h1⟩
    omega
  · exact absurd h (by simp)

end Cert.Gcn
-- ==== Proof.PoolMath.lean ====
/-
  The one-hot pooling identity.

  A scatter-add of the rows of a `[100000, 128]` array `H` into a `[64, 128]` array, row `n` going to row `B n` (read as a
  signed integer, rows outside `[0, 64)` dropped), is at `(g, f)` the start value plus the sum, over the rows `n` with
  `B n = g`, of `H (n, f)`. Cut into twenty tiles of five thousand rows, and with the membership test written as a factor
  `1` or `0`, the same sum is the sum over the tiles of the tile's one-hot product: on the extended reals `0 * x = 0` and
  `1 * x = x` for every `x`, infinite ones included, and a finite sum may be regrouped freely.
-/
import proofs.«423662_j14370960573165_1_alg».proof.Proof.LibIndex
import Idealize.ShloMosaic.PureOps.Ideal
import Idealize.ShloMosaic.PureOps.Ideal.Laws
import Idealize.ShloMosaic.Lib.ValueIdx

noncomputable section

namespace Cert.Gcn

open Idealize.ShloMosaic Idealize.ShloMosaic.ValueIdx

/-- Row `5000 * s + k` of the node axis: row `k` of tile `s` (`s` taken modulo twenty, so that the function is total). -/
def row (s : Nat) (k : Fin 5000) : Fin 100000 :=
  ⟨5000 * (s % 20) + k.val, by have := k.isLt; have := Nat.mod_lt s (by decide : 0 < 20); omega⟩

/-- Tile `s`'s one-hot product at `(g, f)`: the sum over the tile's rows of `[B row = g] * H (row, f)`. -/
def tile (B : IVec ⟨1, ![100000]⟩ 32) (H : (⟨2, ![100000, 128]⟩ : Shape).Idx → EReal) (s : Nat)
    (i : (⟨2, ![64, 128]⟩ : Shape).Idx) : EReal :=
  ∑ k : Fin 5000, (if B (ix1 (row s k)) = BitVec.ofNat 32 (i 0).val then (1 : EReal) else 0) * H (ix2 (row s k) (i 1))

/-- Conversely, an update `(e, c)` whose signed index `idx[e, 0]` is the row number of `(n, c')` and whose column is `c'`
    lands at `(n, c')`. -/
theorem scatterRows_lands {N E D : Nat}
    (wf : ScatterDims.WF ⟨2, ![N, D]⟩ ⟨2, ![E, 1]⟩ ⟨2, ![E, D]⟩ [1] [0] [0] 1)
    (idx : IVec ⟨2, ![E, 1]⟩ 32) (j : (⟨2, ![E, D]⟩ : Shape).Idx) (i : (⟨2, ![N, D]⟩ : Shape).Idx)
    (h0 : (idx (ix2 (j 0) 0)).toInt = ((i 0).val : Int)) (h1 : (j 1).val = (i 1).val) :
    (rowScatterDims N E D wf).resultIdx? j idx = some i := by
  -- axis 0 is named by the map and inserted: the start is the signed index, the window coordinate is zero
  have hs0 : (rowScatterDims N E D wf).start j idx 0 = (idx (ix2 (j 0) 0)).toInt := by
    unfold ScatterDims.start
    rw [dif_pos (show (0 : Fin 2) ∈ (rowScatterDims N E D wf).scatterDimsToOperandDims from
      List.mem_singleton.mpr rfl)]
    have hsi : (rowScatterDims N E D wf).siIdx j
        ⟨List.idxOf (0 : Fin 2) (rowScatterDims N E D wf).scatterDimsToOperandDims,
          List.idxOf_lt_length_iff.2 (List.mem_singleton.mpr rfl)⟩ = ix2 (j 0) 0 := by
      funext b; refine Fin.ext ?_
      match b with
      | ⟨0, _⟩ => rfl
      | ⟨1, _⟩ => rfl
    rw [hsi]
    rfl
  have hw0 : (rowScatterDims N E D wf).window j 0 = 0 := by
    unfold ScatterDims.window
    rw [dif_neg (show ¬ (0 : Fin 2) ∈ (rowScatterDims N E D wf).sKept from
      (show ¬ (0 : Fin 2) ∈ (List.finRange 2).filter (fun a => a ∉ ([0] : List (Fin 2))) by decide))]
  -- axis 1 is not named by the map and is the one window axis: the start is zero, the window coordinate is the update's column
  have hs1 : (rowScatterDims N E D wf).start j idx 1 = 0 := by
    unfold ScatterDims.start
    rw [dif_neg (show ¬ (1 : Fin 2) ∈ (rowScatterDims N E D wf).scatterDimsToOperandDims from
      (show ¬ (1 : Fin 2) ∈ ([0] : List (Fin 2)) by decide))]
  have hw1 : (rowScatterDims N E D wf).window j 1 = (j 1).val := by
    unfold ScatterDims.window
    rw [dif_pos (show (1 : Fin 2) ∈ (rowScatterDims N E D wf).sKept from
      (show (1 : Fin 2) ∈ (List.finRange 2).filter (fun a => a ∉ ([0] : List (Fin 2))) by decide))]
    rfl
  have hi0 : (i 0).val < N := (i 0).isLt
  have hi1 : (i 1).val < D := (i 1).isLt
  -- so the landing point is inside the operand on both axes
  have hr : ∀ a : Fin 2, 0 ≤ (rowScatterDims N E D wf).start j idx a + ((rowScatterDims N E D wf).window j a : Nat)
      ∧ (rowScatterDims N E D wf).start j idx a + ((rowScatterDims N E D wf).window j a : Nat)
        < (((⟨2, ![N, D]⟩ : Shape).size a : Nat) : Int) := by
    intro a
    match a with
    | ⟨0, _⟩ =>
      show 0 ≤ (rowScatterDims N E D wf).start j idx 0 + ((rowScatterDims N E D wf).window j 0 : Nat)
        ∧ (rowScatterDims N E D wf).start j idx 0 + ((rowScatterDims N E D wf).window j 0 : Nat) < ((N : Nat) : Int)
      rw [hs0, hw0, h0]; omega
    | ⟨1, _⟩ =>
      show 0 ≤ (rowScatterDims N E D wf).start j idx 1 + ((rowScatterDims N E D wf).window j 1 : Nat)
        ∧ (rowScatterDims N E D wf).start j idx 1 + ((rowScatterDims N E D wf).window j 1 : Nat) < ((D : Nat) : Int)
      rw [hs1, hw1, h1]; omega
  unfold ScatterDims.resultIdx?
  rw [dif_pos hr]
  refine congrArg some (funext fun a => Fin.ext ?_)
  match a with
  | ⟨0, _⟩ =>
    show ((rowScatterDims N E D wf).start j idx 0 + ((rowScatterDims N E D wf).window j 0 : Nat)).toNat = (i 0).val
    rw [hs0, hw0, h0]; omega
  | ⟨1, _⟩ =>
    show ((rowScatterDims N E D wf).start j idx 1 + ((rowScatterDims N E D wf).window j 1 : Nat)).toNat = (i 1).val
    rw [hs1, hw1, h1]; omega

/-- The index column `[100000, 1]` broadcast from the vector `B` reads `B n` at `(n, 0)`. -/
theorem indexColumn_apply
    (bc : (⟨1, ![100000]⟩ : Shape).BroadcastsInDim ⟨2, ![100000, 1]⟩ (![0] : Fin 1 → Fin 2))
    (B : IVec ⟨1, ![100000]⟩ 32) (n : Fin 100000) :
    broadcastInDim ⟨2, ![100000, 1]⟩ ![0] bc B (ix2 n 0) = B (ix1 n) := by
  unfold broadcastInDim
  refine congrArg B (funext fun a => ?_)
  match a with
  | ⟨0, _⟩ =>
    rw [dif_neg (show ¬ (⟨1, ![100000]⟩ : Shape).size ⟨0, by decide⟩ = 1 by decide)]
    rfl

/-- A signed 32-bit word is the natural number `g < 64` exactly when it is the word `g`. -/
theorem toInt_eq_iff_eq_ofNat (v : BitVec 32) (g : Nat) (hg : g < 64) :
    v.toInt = (g : Int) ↔ v = BitVec.ofNat 32 g := by
  have hn : (BitVec.ofNat 32 g).toNat = g := by
    rw [BitVec.toNat_ofNat]; exact Nat.mod_eq_of_lt (by omega)
  have hgi : (BitVec.ofNat 32 g).toInt = (g : Int) := by
    rw [BitVec.toInt_eq_toNat_of_lt (by rw [hn]; omega), hn]
  constructor
  · intro h; exact BitVec.eq_of_toInt_eq (h.trans hgi.symm)
  · intro h; rw [h, hgi]

/-- A sum over `T * B` consecutive naturals is the sum over `T` blocks of the sums over each block's `B` naturals. -/
theorem sum_naturals_by_blocks {β : Type*} [AddCommMonoid β] (T B : Nat) (f : Nat → β) :
    ∑ n : Fin (T * B), f n.val = ∑ s ∈ Finset.range T, ∑ k : Fin B, f (B * s + k.val) := by
  calc ∑ n : Fin (T * B), f n.val
      = ∑ p : Fin T × Fin B, f (finProdFinEquiv p).val := (Equiv.sum_comp finProdFinEquiv (fun n => f n.val)).symm
    _ = ∑ s : Fin T, ∑ k : Fin B, f (k.val + B * s.val) := by rw [Fintype.sum_prod_type]; rfl
    _ = ∑ s ∈ Finset.range T, ∑ k : Fin B, f (B * s + k.val) := by
        rw [← Fin.sum_univ_eq_sum_range (fun s => ∑ k : Fin B, f (B * s + k.val)) T]
        simp only [Nat.add_comm]

/-- Twenty tiles of five thousand rows: a sum over the hundred thousand rows is the sum over the tiles of the sums over
    each tile's rows. -/
theorem sum_rows_eq_tiles (g : Fin 100000 → EReal) :
    ∑ n : Fin 100000, g n = ∑ s ∈ Finset.range 20, ∑ k : Fin 5000, g (row s k) := by
  have h1 : ∑ n : Fin 100000, g n
      = ∑ n : Fin (20 * 5000), (fun m : Nat => if h : m < 100000 then g ⟨m, h⟩ else 0) n.val := by
    refine Finset.sum_congr rfl fun n _ => ?_
    show g n = if h : n.val < 100000 then g ⟨n.val, h⟩ else 0
    rw [dif_pos n.isLt]
  refine h1.trans ((sum_naturals_by_blocks 20 5000 (fun m : Nat => if h : m < 100000 then g ⟨m, h⟩ else 0)).trans ?_)
  refine Finset.sum_congr rfl fun s hs => Finset.sum_congr rfl fun k _ => ?_
  have hs' : s < 20 := Finset.mem_range.mp hs
  have hk := k.isLt
  show (if h : 5000 * s + k.val < 100000 then g ⟨5000 * s + k.val, h⟩ else 0) = g (row s k)
  rw [dif_pos (by omega)]
  refine congrArg g (Fin.ext ?_)
  show 5000 * s + k.val = 5000 * (s % 20) + k.val
  rw [Nat.mod_eq_of_lt hs']

/-- The scatter-add of `H`'s rows by the column of indices `B`, read at `(g, f)`, is the start value there plus the twenty
    tiles' one-hot products. -/
theorem scatterAdd_eq_tiles
    (wf : ScatterDims.WF ⟨2, ![64, 128]⟩ ⟨2, ![100000, 1]⟩ ⟨2, ![100000, 128]⟩ [1] [0] [0] 1)
    (bc : (⟨1, ![100000]⟩ : Shape).BroadcastsInDim ⟨2, ![100000, 1]⟩ (![0] : Fin 1 → Fin 2))
    (Z : (⟨2, ![64, 128]⟩ : Shape).Idx → EReal) (B : IVec ⟨1, ![100000]⟩ 32)
    (H : (⟨2, ![100000, 128]⟩ : Shape).Idx → EReal) (i : (⟨2, ![64, 128]⟩ : Shape).Idx) :
    Ideal.hostScatterAdd (rowScatterDims 64 100000 128 wf) Z
        (broadcastInDim ⟨2, ![100000, 1]⟩ ![0] bc B) H i
      = Z i + ∑ s ∈ Finset.range 20, tile B H s i := by
  -- update `(n, c)` lands at `(g, f)` exactly when `B n` is the word `g` and `c = f`
  have hland : ∀ j : (⟨2, ![100000, 128]⟩ : Shape).Idx,
      ((rowScatterDims 64 100000 128 wf).resultIdx? j (broadcastInDim ⟨2, ![100000, 1]⟩ ![0] bc B) = some i)
        ↔ (B (ix1 (j 0)) = BitVec.ofNat 32 (i 0).val ∧ (j 1).val = (i 1).val) := by
    intro j
    rw [← toInt_eq_iff_eq_ofNat _ _ (idx2_lt0 i), ← indexColumn_apply bc B (j 0)]
    exact ⟨fun h => scatterRows_resultIdx wf _ j i h, fun h => scatterRows_lands wf _ j i h.1 h.2⟩
  -- of the columns of row `n` only column `f` passes the test
  have hcol : ∀ (a : Fin 100000) (f : Fin 128),
      ∑ b : Fin 128, (if b.val = f.val then H (ix2 a b) else 0) = H (ix2 a f) := by
    intro a f
    rw [Finset.sum_eq_single f]
    · rw [if_pos rfl]
    · intro b _ hne; rw [if_neg (fun h => hne (Fin.ext h))]
    · intro h; exact absurd (Finset.mem_univ _) h
  unfold Ideal.hostScatterAdd
  refine congrArg (fun t => Z i + t) ?_
  calc ∑ j ∈ Finset.univ.filter (fun j => (rowScatterDims 64 100000 128 wf).resultIdx? j
          (broadcastInDim ⟨2, ![100000, 1]⟩ ![0] bc B) = some i), H j
      = ∑ j ∈ Finset.univ.filter (fun j : (⟨2, ![100000, 128]⟩ : Shape).Idx =>
          B (ix1 (j 0)) = BitVec.ofNat 32 (i 0).val ∧ (j 1).val = (i 1).val), H j :=
        Finset.sum_congr (Finset.filter_congr fun j _ => hland j) fun _ _ => rfl
    _ = ∑ j : (⟨2, ![100000, 128]⟩ : Shape).Idx,
          if B (ix1 (j 0)) = BitVec.ofNat 32 (i 0).val ∧ (j 1).val = (i 1).val then H j else 0 :=
        Finset.sum_filter _ _
    _ = ∑ a : Fin 100000, ∑ b : Fin 128,
          if B (ix1 a) = BitVec.ofNat 32 (i 0).val ∧ b.val = (i 1).val then H (ix2 a b) else 0 := sum_idx2 _
    _ = ∑ a : Fin 100000,
          (if B (ix1 a) = BitVec.ofNat 32 (i 0).val then (1 : EReal) else 0) * H (ix2 a (i 1)) := by
        refine Finset.sum_congr rfl fun a _ => ?_
        by_cases hb : B (ix1 a) = BitVec.ofNat 32 (i 0).val
        · simp only [hb, true_and, if_true, one_mul]
          exact hcol a (i 1)
        · simp only [hb, false_and, if_false, zero_mul, Finset.sum_const_zero]
    _ = ∑ s ∈ Finset.range 20, tile B H s i := sum_rows_eq_tiles _

end Cert.Gcn

end
-- ==== Proof.Pool6.lean ====
import proofs.«423662_j14370960573165_1_alg».proof.Proof.Gen.KernelIdeal.Frame
import proofs.«423662_j14370960573165_1_alg».proof.Proof.Gen.ReferenceIdeal
import Idealize.ShloMosaic.Lib.Pipeline.Value
import Idealize.ShloMosaic.Lib.ValueIdx
import Idealize.ShloMosaic.Lib.ValueLayout
import Idealize.ShloMosaic.PureOps.Ideal.Laws
import proofs.«423662_j14370960573165_1_alg».proof.Proof.PoolMath

noncomputable section

open Idealize.ShloMosaic Idealize.ShloMosaic.TcCoe Idealize.SL.Sem
open Idealize.ShloMosaic.Pipeline (Dat)

namespace Cert.KernelIdeal.Pool6

open Cert.KernelIdeal Cert.KernelIdeal.Gen

/-- The TensorCore's buffer contents when a region is entered. -/
abbrev Entry := (c : Dev nD) → (b : Ref sig .tc) → Buf (Elt Ideal) ((c : Thread nD τ).loc b)

section Tiles

open Idealize.ShloMosaic.ValueIdx

/-! ## What each case of the body leaves in the output's buffer -/

/-- The zero offsets of a whole-block access. -/
theorem zero_offsets : (![0, 0] : Fin 2 → Nat) = fun _ => 0 := funext fun a => by fin_cases a <;> rfl

/-- A later point: the body leaves the update of the running block `xo` by the point's graph-id block and feature block. -/
theorem later_point_leaves {F : FTy → Type} [FloatOps F] (c : Dev nD) (i : grid6.Coords)
    (a1 : Memref sig .tc .vmem S5000x128 .f32) (h1 : a1.IsWhole)
    (a2 : Memref sig .tc .vmem S5000x1 .i32) (h2 : a2.IsWhole)
    (a3 : Memref sig .tc .vmem S64x128 .f32) (h3 : a3.IsWhole) (hc : ¬cond6_0 i)
    (x0 : Vec F S5000x128 .f32) (x1 : Vec F S5000x1 .i32) (xo : Vec F S64x128 .f32) :
    out6_B_2 c i a1 h1 a2 h2 a3 h3 hc x0 x1 xo = k6_pay2 x1 x0 xo := by
  unfold out6_B_2
  rw [View.read_writes_eq_canon _ _ _ (cover6_B_2 c i a1 h1 a2 h2 a3 h3 hc x0 x1 xo)]
  unfold kernelRun6_B
  dsimp only
  sl_unfold_words
  rw [View.canon_unit_zero zero_offsets]
  simp only [View.readAt_eq_ld, h1.read_unread, h2.read_unread, h3.read_unread,
    View.ld_unit_zero (S := S5000x128) zero_offsets, View.ld_unit_zero (S := S5000x1) zero_offsets, View.ld_unit_zero (S := S64x128) zero_offsets]

/-- The first point: the body stores the zero block, reads it back, and leaves the update of the zero block. -/
theorem first_point_leaves {F : FTy → Type} [FloatOps F] (c : Dev nD) (i : grid6.Coords)
    (a1 : Memref sig .tc .vmem S5000x128 .f32) (h1 : a1.IsWhole)
    (a2 : Memref sig .tc .vmem S5000x1 .i32) (h2 : a2.IsWhole)
    (a3 : Memref sig .tc .vmem S64x128 .f32) (h3 : a3.IsWhole) (hc : cond6_0 i)
    (x0 : Vec F S5000x128 .f32) (x1 : Vec F S5000x1 .i32) :
    out6_A_2 c i a1 h1 a2 h2 a3 h3 hc x0 x1 = k6_pay2 x1 x0 (k6_pay1 (F := F)) := by
  unfold out6_A_2
  rw [View.read_writes_eq_canon _ _ _ (cover6_A_2 c i a1 h1 a2 h2 a3 h3 hc x0 x1)]
  unfold kernelRun6_A
  dsimp only
  sl_unfold_words
  rw [View.canon_cons_unit_zero (S := S64x128) zero_offsets, View.readCov_unit_zero (S := S64x128) _ zero_offsets]
  simp only [View.readAt_eq_ld, h1.read_unread, h2.read_unread, h3.read_unread,
    View.ld_unit_zero (S := S5000x128) zero_offsets, View.ld_unit_zero (S := S5000x1) zero_offsets, View.ld_unit_zero (S := S64x128) zero_offsets]

/-! ## The update read at an index, over exact values -/

/-- A comparison's bit, widened to a word and read as a signed integer, is the real one or zero. -/
theorem onehot_word (a b : BitVec 32) :
    FloatOps.sitofp (F := Ideal) .f32 ((IntOp.cmpi .eq a b).setWidth 32) = if a = b then (1 : EReal) else 0 := by
  show (((((IntOp.cmpi .eq a b).setWidth 32).toInt : ℝ)) : EReal) = _
  by_cases h : a = b
  · rw [if_pos h]
    have e : (IntOp.cmpi .eq a b).setWidth 32 = 1#32 := by
      subst h; simp [IntOp.cmpi]
    rw [e]
    norm_num
  · rw [if_neg h]
    have e : (IntOp.cmpi .eq a b).setWidth 32 = 0#32 := by
      have hb : (a == b) = false := beq_false_of_ne h
      simp [IntOp.cmpi, hb]
    rw [e]
    norm_num

/-- The contraction's operand indices at output `(g, f)` and contraction coordinate `k`: the left operand is read at
    `(g, k)` and the right at `(k, f)`, axis by axis. -/
theorem lhs_pool_0 (i : S64x128.Idx) (q : dot_S64x5000_S5000x128_S64x128_1_0_0_1_n_n.contr.Idx) :
    (dot_S64x5000_S5000x128_S64x128_1_0_0_1_n_n.lhsIdx i q 0).val = (i 0).val := by
  unfold DotDims.lhsIdx
  rw [dif_neg (show ¬(0 : Fin S64x5000.rank) ∈ dot_S64x5000_S5000x128_S64x128_1_0_0_1_n_n.lhsBatch by decide), dif_pos (show (0 : Fin S64x5000.rank) ∈ dot_S64x5000_S5000x128_S64x128_1_0_0_1_n_n.lhsNonContracting by decide)]
  rfl
theorem lhs_pool_1 (i : S64x128.Idx) (q : dot_S64x5000_S5000x128_S64x128_1_0_0_1_n_n.contr.Idx) :
    (dot_S64x5000_S5000x128_S64x128_1_0_0_1_n_n.lhsIdx i q 1).val = (q ⟨0, by decide⟩).val :=
  dot_S64x5000_S5000x128_S64x128_1_0_0_1_n_n.lhsIdx_val_of_single rfl i q
theorem rhs_pool_0 (i : S64x128.Idx) (q : dot_S64x5000_S5000x128_S64x128_1_0_0_1_n_n.contr.Idx) :
    (dot_S64x5000_S5000x128_S64x128_1_0_0_1_n_n.rhsIdx i q 0).val = (q ⟨0, by decide⟩).val :=
  dot_S64x5000_S5000x128_S64x128_1_0_0_1_n_n.rhsIdx_val_of_single rfl i q
theorem rhs_pool_1 (i : S64x128.Idx) (q : dot_S64x5000_S5000x128_S64x128_1_0_0_1_n_n.contr.Idx) :
    (dot_S64x5000_S5000x128_S64x128_1_0_0_1_n_n.rhsIdx i q 1).val = (i 1).val := by
  unfold DotDims.rhsIdx
  rw [dif_neg (show ¬(1 : Fin S5000x128.rank) ∈ dot_S64x5000_S5000x128_S64x128_1_0_0_1_n_n.rhsBatch by decide), dif_pos (show (1 : Fin S5000x128.rank) ∈ dot_S64x5000_S5000x128_S64x128_1_0_0_1_n_n.rhsNonContracting by decide)]
  rfl

/-- The transposed one-hot block at graph `g`, row `k`: one where row `k`'s graph id is `g`, zero elsewhere. -/
theorem onehot_apply (bk : Vec Ideal S5000x1 .i32) (g : Fin 64) (k : Fin 5000) :
    (transpose S64x5000 [1, 0] (truncf .bf16 (sitofp .f32 (extui 32 (cmpi .eq
        (broadcastTo S5000x64 (shapeCast S5000x1 bk shapeCasts_S5000x1_S5000x1) broadcasts_S5000x1_S5000x64)
        (iota .tc S5000x64 32 [1] iota_S5000x64_d1_w32)) natLt_1_32)) bitsLt_bf16_f32)
        transposes_S5000x64_p1_0_S64x5000 : FVec Ideal S64x5000 .bf16) (ix2 g k)
      = if bk (ix2 k 0) = BitVec.ofNat 32 g.val then (1 : EReal) else 0 := by
  refine (transpose_apply [1, 0] _ transposes_S5000x64_p1_0_S64x5000 (ix2 g k) (ix2 k g)
    (fun b => match b with | ⟨0, _⟩ => rfl | ⟨1, _⟩ => rfl)).trans ?_
  refine (onehot_word _ _).trans ?_
  have e1 : iota .tc S5000x64 32 [1] iota_S5000x64_d1_w32 (ix2 k g) = BitVec.ofNat 32 g.val :=
    iota_single_apply .tc S5000x64 32 1 iota_S5000x64_d1_w32 (ix2 k g)
  have e2 : broadcastTo S5000x64 (shapeCast S5000x1 bk shapeCasts_S5000x1_S5000x1) broadcasts_S5000x1_S5000x64 (ix2 k g)
      = bk (ix2 k 0) :=
    (broadcastTo_apply _ broadcasts_S5000x1_S5000x64 (ix2 k g) (ix2 k 0)
      (fun a => match a with | ⟨0, _⟩ => rfl | ⟨1, _⟩ => rfl)).trans (congrFun (shapeCast_self bk _) _)
  rw [e1, e2]

/-- The update at `(g, f)`: the running value there plus the tile's one-hot product, the sum over the block's rows `k`
    of `[graph id of row k = g]` times the feature `(k, f)` (the contraction of the transposed one-hot block with the
    feature block, over exact values). -/
theorem update_apply (bk : Vec Ideal S5000x1 .i32) (h : Vec Ideal S5000x128 .f32) (acc : Vec Ideal S64x128 .f32)
    (g : Fin 64) (f : Fin 128) :
    k6_pay2 (F := Ideal) bk h acc (ix2 g f)
      = acc (ix2 g f) + ∑ k : Fin 5000, (if bk (ix2 k 0) = BitVec.ofNat 32 g.val then (1 : EReal) else 0) * h (ix2 k f) := by
  unfold k6_pay2
  refine (ValueIdx.addf_apply _ _ (ix2 g f)).trans ?_
  refine congrArg₂ (· + ·) (congrFun (shapeCast_self acc _) _) ?_
  refine (Ideal.matmul_constant_zero_apply dot_S64x5000_S5000x128_S64x128_1_0_0_1_n_n none _ _ (ix2 g f)).trans ?_
  rw [← Equiv.sum_comp (ValueIdx.contrEquiv1 dot_S64x5000_S5000x128_S64x128_1_0_0_1_n_n 5000 rfl rfl).symm]
  refine Finset.sum_congr rfl fun k _ => ?_
  have hk := ValueIdx.contrEquiv1_symm_val dot_S64x5000_S5000x128_S64x128_1_0_0_1_n_n 5000 rfl rfl k
  have el : dot_S64x5000_S5000x128_S64x128_1_0_0_1_n_n.lhsIdx (ix2 g f) ((ValueIdx.contrEquiv1 dot_S64x5000_S5000x128_S64x128_1_0_0_1_n_n 5000 rfl rfl).symm k) = ix2 g k := funext fun a => Fin.ext (by
    match a with
    | ⟨0, _⟩ => exact lhs_pool_0 _ _
    | ⟨1, _⟩ => exact (lhs_pool_1 _ _).trans hk)
  have er : dot_S64x5000_S5000x128_S64x128_1_0_0_1_n_n.rhsIdx (ix2 g f) ((ValueIdx.contrEquiv1 dot_S64x5000_S5000x128_S64x128_1_0_0_1_n_n 5000 rfl rfl).symm k) = ix2 k f := funext fun a => Fin.ext (by
    match a with
    | ⟨0, _⟩ => exact (rhs_pool_0 _ _).trans hk
    | ⟨1, _⟩ => exact rhs_pool_1 _ _)
  rw [el, er]
  exact congrArg₂ (· * ·) (onehot_apply bk g k) (congrFun (shapeCast_self h _) _)

/-! ## The blocks the windows hold, read off the arrays -/

section Blocks
variable (V : Entry) (c : Dev nD)

/-- The feature block and the graph-id block the windows hold at point `t`, at their literal types. -/
abbrev featBlock (t : Fin cfg6.N) : FVec Ideal S5000x128 .f32 := iblk6 V c 0 t
abbrev idBlock (t : Fin cfg6.N) : IVec S5000x1 32 := iblk6 V c 1 t

/-- The windows' index maps over the grid: the two input windows move one block of rows per point, the output window stays. -/
theorem window_index_maps : ∀ t : Fin cfg6.N, win6_0.index t (0 : Fin 2) = t.val ∧ win6_0.index t (1 : Fin 2) = 0
    ∧ win6_1.index t (0 : Fin 2) = t.val ∧ win6_1.index t (1 : Fin 2) = 0
    ∧ win6_2.index t (0 : Fin 2) = 0 ∧ win6_2.index t (1 : Fin 2) = 0 :=
  (by decide +kernel : ∀ t : Fin grid6.N, _)

/-- The feature block of point `t` at `(k, f)` is the node features at row `5000 t + k`, column `f`. -/
theorem featBlock_apply (t : Fin cfg6.N) (k : Fin 5000) (f : Fin 128) :
    featBlock V c t (ix2 k f) = V c main_v78 (ix2 (Cert.Gcn.row t.val k) f) := by
  have hN : t.val < 20 := lt_of_lt_of_eq t.isLt (show cfg6.N = 20 from N_6)
  obtain ⟨e0, e1, -, -, -, -⟩ := window_index_maps t
  show iblk6 V c 0 t (ix2 k f) = _
  unfold iblk6
  rw [View.read_apply]
  show V c main_v78 _ = V c main_v78 _
  refine congrArg (V c main_v78) (funext fun a => Fin.ext ?_)
  match a with
  | ⟨0, _⟩ =>
    show win6_0.index t (0 : Fin 2) * 5000 + 1 * k.val = 5000 * (t.val % 20) + k.val
    rw [e0, Nat.mod_eq_of_lt hN]; omega
  | ⟨1, _⟩ =>
    show win6_0.index t (1 : Fin 2) * 128 + 1 * f.val = f.val
    rw [e1]; omega

/-- The graph-id block of point `t` at `(k, 0)` is the graph id of row `5000 t + k`: the column is the id vector
    reshaped, and the reshape keeps the row-major position. -/
theorem idBlock_apply (B : IVec S100000 32) (hB : V c main_v79 = shapeCast S100000x1 B shapeCasts_S100000_S100000x1)
    (t : Fin cfg6.N) (k : Fin 5000) :
    idBlock V c t (ix2 k 0) = B (ix1 (Cert.Gcn.row t.val k)) := by
  have hN : t.val < 20 := lt_of_lt_of_eq t.isLt (show cfg6.N = 20 from N_6)
  obtain ⟨-, -, e0, e1, -, -⟩ := window_index_maps t
  show iblk6 V c 1 t (ix2 k 0) = _
  unfold iblk6
  rw [View.read_apply]
  show V c main_v79 _ = _
  rw [hB]
  refine shapeCast_apply B shapeCasts_S100000_S100000x1 _ (ix1 (Cert.Gcn.row t.val k)) ?_
  rw [Shape.rowMajor_val_one, Shape.rowMajor_val_two]
  show 5000 * (t.val % 20) + k.val = (win6_1.index t (0 : Fin 2) * 5000 + 1 * k.val) * 1 + (win6_1.index t (1 : Fin 2) * 1 + 1 * 0)
  rw [e0, e1, Nat.mod_eq_of_lt hN]; omega

/-- The zero block is zero everywhere. -/
theorem zero_block_apply (i : S64x128.Idx) : k6_pay1 (F := Ideal) i = 0 := Ideal.ofBits_zero_f32

/-- One point's update at an index: what was there plus the point's tile's one-hot product. -/
theorem point_update_apply (B : IVec S100000 32) (hB : V c main_v79 = shapeCast S100000x1 B shapeCasts_S100000_S100000x1)
    (t : Fin cfg6.N) (acc : Vec Ideal S64x128 .f32) (i : S64x128.Idx) :
    k6_pay2 (F := Ideal) (idBlock V c t) (featBlock V c t) acc i = acc i + Cert.Gcn.tile B (V c main_v78) t.val i := by
  obtain ⟨g, f, rfl⟩ : ∃ (g : Fin 64) (f : Fin 128), i = ix2 g f := ⟨i 0, i 1, eq_ix2 i⟩
  refine (update_apply (idBlock V c t) (featBlock V c t) acc g f).trans ?_
  unfold Cert.Gcn.tile
  refine congrArg (acc (ix2 g f) + ·) (Finset.sum_congr rfl fun k _ => ?_)
  rw [idBlock_apply V c B hB t k, featBlock_apply V c t k f]

/-! ## The fold over the twenty points -/

/-- After the last point the output's buffer holds, at each index, zero plus the twenty tiles' one-hot products: the
    first point resets and adds its tile, each later point adds its own. -/
theorem buffer_after_last_point (B : IVec S100000 32) (hB : V c main_v79 = shapeCast S100000x1 B shapeCasts_S100000_S100000x1)
    (h : 19 < cfg6.N) (i : S64x128.Idx) :
    outsAt6 V c 19 h i = (0 : EReal) + ∑ s ∈ Finset.range 20, Cert.Gcn.tile B (V c main_v78) s i := by
  have e := Pipeline.eq_accAt_of_mod (outsAt6 V c) 20
    (fun n hn => k6_pay2 (F := Ideal) (idBlock V c ⟨n, hn⟩) (featBlock V c ⟨n, hn⟩) (k6_pay1 (F := Ideal)))
    (fun n hn acc => k6_pay2 (F := Ideal) (idBlock V c ⟨n, hn⟩) (featBlock V c ⟨n, hn⟩) acc)
    (fun n hn h0 => (outsAt6_A V c ⟨n, hn⟩ h0).trans
      (first_point_leaves (F := Ideal) c (grid6.coords ⟨n, hn⟩) (ms6_0 ⟨n, hn⟩) (hs6_0 ⟨n, hn⟩) (ms6_1 ⟨n, hn⟩) (hs6_1 ⟨n, hn⟩)
        (ms6_2 ⟨n, hn⟩) (hs6_2 ⟨n, hn⟩) ((hcond6_0 ⟨n, hn⟩).mpr h0) (featBlock V c ⟨n, hn⟩) (idBlock V c ⟨n, hn⟩)))
    (fun n hn h0 => (outsAt6_B V c ⟨n + 1, hn⟩ h0).trans
      (later_point_leaves (F := Ideal) c (grid6.coords ⟨n + 1, hn⟩) (ms6_0 ⟨n + 1, hn⟩) (hs6_0 ⟨n + 1, hn⟩) (ms6_1 ⟨n + 1, hn⟩)
        (hs6_1 ⟨n + 1, hn⟩) (ms6_2 ⟨n + 1, hn⟩) (hs6_2 ⟨n + 1, hn⟩) (fun hh => h0 ((hcond6_0 ⟨n + 1, hn⟩).mp hh))
        (featBlock V c ⟨n + 1, hn⟩) (idBlock V c ⟨n + 1, hn⟩) (outsAt6 V c n (Nat.lt_of_succ_lt hn))))
    (by decide) 19 h h
  rw [e]
  refine (Pipeline.accAt_add_apply (ι := S64x128.Idx) (β := EReal)
    (fun n hn => k6_pay2 (F := Ideal) (idBlock V c ⟨n, hn⟩) (featBlock V c ⟨n, hn⟩) (k6_pay1 (F := Ideal)))
    (fun n hn acc => k6_pay2 (F := Ideal) (idBlock V c ⟨n, hn⟩) (featBlock V c ⟨n, hn⟩) acc)
    (fun _ => (0 : EReal)) (fun n j => Cert.Gcn.tile B (V c main_v78) n j) 0 19
    (fun hn j => (point_update_apply V c B hB ⟨0, hn⟩ (k6_pay1 (F := Ideal)) j).trans (by rw [zero_block_apply]))
    (fun n hn acc j _ _ => point_update_apply V c B hB ⟨n, hn⟩ acc j)
    19 (le_refl 19) h i).trans ?_
  refine congrArg ((0 : EReal) + ·) (Finset.sum_congr rfl fun s _ => ?_)
  rw [Nat.zero_add]

/-! ## From the buffer to the array -/

/-- The pooled array: at `(g, f)` zero plus the twenty tiles' one-hot products. -/
abbrev pooled (B : IVec S100000 32) : Buf (Elt Ideal) ((c : Thread nD τ).loc main_v80) :=
  fun i => (0 : EReal) + ∑ s ∈ Finset.range 20, Cert.Gcn.tile B (V c main_v78) s i

/-- The one write-back, after the last point, writes it: the output's one block, at offset zero, is the whole array. -/
theorem written_back_eq (B : IVec S100000 32) (hB : V c main_v79 = shapeCast S100000x1 B shapeCasts_S100000_S100000x1)
    (t : Fin cfg6.N) (hf : (cfg6.win 2).flush t = true) :
    (dat6 V c).flushed 2 t = ((cfg6.win 2).blk t).view.read (Elt Ideal) (pooled V c B) := by
  have hN : cfg6.N = 20 := N_6
  have h19 : t.val = 19 := by have := (flush6_2 t).mp hf; have := t.isLt; omega
  obtain ⟨-, -, -, -, e0, e1⟩ := window_index_maps t
  show (cfg6.win 2).cut (grid6.coords t) ((dat6 V c).after 2 t) = _
  rw [after6_2]
  have hO : outsAt6 V c t.val t.isLt = pooled V c B := by
    obtain ⟨n, hn⟩ := t
    obtain rfl : n = 19 := h19
    exact funext fun i => buffer_after_last_point V c B hB hn i
  rw [hO]
  have hoff : (fun a => win6_2.index t a * main_v80.ty.shape.size a) = fun _ => 0 := funext fun a => by
    match a with
    | ⟨0, _⟩ => show win6_2.index t (0 : Fin 2) * _ = 0; rw [e0, Nat.zero_mul]
    | ⟨1, _⟩ => show win6_2.index t (1 : Fin 2) * _ = 0; rw [e1, Nat.zero_mul]
  exact (Memref.read_access_unit_zero (Elt Ideal) main_v80 hoff (fun a => by rw [congrFun hoff a]; simp) (pooled V c B)).symm

/-- An index of the array is in point `t`'s block iff each coordinate is in the block's range on its axis. -/
theorem mem_out_block (t : Fin cfg6.N) (i : S64x128.Idx) :
    i ∈ ((cfg6.win 2).blk t).view.set ↔ ∀ a : Fin 2, win6_2.index t a * S64x128.size a ≤ (i a).val ∧ (i a).val < win6_2.index t a * S64x128.size a + S64x128.size a := by
  show i ∈ ((View.whole main_v80).slice (win6_2.rect t)).set ↔ _
  rw [View.set_slice_whole, Rect.mem_set_unit]
  exact Iff.rfl

/-- So the array ends holding the pooled values: the last point's block covers every index. -/
theorem arr_eq_pooled (B : IVec S100000 32) (hB : V c main_v79 = shapeCast S100000x1 B shapeCasts_S100000_S100000x1) :
    (dat6 V c).arrAt 2 cfg6.N = pooled V c B := by
  have h19 : 19 < cfg6.N := by rw [show cfg6.N = 20 from N_6]; decide
  refine (dat6 V c).arrAt_eq_of_cover 2 (pooled V c B) (written_back_eq V c B hB) fun i => ⟨⟨19, h19⟩, (flush6_2 ⟨19, h19⟩).mpr rfl, ?_⟩
  obtain ⟨-, -, -, -, e0, e1⟩ := window_index_maps ⟨19, h19⟩
  rw [mem_out_block]
  intro a
  match a with
  | ⟨0, _⟩ =>
    show win6_2.index ⟨19, h19⟩ (0 : Fin 2) * 64 ≤ (i 0).val ∧ (i 0).val < win6_2.index ⟨19, h19⟩ (0 : Fin 2) * 64 + 64
    have hi : (i 0).val < 64 := (i 0).isLt
    rw [e0]; omega
  | ⟨1, _⟩ =>
    show win6_2.index ⟨19, h19⟩ (1 : Fin 2) * 128 ≤ (i 1).val ∧ (i 1).val < win6_2.index ⟨19, h19⟩ (1 : Fin 2) * 128 + 128
    have hi : (i 1).val < 128 := (i 1).isLt
    rw [e1]; omega

end Blocks

end Tiles

/-- The pooled array after the twenty grid points: at `(g, f)` the zero the first point stores plus the twenty tiles'
    one-hot products of the node features `V c main_v78` by the graph ids `B`. -/
theorem arr_eq_tiles (V : Entry) (c : Dev nD) (B : IVec S100000 32)
    (hB : V c main_v79 = shapeCast S100000x1 B shapeCasts_S100000_S100000x1) :
    (dat6 V c).arrAt 2 cfg6.N
      = fun i => (0 : EReal) + ∑ s ∈ Finset.range 20, Cert.Gcn.tile B (V c main_v78) s i :=
  arr_eq_pooled V c B hB

/-- So the pooled array is the reference's scatter-add of the node features by the graph ids into zeros. -/
theorem final (V : Entry) (c : Dev nD) (B : IVec S100000 32)
    (hB : V c main_v79 = shapeCast S100000x1 B shapeCasts_S100000_S100000x1) :
    (dat6 V c).arrAt 2 cfg6.N
      = Host.scatterAdd (F := Ideal) Cert.ReferenceIdeal.scatter_S64x128_S100000x1_S100000x128_1_0_0_1
          (broadcastInDim Cert.ReferenceIdeal.S64x128 ![] Cert.ReferenceIdeal.Facts₀.bcast_S_S64x128 (constant (F := Ideal) S_ .f32 0x00000000#32))
          (broadcastInDim Cert.ReferenceIdeal.S100000x1 ![0] Cert.ReferenceIdeal.Facts₀.bcast_S100000_S100000x1_0 B)
          (V c main_v78) := by
  rw [arr_eq_tiles V c B hB]
  funext i
  refine ((Cert.Gcn.scatterAdd_eq_tiles Cert.ReferenceIdeal.Facts₀.scatter_S64x128_S100000x1_S100000x128_1_0_0_1_wf
    Cert.ReferenceIdeal.Facts₀.bcast_S100000_S100000x1_0 _ B (V c main_v78) i).trans ?_).symm
  congr 1
  exact Ideal.ofBits_zero_f32

end Cert.KernelIdeal.Pool6

end
-- ==== Proof.Chain.lean ====
/-
  The kernel's result, boundary by boundary.

  @main of the idealized kernel is seven kernel regions among stretches of host operations. Read from the launch memory
  `m`, the buffers that matter hold, at each boundary, the value the reference's own operation of the same place
  computes from the arguments: the host stretches of the two programs are the same operations (the edge lists with
  self-loops, the symmetric normalisation, one message-passing step `agg` — gather the source rows, scale, scatter-add
  at the target rows — three times, the mean's tail), a projection region is the reference's matrix product, an
  activation region its bias sum and maximum with zero, and the pooling region its scatter-add by graph id.
-/
import proofs.«423662_j14370960573165_1_alg».proof.Proof.KRun
import proofs.«423662_j14370960573165_1_alg».proof.Proof.Lin0
import proofs.«423662_j14370960573165_1_alg».proof.Proof.Lin2
import proofs.«423662_j14370960573165_1_alg».proof.Proof.Lin4
import proofs.«423662_j14370960573165_1_alg».proof.Proof.Act1
import proofs.«423662_j14370960573165_1_alg».proof.Proof.Act3
import proofs.«423662_j14370960573165_1_alg».proof.Proof.Act5
import proofs.«423662_j14370960573165_1_alg».proof.Proof.Pool6
import proofs.«423662_j14370960573165_1_alg».proof.Proof.RefRead
import Idealize.ShloMosaic.Lib.StableHlo.Run

set_option maxRecDepth 16384

noncomputable section

open Idealize.ShloMosaic Idealize.ShloMosaic.TcCoe Idealize.SL.Sem Idealize.ShloMosaic.StableHlo

namespace Cert.KernelIdeal.Chain

open Cert.KernelIdeal Cert.KernelIdeal.Gen

/-! ## The shared host stretches, as functions of what they read (at any float family) -/

section Stretches

variable {F : FTy → Type} [FloatOps F]

/-- One message-passing step: gather the rows `h[src]` (a negative index wrapped once), scale row `e` by `nrm e`, and
    scatter-add the rows at `dst` into zeros. -/
def agg (h : FVec F S100000x128 .f32) (nrm : FVec F S1700000 .f32) (src dst : IVec S1700000 32) : FVec F S100000x128 .f32 :=
  Host.scatterAdd scatter_S100000x128_S1700000x1_S1700000x128_1_0_0_1
    (broadcastInDim S100000x128 ![] bcast_S_S100000x128 (constant S_ .f32 0x00000000#32))
    (broadcastInDim S1700000x1 ![0] bcast_S1700000_S1700000x1_0 dst)
    (mulf (broadcastInDim S1700000x128 ![0, 1] bcast_S1700000x1_S1700000x128_0_1 (broadcastInDim S1700000x1 ![0] bcast_S1700000_S1700000x1_0 nrm))
      (Host.gather gather_S100000x128_S1700000x1_S1700000x128_1_0_n_n_0_1_1128 h
        (broadcastInDim S1700000x1 ![0] bcast_S1700000_S1700000x1_0
          (select (cmpi .slt src (broadcastInDim S1700000 ![] bcast_S_S1700000 (constantI S_ 32 0#32)))
            (addi src (broadcastInDim S1700000 ![] bcast_S_S1700000 (constantI S_ 32 100000#32))) src))))

/-- The tail: the per-graph node counts (a scatter-add of ones by graph id), the pooled sums divided by `max count 1`,
    the last matrix product and its bias. -/
def tail (p : FVec F S64x128 .f32) (ids : IVec S100000 32) (wl : FVec F S128x4 .f32) (bl : FVec F S4 .f32) : FVec F S64x4 .f32 :=
  addf
    (Host.dotGeneral dot_S64x128_S128x4_S64x4_1_0_0_1_n_n none
      (Host.divf p
        (broadcastInDim S64x128 ![0, 1] bcast_S64x1_S64x128_0_1
          (broadcastInDim S64x1 ![0] bcast_S64_S64x1_0
            (maximumf
              (Host.scatterAdd scatter_S64_S100000x1_S100000_n_0_0_1
                (broadcastInDim S64 ![] bcast_S_S64 (constant S_ .f32 0x00000000#32))
                (broadcastInDim S100000x1 ![0] bcast_S100000_S100000x1_0 ids)
                (broadcastInDim S100000 ![] bcast_S_S100000 (constant S_ .f32 0x3F800000#32)))
              (broadcastInDim S64 ![] bcast_S_S64 (constant S_ .f32 0x3F800000#32))))))
      wl)
    (broadcastInDim S64x4 ![0, 1] bcast_S1x4_S64x4_0_1 (broadcastInDim S1x4 ![1] bcast_S4_S1x4_1 bl))

variable (V : Valuation τ sig (Elt F))

/-- The first message-passing stretch writes `agg` of what it reads … -/
theorem host1_agg : StableHlo.after hostOps1 V (Proc.devRef .tc main_v44)
    = agg (V (Proc.devRef .tc main_v31)) (V (Proc.devRef .tc main_v30)) (V (Proc.devRef .tc main_v3)) (V (Proc.devRef .tc main_v6)) := by
  after_results_simp <;> rfl
/-- … and the first bias as a row. -/
theorem host1_bias : StableHlo.after hostOps1 V (Proc.devRef .tc main_v45)
    = shapeCast S1x128 (V (Proc.devRef .tc main_arg4)) shapeCasts_S128_S1x128 := by
  after_results_simp <;> rfl
theorem host3_agg : StableHlo.after hostOps3 V (Proc.devRef .tc main_v60)
    = agg (V (Proc.devRef .tc main_v47)) (V (Proc.devRef .tc main_v30)) (V (Proc.devRef .tc main_v3)) (V (Proc.devRef .tc main_v6)) := by
  after_results_simp <;> rfl
theorem host3_bias : StableHlo.after hostOps3 V (Proc.devRef .tc main_v61)
    = shapeCast S1x128 (V (Proc.devRef .tc main_arg6)) shapeCasts_S128_S1x128 := by
  after_results_simp <;> rfl
theorem host5_agg : StableHlo.after hostOps5 V (Proc.devRef .tc main_v76)
    = agg (V (Proc.devRef .tc main_v63)) (V (Proc.devRef .tc main_v30)) (V (Proc.devRef .tc main_v3)) (V (Proc.devRef .tc main_v6)) := by
  after_results_simp <;> rfl
theorem host5_bias : StableHlo.after hostOps5 V (Proc.devRef .tc main_v77)
    = shapeCast S1x128 (V (Proc.devRef .tc main_arg8)) shapeCasts_S128_S1x128 := by
  after_results_simp <;> rfl
/-- The graph ids as a column. -/
theorem host6_ids : StableHlo.after hostOps6 V (Proc.devRef .tc main_v79)
    = shapeCast S100000x1 (V (Proc.devRef .tc main_arg2)) shapeCasts_S100000_S100000x1 := by
  after_results_simp <;> rfl
/-- The last stretch writes `tail` of what it reads. -/
theorem host7_tail : StableHlo.after hostOps7 V (Proc.devRef .tc main_v93)
    = tail (V (Proc.devRef .tc main_v80)) (V (Proc.devRef .tc main_arg2)) (V (Proc.devRef .tc main_arg9)) (V (Proc.devRef .tc main_arg10)) := by
  after_results_simp <;> rfl

end Stretches

/-! ## The reference's stages, cut at the same places -/

section Reference

variable {F : FTy → Type} [FloatOps F]

theorem ref_agg1 (x0 : (⟨Cert.ReferenceIdeal.S100000x3, .f32⟩ : BufTy).Contents (Elt F)) (x1 : (⟨Cert.ReferenceIdeal.S2x1600000, .i32⟩ : BufTy).Contents (Elt F)) (x3 : (⟨Cert.ReferenceIdeal.S3x128, .f32⟩ : BufTy).Contents (Elt F)) :
    Cert.ReferenceIdeal.ReadP.val_main_v44 (F := F) x0 x1 x3
      = agg (Cert.ReferenceIdeal.ReadP.val_main_v31 (F := F) x0 x3) (Cert.ReferenceIdeal.ReadP.val_main_v30 (F := F) x1) (Cert.ReferenceIdeal.ReadP.val_main_v3 (F := F) x1) (Cert.ReferenceIdeal.ReadP.val_main_v6 (F := F) x1) := rfl
theorem ref_act1 (x0 : (⟨Cert.ReferenceIdeal.S100000x3, .f32⟩ : BufTy).Contents (Elt F)) (x1 : (⟨Cert.ReferenceIdeal.S2x1600000, .i32⟩ : BufTy).Contents (Elt F)) (x3 : (⟨Cert.ReferenceIdeal.S3x128, .f32⟩ : BufTy).Contents (Elt F)) (x4 : (⟨Cert.ReferenceIdeal.S128, .f32⟩ : BufTy).Contents (Elt F)) :
    Cert.ReferenceIdeal.ReadP.val_main_v48 (F := F) x0 x1 x3 x4
      = maximumf (addf (Cert.ReferenceIdeal.ReadP.val_main_v44 (F := F) x0 x1 x3) (broadcastInDim Cert.ReferenceIdeal.S100000x128 ![0, 1] Cert.ReferenceIdeal.Facts₀.bcast_S1x128_S100000x128_0_1 (broadcastInDim Cert.ReferenceIdeal.S1x128 ![1] Cert.ReferenceIdeal.Facts₀.bcast_S128_S1x128_1 x4))) (broadcastInDim Cert.ReferenceIdeal.S100000x128 ![] Cert.ReferenceIdeal.Facts₀.bcast_S_S100000x128 (constant (F := F) S_ .f32 0x00000000#32)) := rfl
theorem ref_lin2 (x0 : (⟨Cert.ReferenceIdeal.S100000x3, .f32⟩ : BufTy).Contents (Elt F)) (x1 : (⟨Cert.ReferenceIdeal.S2x1600000, .i32⟩ : BufTy).Contents (Elt F)) (x3 : (⟨Cert.ReferenceIdeal.S3x128, .f32⟩ : BufTy).Contents (Elt F)) (x4 : (⟨Cert.ReferenceIdeal.S128, .f32⟩ : BufTy).Contents (Elt F)) (x5 : (⟨Cert.ReferenceIdeal.S128x128, .f32⟩ : BufTy).Contents (Elt F)) :
    Cert.ReferenceIdeal.ReadP.val_main_v49 (F := F) x0 x1 x3 x4 x5
      = Host.dotGeneral Cert.ReferenceIdeal.dot_S100000x128_S128x128_S100000x128_1_0_0_1_n_n none (Cert.ReferenceIdeal.ReadP.val_main_v48 (F := F) x0 x1 x3 x4) x5 := rfl
theorem ref_agg2 (x0 : (⟨Cert.ReferenceIdeal.S100000x3, .f32⟩ : BufTy).Contents (Elt F)) (x1 : (⟨Cert.ReferenceIdeal.S2x1600000, .i32⟩ : BufTy).Contents (Elt F)) (x3 : (⟨Cert.ReferenceIdeal.S3x128, .f32⟩ : BufTy).Contents (Elt F)) (x4 : (⟨Cert.ReferenceIdeal.S128, .f32⟩ : BufTy).Contents (Elt F)) (x5 : (⟨Cert.ReferenceIdeal.S128x128, .f32⟩ : BufTy).Contents (Elt F)) :
    Cert.ReferenceIdeal.ReadP.val_main_v62 (F := F) x0 x1 x3 x4 x5
      = agg (Cert.ReferenceIdeal.ReadP.val_main_v49 (F := F) x0 x1 x3 x4 x5) (Cert.ReferenceIdeal.ReadP.val_main_v30 (F := F) x1) (Cert.ReferenceIdeal.ReadP.val_main_v3 (F := F) x1) (Cert.ReferenceIdeal.ReadP.val_main_v6 (F := F) x1) := rfl
theorem ref_act3 (x0 : (⟨Cert.ReferenceIdeal.S100000x3, .f32⟩ : BufTy).Contents (Elt F)) (x1 : (⟨Cert.ReferenceIdeal.S2x1600000, .i32⟩ : BufTy).Contents (Elt F)) (x3 : (⟨Cert.ReferenceIdeal.S3x128, .f32⟩ : BufTy).Contents (Elt F)) (x4 : (⟨Cert.ReferenceIdeal.S128, .f32⟩ : BufTy).Contents (Elt F)) (x5 : (⟨Cert.ReferenceIdeal.S128x128, .f32⟩ : BufTy).Contents (Elt F)) (x6 : (⟨Cert.ReferenceIdeal.S128, .f32⟩ : BufTy).Contents (Elt F)) :
    Cert.ReferenceIdeal.ReadP.val_main_v66 (F := F) x0 x1 x3 x4 x5 x6
      = maximumf (addf (Cert.ReferenceIdeal.ReadP.val_main_v62 (F := F) x0 x1 x3 x4 x5) (broadcastInDim Cert.ReferenceIdeal.S100000x128 ![0, 1] Cert.ReferenceIdeal.Facts₀.bcast_S1x128_S100000x128_0_1 (broadcastInDim Cert.ReferenceIdeal.S1x128 ![1] Cert.ReferenceIdeal.Facts₀.bcast_S128_S1x128_1 x6))) (broadcastInDim Cert.ReferenceIdeal.S100000x128 ![] Cert.ReferenceIdeal.Facts₀.bcast_S_S100000x128 (constant (F := F) S_ .f32 0x00000000#32)) := rfl
theorem ref_lin4 (x0 : (⟨Cert.ReferenceIdeal.S100000x3, .f32⟩ : BufTy).Contents (Elt F)) (x1 : (⟨Cert.ReferenceIdeal.S2x1600000, .i32⟩ : BufTy).Contents (Elt F)) (x3 : (⟨Cert.ReferenceIdeal.S3x128, .f32⟩ : BufTy).Contents (Elt F)) (x4 : (⟨Cert.ReferenceIdeal.S128, .f32⟩ : BufTy).Contents (Elt F)) (x5 : (⟨Cert.ReferenceIdeal.S128x128, .f32⟩ : BufTy).Contents (Elt F)) (x6 : (⟨Cert.ReferenceIdeal.S128, .f32⟩ : BufTy).Contents (Elt F)) (x7 : (⟨Cert.ReferenceIdeal.S128x128, .f32⟩ : BufTy).Contents (Elt F)) :
    Cert.ReferenceIdeal.ReadP.val_main_v67 (F := F) x0 x1 x3 x4 x5 x6 x7
      = Host.dotGeneral Cert.ReferenceIdeal.dot_S100000x128_S128x128_S100000x128_1_0_0_1_n_n none (Cert.ReferenceIdeal.ReadP.val_main_v66 (F := F) x0 x1 x3 x4 x5 x6) x7 := rfl
theorem ref_agg3 (x0 : (⟨Cert.ReferenceIdeal.S100000x3, .f32⟩ : BufTy).Contents (Elt F)) (x1 : (⟨Cert.ReferenceIdeal.S2x1600000, .i32⟩ : BufTy).Contents (Elt F)) (x3 : (⟨Cert.ReferenceIdeal.S3x128, .f32⟩ : BufTy).Contents (Elt F)) (x4 : (⟨Cert.ReferenceIdeal.S128, .f32⟩ : BufTy).Contents (Elt F)) (x5 : (⟨Cert.ReferenceIdeal.S128x128, .f32⟩ : BufTy).Contents (Elt F)) (x6 : (⟨Cert.ReferenceIdeal.S128, .f32⟩ : BufTy).Contents (Elt F)) (x7 : (⟨Cert.ReferenceIdeal.S128x128, .f32⟩ : BufTy).Contents (Elt F)) :
    Cert.ReferenceIdeal.ReadP.val_main_v80 (F := F) x0 x1 x3 x4 x5 x6 x7
      = agg (Cert.ReferenceIdeal.ReadP.val_main_v67 (F := F) x0 x1 x3 x4 x5 x6 x7) (Cert.ReferenceIdeal.ReadP.val_main_v30 (F := F) x1) (Cert.ReferenceIdeal.ReadP.val_main_v3 (F := F) x1) (Cert.ReferenceIdeal.ReadP.val_main_v6 (F := F) x1) := rfl
theorem ref_act5 (x0 : (⟨Cert.ReferenceIdeal.S100000x3, .f32⟩ : BufTy).Contents (Elt F)) (x1 : (⟨Cert.ReferenceIdeal.S2x1600000, .i32⟩ : BufTy).Contents (Elt F)) (x3 : (⟨Cert.ReferenceIdeal.S3x128, .f32⟩ : BufTy).Contents (Elt F)) (x4 : (⟨Cert.ReferenceIdeal.S128, .f32⟩ : BufTy).Contents (Elt F)) (x5 : (⟨Cert.ReferenceIdeal.S128x128, .f32⟩ : BufTy).Contents (Elt F)) (x6 : (⟨Cert.ReferenceIdeal.S128, .f32⟩ : BufTy).Contents (Elt F)) (x7 : (⟨Cert.ReferenceIdeal.S128x128, .f32⟩ : BufTy).Contents (Elt F)) (x8 : (⟨Cert.ReferenceIdeal.S128, .f32⟩ : BufTy).Contents (Elt F)) :
    Cert.ReferenceIdeal.ReadP.val_main_v83 (F := F) x0 x1 x3 x4 x5 x6 x7 x8
      = addf (Cert.ReferenceIdeal.ReadP.val_main_v80 (F := F) x0 x1 x3 x4 x5 x6 x7) (broadcastInDim Cert.ReferenceIdeal.S100000x128 ![0, 1] Cert.ReferenceIdeal.Facts₀.bcast_S1x128_S100000x128_0_1 (broadcastInDim Cert.ReferenceIdeal.S1x128 ![1] Cert.ReferenceIdeal.Facts₀.bcast_S128_S1x128_1 x8)) := rfl
theorem ref_pool (x0 : (⟨Cert.ReferenceIdeal.S100000x3, .f32⟩ : BufTy).Contents (Elt F)) (x1 : (⟨Cert.ReferenceIdeal.S2x1600000, .i32⟩ : BufTy).Contents (Elt F)) (x2 : (⟨Cert.ReferenceIdeal.S100000, .i32⟩ : BufTy).Contents (Elt F)) (x3 : (⟨Cert.ReferenceIdeal.S3x128, .f32⟩ : BufTy).Contents (Elt F)) (x4 : (⟨Cert.ReferenceIdeal.S128, .f32⟩ : BufTy).Contents (Elt F)) (x5 : (⟨Cert.ReferenceIdeal.S128x128, .f32⟩ : BufTy).Contents (Elt F)) (x6 : (⟨Cert.ReferenceIdeal.S128, .f32⟩ : BufTy).Contents (Elt F)) (x7 : (⟨Cert.ReferenceIdeal.S128x128, .f32⟩ : BufTy).Contents (Elt F)) (x8 : (⟨Cert.ReferenceIdeal.S128, .f32⟩ : BufTy).Contents (Elt F)) :
    Cert.ReferenceIdeal.ReadP.val_main_v86 (F := F) x0 x1 x2 x3 x4 x5 x6 x7 x8
      = Host.scatterAdd Cert.ReferenceIdeal.scatter_S64x128_S100000x1_S100000x128_1_0_0_1
          (broadcastInDim Cert.ReferenceIdeal.S64x128 ![] Cert.ReferenceIdeal.Facts₀.bcast_S_S64x128 (constant (F := F) S_ .f32 0x00000000#32))
          (broadcastInDim Cert.ReferenceIdeal.S100000x1 ![0] Cert.ReferenceIdeal.Facts₀.bcast_S100000_S100000x1_0 x2)
          (Cert.ReferenceIdeal.ReadP.val_main_v83 (F := F) x0 x1 x3 x4 x5 x6 x7 x8) := rfl
theorem ref_tail (x0 : (⟨Cert.ReferenceIdeal.S100000x3, .f32⟩ : BufTy).Contents (Elt F)) (x1 : (⟨Cert.ReferenceIdeal.S2x1600000, .i32⟩ : BufTy).Contents (Elt F)) (x2 : (⟨Cert.ReferenceIdeal.S100000, .i32⟩ : BufTy).Contents (Elt F)) (x3 : (⟨Cert.ReferenceIdeal.S3x128, .f32⟩ : BufTy).Contents (Elt F)) (x4 : (⟨Cert.ReferenceIdeal.S128, .f32⟩ : BufTy).Contents (Elt F)) (x5 : (⟨Cert.ReferenceIdeal.S128x128, .f32⟩ : BufTy).Contents (Elt F)) (x6 : (⟨Cert.ReferenceIdeal.S128, .f32⟩ : BufTy).Contents (Elt F)) (x7 : (⟨Cert.ReferenceIdeal.S128x128, .f32⟩ : BufTy).Contents (Elt F)) (x8 : (⟨Cert.ReferenceIdeal.S128, .f32⟩ : BufTy).Contents (Elt F)) (x9 : (⟨Cert.ReferenceIdeal.S128x4, .f32⟩ : BufTy).Contents (Elt F)) (x10 : (⟨Cert.ReferenceIdeal.S4, .f32⟩ : BufTy).Contents (Elt F)) :
    Cert.ReferenceIdeal.ReadP.val_main_v99 (F := F) x0 x1 x2 x3 x4 x5 x6 x7 x8 x9 x10
      = tail (Cert.ReferenceIdeal.ReadP.val_main_v86 (F := F) x0 x1 x2 x3 x4 x5 x6 x7 x8) x2 x9 x10 := rfl

end Reference

/-! ## Buffers no segment writes keep their contents across it -/

section Carries

variable {F : FTy → Type} [FloatOps F]
variable (m : (ℓ : Loc nD τ sig) → Buf (Elt F) ℓ) (ρ : Dev nD → PrngReg) (c : Dev nD)

/-- One step back through a stretch of host operations none of which writes the buffer. -/
macro "bk_host" : tactic => `(tactic|
  refine (StableHlo.after_of_forall_not_mem _ _ (List.forall_iff_forall_mem.mp (by
    simp only [hostOps0, hostOps0_1, hostOps0_2, hostOps1, hostOps3, hostOps5, hostOps6, hostOps7, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans ?_)
/-- One step back through a kernel region of whose arrays the buffer is none. -/
macro "bk_reg" n:ident : tactic => `(tactic| refine ($n _ _ _ _ (by decide)).trans ?_)
macro "back_3_0" : tactic => `(tactic| (bk_host; bk_host; bk_host))
macro "back_4_3" : tactic => `(tactic| (bk_reg W4_of_ne))
macro "back_6_4" : tactic => `(tactic| (bk_reg W6_of_ne; bk_host))
macro "back_7_4" : tactic => `(tactic| (bk_reg W7_of_ne; back_6_4))
macro "back_9_7" : tactic => `(tactic| (bk_reg W9_of_ne; bk_host))
macro "back_10_7" : tactic => `(tactic| (bk_reg W10_of_ne; back_9_7))
macro "back_12_10" : tactic => `(tactic| (bk_reg W12_of_ne; bk_host))
macro "back_14_12" : tactic => `(tactic| (bk_reg W14_of_ne; bk_host))

theorem keep_arg0_3 : W3 m ρ c (Proc.devRef .tc main_arg0) = (m ((c : Thread nD τ).loc main_arg0)) := by
  back_3_0
  rfl
theorem keep_arg3_3 : W3 m ρ c (Proc.devRef .tc main_arg3) = (m ((c : Thread nD τ).loc main_arg3)) := by
  back_3_0
  rfl
theorem keep_arg4_4 : W4 m ρ c (Proc.devRef .tc main_arg4) = (m ((c : Thread nD τ).loc main_arg4)) := by
  back_4_3; back_3_0
  rfl
theorem keep_v30_4 : W4 m ρ c (Proc.devRef .tc main_v30) = W3 m ρ c (Proc.devRef .tc main_v30) := by
  back_4_3
  rfl
theorem keep_v3_4 : W4 m ρ c (Proc.devRef .tc main_v3) = W3 m ρ c (Proc.devRef .tc main_v3) := by
  back_4_3
  rfl
theorem keep_v6_4 : W4 m ρ c (Proc.devRef .tc main_v6) = W3 m ρ c (Proc.devRef .tc main_v6) := by
  back_4_3
  rfl
theorem keep_arg5_6 : W6 m ρ c (Proc.devRef .tc main_arg5) = (m ((c : Thread nD τ).loc main_arg5)) := by
  back_6_4; back_4_3; back_3_0
  rfl
theorem keep_v30_7 : W7 m ρ c (Proc.devRef .tc main_v30) = W3 m ρ c (Proc.devRef .tc main_v30) := by
  back_7_4; back_4_3
  rfl
theorem keep_v3_7 : W7 m ρ c (Proc.devRef .tc main_v3) = W3 m ρ c (Proc.devRef .tc main_v3) := by
  back_7_4; back_4_3
  rfl
theorem keep_v6_7 : W7 m ρ c (Proc.devRef .tc main_v6) = W3 m ρ c (Proc.devRef .tc main_v6) := by
  back_7_4; back_4_3
  rfl
theorem keep_arg6_7 : W7 m ρ c (Proc.devRef .tc main_arg6) = (m ((c : Thread nD τ).loc main_arg6)) := by
  back_7_4; back_4_3; back_3_0
  rfl
theorem keep_arg7_9 : W9 m ρ c (Proc.devRef .tc main_arg7) = (m ((c : Thread nD τ).loc main_arg7)) := by
  back_9_7; back_7_4; back_4_3; back_3_0
  rfl
theorem keep_v30_10 : W10 m ρ c (Proc.devRef .tc main_v30) = W3 m ρ c (Proc.devRef .tc main_v30) := by
  back_10_7; back_7_4; back_4_3
  rfl
theorem keep_v3_10 : W10 m ρ c (Proc.devRef .tc main_v3) = W3 m ρ c (Proc.devRef .tc main_v3) := by
  back_10_7; back_7_4; back_4_3
  rfl
theorem keep_v6_10 : W10 m ρ c (Proc.devRef .tc main_v6) = W3 m ρ c (Proc.devRef .tc main_v6) := by
  back_10_7; back_7_4; back_4_3
  rfl
theorem keep_arg8_10 : W10 m ρ c (Proc.devRef .tc main_arg8) = (m ((c : Thread nD τ).loc main_arg8)) := by
  back_10_7; back_7_4; back_4_3; back_3_0
  rfl
theorem keep_arg2_12 : W12 m ρ c (Proc.devRef .tc main_arg2) = (m ((c : Thread nD τ).loc main_arg2)) := by
  back_12_10; back_10_7; back_7_4; back_4_3; back_3_0
  rfl
theorem keep_v78_13 : W13 m ρ c (Proc.devRef .tc main_v78) = W12 m ρ c (Proc.devRef .tc main_v78) := by
  bk_host
  rfl
theorem keep_arg2_14 : W14 m ρ c (Proc.devRef .tc main_arg2) = (m ((c : Thread nD τ).loc main_arg2)) := by
  back_14_12; back_12_10; back_10_7; back_7_4; back_4_3; back_3_0
  rfl
theorem keep_arg9_14 : W14 m ρ c (Proc.devRef .tc main_arg9) = (m ((c : Thread nD τ).loc main_arg9)) := by
  back_14_12; back_12_10; back_10_7; back_7_4; back_4_3; back_3_0
  rfl
theorem keep_arg10_14 : W14 m ρ c (Proc.devRef .tc main_arg10) = (m ((c : Thread nD τ).loc main_arg10)) := by
  back_14_12; back_12_10; back_10_7; back_7_4; back_4_3; back_3_0
  rfl

/-! ## The first stretch: the edge lists with self-loops and the normalisation are the reference's -/

set_option maxHeartbeats 4000000 in
theorem src_eq : W3 m ρ c (Proc.devRef .tc main_v3) = Cert.ReferenceIdeal.ReadP.val_main_v3 (F := F) (m ((c : Thread nD τ).loc main_arg1)) := by
  show StableHlo.after hostOps0_2 (StableHlo.after hostOps0_1 (StableHlo.after hostOps0 (W0 m ρ c))) (Proc.devRef .tc main_v3) = _
  after_results_simp <;> rfl
set_option maxHeartbeats 4000000 in
theorem dst_eq : W3 m ρ c (Proc.devRef .tc main_v6) = Cert.ReferenceIdeal.ReadP.val_main_v6 (F := F) (m ((c : Thread nD τ).loc main_arg1)) := by
  show StableHlo.after hostOps0_2 (StableHlo.after hostOps0_1 (StableHlo.after hostOps0 (W0 m ρ c))) (Proc.devRef .tc main_v6) = _
  after_results_simp <;> rfl
set_option maxHeartbeats 4000000 in
theorem nrm_eq : W3 m ρ c (Proc.devRef .tc main_v30) = Cert.ReferenceIdeal.ReadP.val_main_v30 (F := F) (m ((c : Thread nD τ).loc main_arg1)) := by
  show StableHlo.after hostOps0_2 (StableHlo.after hostOps0_1 (StableHlo.after hostOps0 (W0 m ρ c))) (Proc.devRef .tc main_v30) = _
  after_results_simp <;> rfl

end Carries

/-! ## The walk, at the extended reals: each buffer that matters at the reference's value of the same place -/

section Walk

variable (m : (ℓ : Loc nD τ sig) → Buf (Elt Ideal) ℓ) (ρ : Dev nD → PrngReg) (c : Dev nD)

/-- The arguments' launch contents. -/
abbrev A0 := m ((c : Thread nD τ).loc main_arg0)
abbrev A1 := m ((c : Thread nD τ).loc main_arg1)
abbrev A2 := m ((c : Thread nD τ).loc main_arg2)
abbrev A3 := m ((c : Thread nD τ).loc main_arg3)
abbrev A4 := m ((c : Thread nD τ).loc main_arg4)
abbrev A5 := m ((c : Thread nD τ).loc main_arg5)
abbrev A6 := m ((c : Thread nD τ).loc main_arg6)
abbrev A7 := m ((c : Thread nD τ).loc main_arg7)
abbrev A8 := m ((c : Thread nD τ).loc main_arg8)
abbrev A9 := m ((c : Thread nD τ).loc main_arg9)
abbrev A10 := m ((c : Thread nD τ).loc main_arg10)

/-- Region 0 leaves `x @ W1`. -/
theorem h1_eq : W4 m ρ c (Proc.devRef .tc main_v31) = Cert.ReferenceIdeal.ReadP.val_main_v31 (F := Ideal) (A0 m c) (A3 m c) :=
  (W4_arr m ρ c 2).trans ((Lin0.final (V3 m ρ) c).trans
    (congrArg₂ (Host.dotGeneral (F := Ideal) (φ₁ := .f32) (φ₂ := .f32) Cert.ReferenceIdeal.dot_S100000x3_S3x128_S100000x128_1_0_0_1_n_n none)
      (keep_arg0_3 m ρ c) (keep_arg3_3 m ρ c)))

/-- The first message-passing step. -/
theorem agg1_eq : W5 m ρ c (Proc.devRef .tc main_v44) = Cert.ReferenceIdeal.ReadP.val_main_v44 (F := Ideal) (A0 m c) (A1 m c) (A3 m c) :=
  (host1_agg (W4 m ρ c)).trans (by
    rw [h1_eq m ρ c, keep_v30_4 m ρ c, keep_v3_4 m ρ c, keep_v6_4 m ρ c, nrm_eq m ρ c, src_eq m ρ c, dst_eq m ρ c]
    exact (ref_agg1 ..).symm)
theorem bias1_eq : W5 m ρ c (Proc.devRef .tc main_v45) = shapeCast S1x128 (A4 m c) shapeCasts_S128_S1x128 :=
  (host1_bias (W4 m ρ c)).trans (by rw [keep_arg4_4 m ρ c])

/-- Region 1 leaves `max (agg + b1) 0`. -/
theorem act1_eq : W6 m ρ c (Proc.devRef .tc main_v46) = Cert.ReferenceIdeal.ReadP.val_main_v48 (F := Ideal) (A0 m c) (A1 m c) (A3 m c) (A4 m c) :=
  (W6_arr m ρ c 2).trans ((Act1.final (V5 m ρ) c (A4 m c) (bias1_eq m ρ c)).trans (by
    rw [show V5 m ρ c main_v44 = _ from agg1_eq m ρ c]
    exact (ref_act1 ..).symm))

/-- Region 2 leaves its product with `W2`. -/
theorem h2_eq : W7 m ρ c (Proc.devRef .tc main_v47) = Cert.ReferenceIdeal.ReadP.val_main_v49 (F := Ideal) (A0 m c) (A1 m c) (A3 m c) (A4 m c) (A5 m c) :=
  (W7_arr m ρ c 2).trans ((Lin2.final (V6 m ρ) c).trans
    ((congrArg₂ (Host.dotGeneral (F := Ideal) (φ₁ := .f32) (φ₂ := .f32) Cert.ReferenceIdeal.dot_S100000x128_S128x128_S100000x128_1_0_0_1_n_n none)
      (act1_eq m ρ c) (keep_arg5_6 m ρ c)).trans (ref_lin2 ..).symm))

theorem agg2_eq : W8 m ρ c (Proc.devRef .tc main_v60) = Cert.ReferenceIdeal.ReadP.val_main_v62 (F := Ideal) (A0 m c) (A1 m c) (A3 m c) (A4 m c) (A5 m c) :=
  (host3_agg (W7 m ρ c)).trans (by
    rw [h2_eq m ρ c, keep_v30_7 m ρ c, keep_v3_7 m ρ c, keep_v6_7 m ρ c, nrm_eq m ρ c, src_eq m ρ c, dst_eq m ρ c]
    exact (ref_agg2 ..).symm)
theorem bias2_eq : W8 m ρ c (Proc.devRef .tc main_v61) = shapeCast S1x128 (A6 m c) shapeCasts_S128_S1x128 :=
  (host3_bias (W7 m ρ c)).trans (by rw [keep_arg6_7 m ρ c])

theorem act3_eq : W9 m ρ c (Proc.devRef .tc main_v62) = Cert.ReferenceIdeal.ReadP.val_main_v66 (F := Ideal) (A0 m c) (A1 m c) (A3 m c) (A4 m c) (A5 m c) (A6 m c) :=
  (W9_arr m ρ c 2).trans ((Act3.final (V8 m ρ) c (A6 m c) (bias2_eq m ρ c)).trans (by
    rw [show V8 m ρ c main_v60 = _ from agg2_eq m ρ c]
    exact (ref_act3 ..).symm))

theorem h3_eq : W10 m ρ c (Proc.devRef .tc main_v63) = Cert.ReferenceIdeal.ReadP.val_main_v67 (F := Ideal) (A0 m c) (A1 m c) (A3 m c) (A4 m c) (A5 m c) (A6 m c) (A7 m c) :=
  (W10_arr m ρ c 2).trans ((Lin4.final (V9 m ρ) c).trans
    ((congrArg₂ (Host.dotGeneral (F := Ideal) (φ₁ := .f32) (φ₂ := .f32) Cert.ReferenceIdeal.dot_S100000x128_S128x128_S100000x128_1_0_0_1_n_n none)
      (act3_eq m ρ c) (keep_arg7_9 m ρ c)).trans (ref_lin4 ..).symm))

theorem agg3_eq : W11 m ρ c (Proc.devRef .tc main_v76) = Cert.ReferenceIdeal.ReadP.val_main_v80 (F := Ideal) (A0 m c) (A1 m c) (A3 m c) (A4 m c) (A5 m c) (A6 m c) (A7 m c) :=
  (host5_agg (W10 m ρ c)).trans (by
    rw [h3_eq m ρ c, keep_v30_10 m ρ c, keep_v3_10 m ρ c, keep_v6_10 m ρ c, nrm_eq m ρ c, src_eq m ρ c, dst_eq m ρ c]
    exact (ref_agg3 ..).symm)
theorem bias3_eq : W11 m ρ c (Proc.devRef .tc main_v77) = shapeCast S1x128 (A8 m c) shapeCasts_S128_S1x128 :=
  (host5_bias (W10 m ρ c)).trans (by rw [keep_arg8_10 m ρ c])

theorem act5_eq : W12 m ρ c (Proc.devRef .tc main_v78) = Cert.ReferenceIdeal.ReadP.val_main_v83 (F := Ideal) (A0 m c) (A1 m c) (A3 m c) (A4 m c) (A5 m c) (A6 m c) (A7 m c) (A8 m c) :=
  (W12_arr m ρ c 2).trans ((Act5.final (V11 m ρ) c (A8 m c) (bias3_eq m ρ c)).trans (by
    rw [show V11 m ρ c main_v76 = _ from agg3_eq m ρ c]
    exact (ref_act5 ..).symm))

theorem ids_eq : W13 m ρ c (Proc.devRef .tc main_v79) = shapeCast S100000x1 (A2 m c) shapeCasts_S100000_S100000x1 :=
  (host6_ids (W12 m ρ c)).trans (by rw [keep_arg2_12 m ρ c])

/-- Region 6 leaves the sums of the node rows by graph. -/
theorem pool_eq : W14 m ρ c (Proc.devRef .tc main_v80) = Cert.ReferenceIdeal.ReadP.val_main_v86 (F := Ideal) (A0 m c) (A1 m c) (A2 m c) (A3 m c) (A4 m c) (A5 m c) (A6 m c) (A7 m c) (A8 m c) :=
  (W14_arr m ρ c 2).trans ((Pool6.final (V13 m ρ) c (A2 m c) (ids_eq m ρ c)).trans (by
    rw [show V13 m ρ c main_v78 = _ from (keep_v78_13 m ρ c).trans (act5_eq m ρ c)]
    exact (ref_pool ..).symm))

/-- The result buffer at the last boundary is the reference's result term of the arguments. -/
theorem result_eq : W15 m ρ c (Proc.devRef .tc main_v93) = Cert.ReferenceIdeal.ReadP.val_main_v99 (F := Ideal) (A0 m c) (A1 m c) (A2 m c) (A3 m c) (A4 m c) (A5 m c) (A6 m c) (A7 m c) (A8 m c) (A9 m c) (A10 m c) :=
  (host7_tail (W14 m ρ c)).trans (by
    rw [pool_eq m ρ c, keep_arg2_14 m ρ c, keep_arg9_14 m ρ c, keep_arg10_14 m ρ c]
    exact (ref_tail ..).symm)

end Walk

end Cert.KernelIdeal.Chain

end
-- ==== Proof.lean ====
/-
  A three-layer graph convolution (per layer: project the node features, gather the source rows of every edge, scale by
  the symmetric normalisation, scatter-add at the target rows, add the bias, and — but in the last layer — take the
  maximum with zero), a mean over the nodes of each graph, and a linear head: the kernel computes the projections, the
  bias-and-activation passes and the pooled sums in seven tiled kernel regions and leaves the edge-indexed steps to the
  host; the reference is the same computation in host operations only.

  Over the extended reals the two programs compute one function of the arguments. A projection region's blocks of rows
  times the whole weight matrix are the rows of the reference's matrix product; an activation region's blocks are the
  reference's broadcast bias sum and maximum; the pooling region's twenty one-hot products, accumulated from zero, are
  the reference's scatter-add of the node rows by graph id (a factor `1` or `0` selects the same rows the scatter
  does, and a finite sum of extended reals regroups freely); every host stretch between the regions is, operation by
  operation, the reference's. No law used needs the inputs finite.

  The frames of the two kernel programs are the generated ones; the reference's is its run with the result dropped;
  the idealization rewrote nothing.
-/
import proofs.«423662_j14370960573165_1_alg».proof.Defs
import proofs.«423662_j14370960573165_1_alg».proof.Proof.Gen.Kernel
import proofs.«423662_j14370960573165_1_alg».proof.Proof.Gen.Kernel.Frame
import proofs.«423662_j14370960573165_1_alg».proof.Proof.Gen.KernelIdeal
import proofs.«423662_j14370960573165_1_alg».proof.Proof.Gen.KernelIdeal.Frame
import proofs.«423662_j14370960573165_1_alg».proof.Proof.Gen.ReferenceIdeal
import proofs.«423662_j14370960573165_1_alg».proof.Proof.Gen.Pre_finite_inputs
import proofs.«423662_j14370960573165_1_alg».proof.Proof.KRun
import proofs.«423662_j14370960573165_1_alg».proof.Proof.RefRun
import proofs.«423662_j14370960573165_1_alg».proof.Proof.RefRead
import proofs.«423662_j14370960573165_1_alg».proof.Proof.Chain
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.RunP.run (F := Ideal) m ρ)

/-- From memories agreeing on the arguments both programs end with the result buffer at the reference's result term of
    the arguments: the kernel's by the walk through its fifteen segments, the reference's by its run. -/
theorem algebraic : Cert.algebraic_KernelIdeal_ReferenceIdeal := by
  intro m ρ m' ρ' _ hagree
  refine ⟨fun c => Cert.KernelIdeal.Gen.W15 m ρ c (Proc.devRef .tc Cert.KernelIdeal.main_v93),
    Cert.KernelIdeal.Gen.run_named m ρ, ?_⟩
  refine (θ_run Cert.ReferenceIdeal.defs _ _).mono (fun _ h c => ⟨(h c).1.trans ?_, (h c).2⟩)
    (Cert.ReferenceIdeal.RunP.run (F := Ideal) m' ρ')
  obtain ⟨e0, e1, e2, e3, e4, e5, e6, e7, e8, e9, e10⟩ := hagree c
  rw [Cert.ReferenceIdeal.ReadP.val_main_v99_eq, e0, e1, e2, e3, e4, e5, e6, e7, e8, e9, e10]
  exact (Cert.KernelIdeal.Chain.result_eq m ρ c).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
